-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x32x32 : Shape := ⟨4, ![256, 32, 32, 32]⟩
abbrev S64x32x3x3 : Shape := ⟨4, ![64, 32, 3, 3]⟩
abbrev S64 : Shape := ⟨1, ![64]⟩
abbrev S_ : Shape := ⟨0, ![]⟩

class Facts : Prop where
  bcast_S_S256x32x32x32 : S_.BroadcastsInDim S256x32x32x32 (![] : Fin 0 → Fin S256x32x32x32.rank)
  reducesTo_S256x32x32x32_S_d0_1_2_3 : S256x32x32x32.ReducesTo [0, 1, 2, 3] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x32x3x3 1) : IVec S_ 1 :=
  let main_c_5 : IVec S_ 1 := constantI S_ 1 1#1
  let main_v17 : IVec S_ 1 := (fun x v => Host.reduce IntOp.andi x v reducesTo_S64x32x3x3_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S256x32x32x32 .f32) (main_arg1 : FVec F S64x32x3x3 .f32) (main_arg2 : FVec F S64 .f32) (main_arg3 : FVec F S64x32x3x3 .f32) (main_arg4 : FVec F S64 .f32) : IVec S_ 1 :=
  let main_v0 : FVec F S256x32x32x32 .f32 := Host.absf main_arg0
  let main_cst : FVec F S_ .f32 := constant S_ .f32 0x7F800000#32
  let main_v1 : FVec F S256x32x32x32 .f32 := broadcastInDim S256x32x32x32 ![] bcast_S_S256x32x32x32 main_cst
  let main_v2 : IVec S256x32x32x32 1 := cmpf .olt main_v0 main_v1
  let main_c : IVec S_ 1 := constantI S_ 1 1#1
  let main_v3 : IVec S_ 1 := (fun x v => Host.reduce IntOp.andi x v reducesTo_S256x32x32x32_S_d0_1_2_3 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32x3x3 .f32 := Host.absf main_arg3
  let main_cst_4 : FVec F S_ .f32 := constant S_ .f32 0x7F800000#32
  let main_v15 : FVec F S64x32x3x3 .f32 := broadcastInDim S64x32x3x3 ![] bcast_S_S64x32x3x3 main_cst_4
  let main_v16 : IVec S64x32x3x3 1 := cmpf .olt main_v14 main_v15
  fn_part1 (F := F) main_arg4 main_v13 main_v16
-- ==== Kernel.lean ====
abbrev S256x32x32x32 : Shape := ⟨4, ![256, 32, 32, 32]⟩
abbrev S64x32x3x3 : Shape := ⟨4, ![64, 32, 3, 3]⟩
abbrev S64 : Shape := ⟨1, ![64]⟩
abbrev S32x32x32x256 : Shape := ⟨4, ![32, 32, 32, 256]⟩
abbrev S32x1024x256 : Shape := ⟨3, ![32, 1024, 256]⟩
abbrev S128x32x3x3 : Shape := ⟨4, ![128, 32, 3, 3]⟩
abbrev S3x128x3x32 : Shape := ⟨4, ![3, 128, 3, 32]⟩
abbrev S3x128x96 : Shape := ⟨3, ![3, 128, 96]⟩
abbrev S128 : Shape := ⟨1, ![128]⟩
abbrev S128x1 : Shape := ⟨2, ![128, 1]⟩
abbrev S15x15x64x256 : Shape := ⟨4, ![15, 15, 64, 256]⟩
abbrev S256x64x15x15 : Shape := ⟨4, ![256, 64, 15, 15]⟩
abbrev S1x1024x256 : Shape := ⟨3, ![1, 1024, 256]⟩
abbrev S1x15x64x256 : Shape := ⟨4, ![1, 15, 64, 256]⟩
abbrev S1x128x96 : Shape := ⟨3, ![1, 128, 96]⟩
abbrev S128x96 : Shape := ⟨2, ![128, 96]⟩
abbrev S1x96x256 : Shape := ⟨3, ![1, 96, 256]⟩
abbrev S96x256 : Shape := ⟨2, ![96, 256]⟩
abbrev S128x256 : Shape := ⟨2, ![128, 256]⟩
abbrev S64x256 : Shape := ⟨2, ![64, 256]⟩
abbrev S1x1x64x256 : Shape := ⟨4, ![1, 1, 64, 256]⟩

abbrev nBuf : Space → Nat
  | .hbm => 18
  | .vmem => 10
  | .smem => 0
  | _ => 0

abbrev bufTy : (tb : Table) → Fin (tcTables nBuf tb) → BufTy
  | .hbm, ⟨0, _⟩ => ⟨S256x32x32x32, .f32⟩
  | .hbm, ⟨1, _⟩ => ⟨S64x32x3x3, .f32⟩
  | .hbm, ⟨2, _⟩ => ⟨S64, .f32⟩
  | .hbm, ⟨3, _⟩ => ⟨S64x32x3x3, .f32⟩
  | .hbm, ⟨4, _⟩ => ⟨S64, .f32⟩
  | .hbm, ⟨5, _⟩ => ⟨S256x32x32x32, .bf16⟩
  | .hbm, ⟨6, _⟩ => ⟨S256x32x32x32, .bf16⟩
  | .hbm, ⟨7, _⟩ => ⟨S32x32x32x256, .bf16⟩
  | .hbm, ⟨8, _⟩ => ⟨S32x1024x256, .bf16⟩
  | .hbm, ⟨9, _⟩ => ⟨S128x32x3x3, .f32⟩
  | .hbm, ⟨10, _⟩ => ⟨S128x32x3x3, .bf16⟩
  | .hbm, ⟨11, _⟩ => ⟨S3x128x3x32, .bf16⟩
  | .hbm, ⟨12, _⟩ => ⟨S3x128x96, .bf16⟩
  | .hbm, ⟨13, _⟩ => ⟨S128, .f32⟩
  | .hbm, ⟨14, _⟩ => ⟨S128x1, .f32⟩
  | .hbm, ⟨15, _⟩ => ⟨S15x15x64x256, .bf16⟩
  | .hbm, ⟨16, _⟩ => ⟨S256x64x15x15, .bf16⟩
  | .hbm, ⟨17, _⟩ => ⟨S256x64x15x15, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S3x128x96, .bf16⟩
  | .local _ .vmem, ⟨7, _⟩ => ⟨S128x1, .f32⟩
  | .local _ .vmem, ⟨8, _⟩ => ⟨S1x15x64x256, .bf16⟩
  | .local _ .vmem, ⟨9, _⟩ => ⟨S1x15x64x256, .bf16⟩
  | _, _ => ⟨S256x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c0_i32 : BitVec 32 := 0#32
  let c0_i32_1 : BitVec 32 := 0#32
  let c0_i32_2 : BitVec 32 := 0#32
  ![v1.toNat, c0_i32.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x15x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S256x32x32x32_S32x32x32x256_2_3_1_0 : S256x32x32x32.Transposes [2, 3, 1, 0] S32x32x32x256
  shapeCasts_S32x32x32x256_S32x1024x256 : S32x32x32x256.ShapeCasts S32x1024x256
  concatenates_S64x32x3x3_S64x32x3x3_S128x32x3x3_d0 : Shape.Concatenates [S64x32x3x3, S64x32x3x3] S128x32x3x3 0
  transposes_S128x32x3x3_S3x128x3x32_2_0_3_1 : S128x32x3x3.Transposes [2, 0, 3, 1] S3x128x3x32
  shapeCasts_S3x128x3x32_S3x128x96 : S3x128x3x32.ShapeCasts S3x128x96
  concatenates_S64_S64_S128_d0 : Shape.Concatenates [S64, S64] S128 0
  shapeCasts_S128_S128x1 : S128.ShapeCasts S128x1
  transposes_S15x15x64x256_S256x64x15x15_3_2_0_1 : S15x15x64x256.Transposes [3, 2, 0, 1] S256x64x15x15
  inb_S3x128x96_S1x128x96_0_0_0 : ∀ a, (![0, 0, 0] : Fin 3 → Nat) a + S1x128x96.size a ≤ S3x128x96.size a
  h_S1x128x96 : 0 < S1x128x96.numel
  shapeCasts_S1x128x96_S128x96 : S1x128x96.ShapeCasts S128x96
  inb_S3x128x96_S1x128x96_1_0_0 : ∀ a, (![1, 0, 0] : Fin 3 → Nat) a + S1x128x96.size a ≤ S3x128x96.size a
  inb_S3x128x96_S1x128x96_2_0_0 : ∀ a, (![2, 0, 0] : Fin 3 → Nat) a + S1x128x96.size a ≤ S3x128x96.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1024x256_S1x96x256_0_0_0 : ∀ a, (![0, 0, 0] : Fin 3 → Nat) a + S1x96x256.size a ≤ S1x1024x256.size a
  h_S1x96x256 : 0 < S1x96x256.numel
  shapeCasts_S1x96x256_S96x256 : S1x96x256.ShapeCasts S96x256
  broadcasts_S128x1_S128x256 : S128x1.Broadcasts S128x256
  slices_S128x256_o0_0_S64x256 : S128x256.Slices ![0, 0] S64x256
  slices_S128x256_o64_0_S64x256 : S128x256.Slices ![64, 0] S64x256
  inb_S1x15x64x256_S1x1x64x256_0_0_0_0 : ∀ a, (![0, 0, 0, 0] : Fin 4 → Nat) a + S1x1x64x256.size a ≤ S1x15x64x256.size a
  h_S1x1x64x256 : 0 < S1x1x64x256.numel
  shapeCasts_S1x1x64x256_S64x256 : S1x1x64x256.ShapeCasts S64x256
  shapeCasts_S64x256_S1x1x64x256 : S64x256.ShapeCasts S1x1x64x256
  packedbf16_S1x15x64x256_S1x1x64x256_0_0_0_0 : (Rect.unit (s := S1x15x64x256) ![0, 0, 0, 0] S1x1x64x256.size inb_S1x15x64x256_S1x1x64x256_0_0_0_0).PackedRows (EltTy.packing .bf16)
  inb_S1x1024x256_S1x96x256_0_64_0 : ∀ a, (![0, 64, 0] : Fin 3 → Nat) a + S1x96x256.size a ≤ S1x1024x256.size a
  inb_S1x15x64x256_S1x1x64x256_0_1_0_0 : ∀ a, (![0, 1, 0, 0] : Fin 4 → Nat) a + S1x1x64x256.size a ≤ S1x15x64x256.size a
  packedbf16_S1x15x64x256_S1x1x64x256_0_1_0_0 : (Rect.unit (s := S1x15x64x256) ![0, 1, 0, 0] S1x1x64x256.size inb_S1x15x64x256_S1x1x64x256_0_1_0_0).PackedRows (EltTy.packing .bf16)
  inb_S1x1024x256_S1x96x256_0_128_0 : ∀ a, (![0, 128, 0] : Fin 3 → Nat) a + S1x96x256.size a ≤ S1x1024x256.size a
  inb_S1x15x64x256_S1x1x64x256_0_2_0_0 : ∀ a, (![0, 2, 0, 0] : Fin 4 → Nat) a + S1x1x64x256.size a ≤ S1x15x64x256.size a
  packedbf16_S1x15x64x256_S1x1x64x256_0_2_0_0 : (Rect.unit (s := S1x15x64x256) ![0, 2, 0, 0] S1x1x64x256.size inb_S1x15x64x256_S1x1x64x256_0_2_0_0).PackedRows (EltTy.packing .bf16)
  inb_S1x1024x256_S1x96x256_0_192_0 : ∀ a, (![0, 192, 0] : Fin 3 → Nat) a + S1x96x256.size a ≤ S1x1024x256.size a
  inb_S1x15x64x256_S1x1x64x256_0_3_0_0 : ∀ a, (![0, 3, 0, 0] : Fin 4 → Nat) a + S1x1x64x256.size a ≤ S1x15x64x256.size a
  packedbf16_S1x15x64x256_S1x1x64x256_0_3_0_0 : (Rect.unit (s := S1x15x64x256) ![0, 3, 0, 0] S1x1x64x256.size inb_S1x15x64x256_S1x1x64x256_0_3_0_0).PackedRows (EltTy.packing .bf16)
  inb_S1x1024x256_S1x96x256_0_256_0 : ∀ a, (![0, 256, 0] : Fin 3 → Nat) a + S1x96x256.size a ≤ S1x1024x256.size a
  inb_S1x15x64x256_S1x1x64x256_0_4_0_0 : ∀ a, (![0, 4, 0, 0] : Fin 4 → Nat) a + S1x1x64x256.size a ≤ S1x15x64x256.size a
  packedbf16_S1x15x64x256_S1x1x64x256_0_4_0_0 : (Rect.unit (s := S1x15x64x256) ![0, 4, 0, 0] S1x1x64x256.size inb_S1x15x64x256_S1x1x64x256_0_4_0_0).PackedRows (EltTy.packing .bf16)
  inb_S1x1024x256_S1x96x256_0_320_0 : ∀ a, (![0, 320, 0] : Fin 3 → Nat) a + S1x96x256.size a ≤ S1x1024x256.size a
  inb_S1x15x64x256_S1x1x64x256_0_5_0_0 : ∀ a, (![0, 5, 0, 0] : Fin 4 → Nat) a + S1x1x64x256.size a ≤ S1x15x64x256.size a
  packedbf16_S1x15x64x256_S1x1x64x256_0_5_0_0 : (Rect.unit (s := S1x15x64x256) ![0, 5, 0, 0] S1x1x64x256.size inb_S1x15x64x256_S1x1x64x256_0_5_0_0).PackedRows (EltTy.packing .bf16)
  inb_S1x1024x256_S1x96x256_0_384_0 : ∀ a, (![0, 384, 0] : Fin 3 → Nat) a + S1x96x256.size a ≤ S1x1024x256.size a
  inb_S1x15x64x256_S1x1x64x256_0_6_0_0 : ∀ a, (![0, 6, 0, 0] : Fin 4 → Nat) a + S1x1x64x256.size a ≤ S1x15x64x256.size a
  packedbf16_S1x15x64x256_S1x1x64x256_0_6_0_0 : (Rect.unit (s := S1x15x64x256) ![0, 6, 0, 0] S1x1x64x256.size inb_S1x15x64x256_S1x1x64x256_0_6_0_0).PackedRows (EltTy.packing .bf16)
  inb_S1x1024x256_S1x96x256_0_448_0 : ∀ a, (![0, 448, 0] : Fin 3 → Nat) a + S1x96x256.size a ≤ S1x1024x256.size a
  inb_S1x15x64x256_S1x1x64x256_0_7_0_0 : ∀ a, (![0, 7, 0, 0] : Fin 4 → Nat) a + S1x1x64x256.size a ≤ S1x15x64x256.size a
  packedbf16_S1x15x64x256_S1x1x64x256_0_7_0_0 : (Rect.unit (s := S1x15x64x256) ![0, 7, 0, 0] S1x1x64x256.size inb_S1x15x64x256_S1x1x64x256_0_7_0_0).PackedRows (EltTy.packing .bf16)
  inb_S1x1024x256_S1x96x256_0_512_0 : ∀ a, (![0, 512, 0] : Fin 3 → Nat) a + S1x96x256.size a ≤ S1x1024x256.size a
  inb_S1x15x64x256_S1x1x64x256_0_8_0_0 : ∀ a, (![0, 8, 0, 0] : Fin 4 → Nat) a + S1x1x64x256.size a ≤ S1x15x64x256.size a
  packedbf16_S1x15x64x256_S1x1x64x256_0_8_0_0 : (Rect.unit (s := S1x15x64x256) ![0, 8, 0, 0] S1x1x64x256.size inb_S1x15x64x256_S1x1x64x256_0_8_0_0).PackedRows (EltTy.packing .bf16)
  inb_S1x1024x256_S1x96x256_0_576_0 : ∀ a, (![0, 576, 0] : Fin 3 → Nat) a + S1x96x256.size a ≤ S1x1024x256.size a
  inb_S1x15x64x256_S1x1x64x256_0_9_0_0 : ∀ a, (![0, 9, 0, 0] : Fin 4 → Nat) a + S1x1x64x256.size a ≤ S1x15x64x256.size a
  packedbf16_S1x15x64x256_S1x1x64x256_0_9_0_0 : (Rect.unit (s := S1x15x64x256) ![0, 9, 0, 0] S1x1x64x256.size inb_S1x15x64x256_S1x1x64x256_0_9_0_0).PackedRows (EltTy.packing .bf16)
  inb_S1x1024x256_S1x96x256_0_640_0 : ∀ a, (![0, 640, 0] : Fin 3 → Nat) a + S1x96x256.size a ≤ S1x1024x256.size a
  inb_S1x15x64x256_S1x1x64x256_0_10_0_0 : ∀ a, (![0, 10, 0, 0] : Fin 4 → Nat) a + S1x1x64x256.size a ≤ S1x15x64x256.size a
  packedbf16_S1x15x64x256_S1x1x64x256_0_10_0_0 : (Rect.unit (s := S1x15x64x256) ![0, 10, 0, 0] S1x1x64x256.size inb_S1x15x64x256_S1x1x64x256_0_10_0_0).PackedRows (EltTy.packing .bf16)
  inb_S1x1024x256_S1x96x256_0_704_0 : ∀ a, (![0, 704, 0] : Fin 3 → Nat) a + S1x96x256.size a ≤ S1x1024x256.size a
  inb_S1x15x64x256_S1x1x64x256_0_11_0_0 : ∀ a, (![0, 11, 0, 0] : Fin 4 → Nat) a + S1x1x64x256.size a ≤ S1x15x64x256.size a
  packedbf16_S1x15x64x256_S1x1x64x256_0_11_0_0 : (Rect.unit (s := S1x15x64x256) ![0, 11, 0, 0] S1x1x64x256.size inb_S1x15x64x256_S1x1x64x256_0_11_0_0).PackedRows (EltTy.packing .bf16)
  inb_S1x1024x256_S1x96x256_0_768_0 : ∀ a, (![0, 768, 0] : Fin 3 → Nat) a + S1x96x256.size a ≤ S1x1024x256.size a
  inb_S1x15x64x256_S1x1x64x256_0_12_0_0 : ∀ a, (![0, 12, 0, 0] : Fin 4 → Nat) a + S1x1x64x256.size a ≤ S1x15x64x256.size a
  packedbf16_S1x15x64x256_S1x1x64x256_0_12_0_0 : (Rect.unit (s := S1x15x64x256) ![0, 12, 0, 0] S1x1x64x256.size inb_S1x15x64x256_S1x1x64x256_0_12_0_0).PackedRows (EltTy.packing .bf16)
  inb_S1x1024x256_S1x96x256_0_832_0 : ∀ a, (![0, 832, 0] : Fin 3 → Nat) a + S1x96x256.size a ≤ S1x1024x256.size a
  inb_S1x15x64x256_S1x1x64x256_0_13_0_0 : ∀ a, (![0, 13, 0, 0] : Fin 4 → Nat) a + S1x1x64x256.size a ≤ S1x15x64x256.size a
  packedbf16_S1x15x64x256_S1x1x64x256_0_13_0_0 : (Rect.unit (s := S1x15x64x256) ![0, 13, 0, 0] S1x1x64x256.size inb_S1x15x64x256_S1x1x64x256_0_13_0_0).PackedRows (EltTy.packing .bf16)
  inb_S1x1024x256_S1x96x256_0_896_0 : ∀ a, (![0, 896, 0] : Fin 3 → Nat) a + S1x96x256.size a ≤ S1x1024x256.size a
  inb_S1x15x64x256_S1x1x64x256_0_14_0_0 : ∀ a, (![0, 14, 0, 0] : Fin 4 → Nat) a + S1x1x64x256.size a ≤ S1x15x64x256.size a
  packedbf16_S1x15x64x256_S1x1x64x256_0_14_0_0 : (Rect.unit (s := S1x15x64x256) ![0, 14, 0, 0] S1x1x64x256.size inb_S1x15x64x256_S1x1x64x256_0_14_0_0).PackedRows (EltTy.packing .bf16)
  dot_S128x96_S96x256_S128x256_1_0_0_1_n_n_wf : DotDims.WF S128x96 S96x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .bf16 = 32 ∨ (Rect.block (s := S32x1024x256) S1x1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .bf16 = 32 ∨ (Rect.block (s := S32x1024x256) S1x1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S32x1024x256.size a
  hwx0_2 : ∀ i : grid0.Coords, EltTy.bits .bf16 = 32 ∨ (Rect.block (s := S32x1024x256) S1x1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x96.size a ≤ S3x128x96.size a
  hwx0_3 : ∀ i : grid0.Coords, EltTy.bits .bf16 = 32 ∨ (Rect.block (s := S3x128x96) S3x128x96.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x15x64x256.size a ≤ S15x15x64x256.size a
  hwx0_5 : ∀ i : grid0.Coords, EltTy.bits .bf16 = 32 ∨ (Rect.block (s := S15x15x64x256) S1x15x64x256.size (cc0_transform_5 i) (hinb0_5 i)).WholeWords (EltTy.packing .bf16)

variable [Facts₀]

def dot_S128x96_S96x256_S128x256_1_0_0_1_n_n : DotDims S128x96 S96x256 S128x256 where
  lhsContracting := [1]
  rhsContracting := [0]
  lhsNonContracting := [0]
  rhsNonContracting := [1]
  lhsBatch := []
  rhsBatch := []
  wf := dot_S128x96_S96x256_S128x256_1_0_0_1_n_n_wf

abbrev win0_0 : Pipeline.Window sig grid0 :=
  Pipeline.Window.ofSpec (Memref.whole main_call0_v3) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S3x128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10) S1x15x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x32x32x32 : Shape := ⟨4, ![256, 32, 32, 32]⟩
abbrev S64x32x3x3 : Shape := ⟨4, ![64, 32, 3, 3]⟩
abbrev S64 : Shape := ⟨1, ![64]⟩
abbrev S256x1024x32 : Shape := ⟨3, ![256, 1024, 32]⟩
abbrev S128x32x3x3 : Shape := ⟨4, ![128, 32, 3, 3]⟩
abbrev S3x128x3x32 : Shape := ⟨4, ![3, 128, 3, 32]⟩
abbrev S3x128x96 : Shape := ⟨3, ![3, 128, 96]⟩
abbrev S128 : Shape := ⟨1, ![128]⟩
abbrev S128x1 : Shape := ⟨2, ![128, 1]⟩
abbrev S32 : Shape := ⟨1, ![32]⟩
abbrev S1x32x1 : Shape := ⟨3, ![1, 32, 1]⟩
abbrev S15 : Shape := ⟨1, ![15]⟩
abbrev S1x1x15 : Shape := ⟨3, ![1, 1, 15]⟩
abbrev S3 : Shape := ⟨1, ![3]⟩
abbrev S3x1x1 : Shape := ⟨3, ![3, 1, 1]⟩
abbrev S_ : Shape := ⟨0, ![]⟩
abbrev S3x1x15 : Shape := ⟨3, ![3, 1, 15]⟩
abbrev S3x32x15 : Shape := ⟨3, ![3, 32, 15]⟩
abbrev S256x64x225 : Shape := ⟨3, ![256, 64, 225]⟩
abbrev S256x64x15x15 : Shape := ⟨4, ![256, 64, 15, 15]⟩
abbrev S1x1024x32 : Shape := ⟨3, ![1, 1024, 32]⟩
abbrev S1x64x225 : Shape := ⟨3, ![1, 64, 225]⟩
abbrev S1x128x96 : Shape := ⟨3, ![1, 128, 96]⟩
abbrev S128x96 : Shape := ⟨2, ![128, 96]⟩
abbrev S1x32x15 : Shape := ⟨3, ![1, 32, 15]⟩
abbrev S32x15 : Shape := ⟨2, ![32, 15]⟩
abbrev S1x96x32 : Shape := ⟨3, ![1, 96, 32]⟩
abbrev S96x32 : Shape := ⟨2, ![96, 32]⟩
abbrev S128x15 : Shape := ⟨2, ![128, 15]⟩
abbrev S96x15 : Shape := ⟨2, ![96, 15]⟩
abbrev S64x15 : Shape := ⟨2, ![64, 15]⟩
abbrev S1x64x15 : Shape := ⟨3, ![1, 64, 15]⟩

abbrev nBuf : Space → Nat
  | .hbm => 30
  | .vmem => 7
  | .smem => 0
  | _ => 0

abbrev bufTy : (tb : Table) → Fin (tcTables nBuf tb) → BufTy
  | .hbm, ⟨0, _⟩ => ⟨S256x32x32x32, .f32⟩
  | .hbm, ⟨1, _⟩ => ⟨S64x32x3x3, .f32⟩
  | .hbm, ⟨2, _⟩ => ⟨S64, .f32⟩
  | .hbm, ⟨3, _⟩ => ⟨S64x32x3x3, .f32⟩
  | .hbm, ⟨4, _⟩ => ⟨S64, .f32⟩
  | .hbm, ⟨5, _⟩ => ⟨S256x32x32x32, .f32⟩
  | .hbm, ⟨6, _⟩ => ⟨S256x1024x32, .f32⟩
  | .hbm, ⟨7, _⟩ => ⟨S128x32x3x3, .f32⟩
  | .hbm, ⟨8, _⟩ => ⟨S3x128x3x32, .f32⟩
  | .hbm, ⟨9, _⟩ => ⟨S3x128x96, .f32⟩
  | .hbm, ⟨10, _⟩ => ⟨S128, .f32⟩
  | .hbm, ⟨11, _⟩ => ⟨S128x1, .f32⟩
  | .hbm, ⟨12, _⟩ => ⟨S32, .i32⟩
  | .hbm, ⟨13, _⟩ => ⟨S1x32x1, .i32⟩
  | .hbm, ⟨14, _⟩ => ⟨S15, .i32⟩
  | .hbm, ⟨15, _⟩ => ⟨S1x1x15, .i32⟩
  | .hbm, ⟨16, _⟩ => ⟨S3, .i32⟩
  | .hbm, ⟨17, _⟩ => ⟨S3x1x1, .i32⟩
  | .hbm, ⟨18, _⟩ => ⟨S_, .i32⟩
  | .hbm, ⟨19, _⟩ => ⟨S1x1x15, .i32⟩
  | .hbm, ⟨20, _⟩ => ⟨S1x1x15, .i32⟩
  | .hbm, ⟨21, _⟩ => ⟨S3x1x15, .i32⟩
  | .hbm, ⟨22, _⟩ => ⟨S3x1x15, .i32⟩
  | .hbm, ⟨23, _⟩ => ⟨S3x1x15, .i32⟩
  | .hbm, ⟨24, _⟩ => ⟨S3x32x15, .i32⟩
  | .hbm, ⟨25, _⟩ => ⟨S3x32x15, .i32⟩
  | .hbm, ⟨26, _⟩ => ⟨S3x32x15, .i1⟩
  | .hbm, ⟨27, _⟩ => ⟨S3x32x15, .f32⟩
  | .hbm, ⟨28, _⟩ => ⟨S256x64x225, .f32⟩
  | .hbm, ⟨29, _⟩ => ⟨S256x64x15x15, .f32⟩
  | .local _ .vmem, ⟨0, _⟩ => ⟨S1x1024x32, .f32⟩
  | .local _ .vmem, ⟨1, _⟩ => ⟨S1x1024x32, .f32⟩
  | .local _ .vmem, ⟨2, _⟩ => ⟨S3x128x96, .f32⟩
  | .local _ .vmem, ⟨3, _⟩ => ⟨S3x32x15, .f32⟩
  | .local _ .vmem, ⟨4, _⟩ => ⟨S128x1, .f32⟩
  | .local _ .vmem, ⟨5, _⟩ => ⟨S1x64x225, .f32⟩
  | .local _ .vmem, ⟨6, _⟩ => ⟨S1x64x225, .f32⟩
  | _, _ => ⟨S256x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_c : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x32x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x225 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x32x32x32_S256x32x32x32_0_2_1_3 : S256x32x32x32.Transposes [0, 2, 1, 3] S256x32x32x32
  shapeCasts_S256x32x32x32_S256x1024x32 : S256x32x32x32.ShapeCasts S256x1024x32
  concatenates_S64x32x3x3_S64x32x3x3_S128x32x3x3_d0 : Shape.Concatenates [S64x32x3x3, S64x32x3x3] S128x32x3x3 0
  transposes_S128x32x3x3_S3x128x3x32_3_0_2_1 : S128x32x3x3.Transposes [3, 0, 2, 1] S3x128x3x32
  shapeCasts_S3x128x3x32_S3x128x96 : S3x128x3x32.ShapeCasts S3x128x96
  concatenates_S64_S64_S128_d0 : Shape.Concatenates [S64, S64] S128 0
  shapeCasts_S128_S128x1 : S128.ShapeCasts S128x1
  bcast_S32_S1x32x1_1 : S32.BroadcastsInDim S1x32x1 (![1] : Fin 1 → Fin S1x32x1.rank)
  bcast_S15_S1x1x15_2 : S15.BroadcastsInDim S1x1x15 (![2] : Fin 1 → Fin S1x1x15.rank)
  bcast_S3_S3x1x1_0 : S3.BroadcastsInDim S3x1x1 (![0] : Fin 1 → Fin S3x1x1.rank)
  bcast_S_S1x1x15 : S_.BroadcastsInDim S1x1x15 (![] : Fin 0 → Fin S1x1x15.rank)
  bcast_S1x1x15_S3x1x15_0_1_2 : S1x1x15.BroadcastsInDim S3x1x15 (![0, 1, 2] : Fin 3 → Fin S3x1x15.rank)
  bcast_S3x1x1_S3x1x15_0_1_2 : S3x1x1.BroadcastsInDim S3x1x15 (![0, 1, 2] : Fin 3 → Fin S3x1x15.rank)
  bcast_S1x32x1_S3x32x15_0_1_2 : S1x32x1.BroadcastsInDim S3x32x15 (![0, 1, 2] : Fin 3 → Fin S3x32x15.rank)
  bcast_S3x1x15_S3x32x15_0_1_2 : S3x1x15.BroadcastsInDim S3x32x15 (![0, 1, 2] : Fin 3 → Fin S3x32x15.rank)
  shapeCasts_S256x64x225_S256x64x15x15 : S256x64x225.ShapeCasts S256x64x15x15
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S3x128x96_S1x128x96_0_0_0 : ∀ a, (![0, 0, 0] : Fin 3 → Nat) a + S1x128x96.size a ≤ S3x128x96.size a
  h_S1x128x96 : 0 < S1x128x96.numel
  shapeCasts_S1x128x96_S128x96 : S1x128x96.ShapeCasts S128x96
  inb_S3x128x96_S1x128x96_1_0_0 : ∀ a, (![1, 0, 0] : Fin 3 → Nat) a + S1x128x96.size a ≤ S3x128x96.size a
  inb_S3x128x96_S1x128x96_2_0_0 : ∀ a, (![2, 0, 0] : Fin 3 → Nat) a + S1x128x96.size a ≤ S3x128x96.size a
  inb_S3x32x15_S1x32x15_0_0_0 : ∀ a, (![0, 0, 0] : Fin 3 → Nat) a + S1x32x15.size a ≤ S3x32x15.size a
  h_S1x32x15 : 0 < S1x32x15.numel
  shapeCasts_S1x32x15_S32x15 : S1x32x15.ShapeCasts S32x15
  inb_S3x32x15_S1x32x15_1_0_0 : ∀ a, (![1, 0, 0] : Fin 3 → Nat) a + S1x32x15.size a ≤ S3x32x15.size a
  inb_S3x32x15_S1x32x15_2_0_0 : ∀ a, (![2, 0, 0] : Fin 3 → Nat) a + S1x32x15.size a ≤ S3x32x15.size a
  inb_S1x1024x32_S1x96x32_0_0_0 : ∀ a, (![0, 0, 0] : Fin 3 → Nat) a + S1x96x32.size a ≤ S1x1024x32.size a
  h_S1x96x32 : 0 < S1x96x32.numel
  shapeCasts_S1x96x32_S96x32 : S1x96x32.ShapeCasts S96x32
  broadcasts_S128x1_S128x15 : S128x1.Broadcasts S128x15
  slices_S128x15_o0_0_S64x15 : S128x15.Slices ![0, 0] S64x15
  slices_S128x15_o64_0_S64x15 : S128x15.Slices ![64, 0] S64x15
  inb_S1x64x225_S1x64x15_0_0_0 : ∀ a, (![0, 0, 0] : Fin 3 → Nat) a + S1x64x15.size a ≤ S1x64x225.size a
  h_S1x64x15 : 0 < S1x64x15.numel
  shapeCasts_S1x64x15_S64x15 : S1x64x15.ShapeCasts S64x15
  shapeCasts_S64x15_S1x64x15 : S64x15.ShapeCasts S1x64x15
  inb_S1x1024x32_S1x96x32_0_64_0 : ∀ a, (![0, 64, 0] : Fin 3 → Nat) a + S1x96x32.size a ≤ S1x1024x32.size a
  inb_S1x64x225_S1x64x15_0_0_15 : ∀ a, (![0, 0, 15] : Fin 3 → Nat) a + S1x64x15.size a ≤ S1x64x225.size a
  inb_S1x1024x32_S1x96x32_0_128_0 : ∀ a, (![0, 128, 0] : Fin 3 → Nat) a + S1x96x32.size a ≤ S1x1024x32.size a
  inb_S1x64x225_S1x64x15_0_0_30 : ∀ a, (![0, 0, 30] : Fin 3 → Nat) a + S1x64x15.size a ≤ S1x64x225.size a
  inb_S1x1024x32_S1x96x32_0_192_0 : ∀ a, (![0, 192, 0] : Fin 3 → Nat) a + S1x96x32.size a ≤ S1x1024x32.size a
  inb_S1x64x225_S1x64x15_0_0_45 : ∀ a, (![0, 0, 45] : Fin 3 → Nat) a + S1x64x15.size a ≤ S1x64x225.size a
  inb_S1x1024x32_S1x96x32_0_256_0 : ∀ a, (![0, 256, 0] : Fin 3 → Nat) a + S1x96x32.size a ≤ S1x1024x32.size a
  inb_S1x64x225_S1x64x15_0_0_60 : ∀ a, (![0, 0, 60] : Fin 3 → Nat) a + S1x64x15.size a ≤ S1x64x225.size a
  inb_S1x1024x32_S1x96x32_0_320_0 : ∀ a, (![0, 320, 0] : Fin 3 → Nat) a + S1x96x32.size a ≤ S1x1024x32.size a
  inb_S1x64x225_S1x64x15_0_0_75 : ∀ a, (![0, 0, 75] : Fin 3 → Nat) a + S1x64x15.size a ≤ S1x64x225.size a
  inb_S1x1024x32_S1x96x32_0_384_0 : ∀ a, (![0, 384, 0] : Fin 3 → Nat) a + S1x96x32.size a ≤ S1x1024x32.size a
  inb_S1x64x225_S1x64x15_0_0_90 : ∀ a, (![0, 0, 90] : Fin 3 → Nat) a + S1x64x15.size a ≤ S1x64x225.size a
  inb_S1x1024x32_S1x96x32_0_448_0 : ∀ a, (![0, 448, 0] : Fin 3 → Nat) a + S1x96x32.size a ≤ S1x1024x32.size a
  inb_S1x64x225_S1x64x15_0_0_105 : ∀ a, (![0, 0, 105] : Fin 3 → Nat) a + S1x64x15.size a ≤ S1x64x225.size a
  inb_S1x1024x32_S1x96x32_0_512_0 : ∀ a, (![0, 512, 0] : Fin 3 → Nat) a + S1x96x32.size a ≤ S1x1024x32.size a
  inb_S1x64x225_S1x64x15_0_0_120 : ∀ a, (![0, 0, 120] : Fin 3 → Nat) a + S1x64x15.size a ≤ S1x64x225.size a
  inb_S1x1024x32_S1x96x32_0_576_0 : ∀ a, (![0, 576, 0] : Fin 3 → Nat) a + S1x96x32.size a ≤ S1x1024x32.size a
  inb_S1x64x225_S1x64x15_0_0_135 : ∀ a, (![0, 0, 135] : Fin 3 → Nat) a + S1x64x15.size a ≤ S1x64x225.size a
  inb_S1x1024x32_S1x96x32_0_640_0 : ∀ a, (![0, 640, 0] : Fin 3 → Nat) a + S1x96x32.size a ≤ S1x1024x32.size a
  inb_S1x64x225_S1x64x15_0_0_150 : ∀ a, (![0, 0, 150] : Fin 3 → Nat) a + S1x64x15.size a ≤ S1x64x225.size a
  inb_S1x1024x32_S1x96x32_0_704_0 : ∀ a, (![0, 704, 0] : Fin 3 → Nat) a + S1x96x32.size a ≤ S1x1024x32.size a
  inb_S1x64x225_S1x64x15_0_0_165 : ∀ a, (![0, 0, 165] : Fin 3 → Nat) a + S1x64x15.size a ≤ S1x64x225.size a
  inb_S1x1024x32_S1x96x32_0_768_0 : ∀ a, (![0, 768, 0] : Fin 3 → Nat) a + S1x96x32.size a ≤ S1x1024x32.size a
  inb_S1x64x225_S1x64x15_0_0_180 : ∀ a, (![0, 0, 180] : Fin 3 → Nat) a + S1x64x15.size a ≤ S1x64x225.size a
  inb_S1x1024x32_S1x96x32_0_832_0 : ∀ a, (![0, 832, 0] : Fin 3 → Nat) a + S1x96x32.size a ≤ S1x1024x32.size a
  inb_S1x64x225_S1x64x15_0_0_195 : ∀ a, (![0, 0, 195] : Fin 3 → Nat) a + S1x64x15.size a ≤ S1x64x225.size a
  inb_S1x1024x32_S1x96x32_0_896_0 : ∀ a, (![0, 896, 0] : Fin 3 → Nat) a + S1x96x32.size a ≤ S1x1024x32.size a
  inb_S1x64x225_S1x64x15_0_0_210 : ∀ a, (![0, 0, 210] : Fin 3 → Nat) a + S1x64x15.size a ≤ S1x64x225.size a
  dot_S96x32_S32x15_S96x15_1_0_0_1_n_n_wf : DotDims.WF S96x32 S32x15 S96x15 [1] [0] [0] [1] [] []
  dot_S128x96_S96x15_S128x15_1_0_0_1_n_n_wf : DotDims.WF S128x96 S96x15 S128x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32.size a ≤ S256x1024x32.size a
  hwx0_0 : ∀ i : grid0.Coords, EltTy.bits .f32 = 32 ∨ (Rect.block (s := S256x1024x32) S1x1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x96.size a ≤ S3x128x96.size a
  hwx0_1 : ∀ i : grid0.Coords, EltTy.bits .f32 = 32 ∨ (Rect.block (s := S3x128x96) S3x128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32x15.size a ≤ S3x32x15.size a
  hwx0_2 : ∀ i : grid0.Coords, EltTy.bits .f32 = 32 ∨ (Rect.block (s := S3x32x15) S3x32x15.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x225.size a ≤ S256x64x225.size a
  hwx0_4 : ∀ i : grid0.Coords, EltTy.bits .f32 = 32 ∨ (Rect.block (s := S256x64x225) S1x64x225.size (cc0_transform_4 i) (hinb0_4 i)).WholeWords (EltTy.packing .f32)

variable [Facts₀]

def dot_S96x32_S32x15_S96x15_1_0_0_1_n_n : DotDims S96x32 S32x15 S96x15 where
  lhsContracting := [1]
  rhsContracting := [0]
  lhsNonContracting := [0]
  rhsNonContracting := [1]
  lhsBatch := []
  rhsBatch := []
  wf := dot_S96x32_S32x15_S96x15_1_0_0_1_n_n_wf
def dot_S128x96_S96x15_S128x15_1_0_0_1_n_n : DotDims S128x96 S96x15 S128x15 where
  lhsContracting := [1]
  rhsContracting := [0]
  lhsNonContracting := [0]
  rhsNonContracting := [1]
  lhsBatch := []
  rhsBatch := []
  wf := dot_S128x96_S96x15_S128x15_1_0_0_1_n_n_wf

abbrev win0_0 : Pipeline.Window sig grid0 :=
  Pipeline.Window.ofSpec (Memref.whole main_call0_v1) S1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S3x128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v21) S3x32x15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v22) S1x64x225.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KbBody.lean ====
/-
  The kernel body of `Cert.Kernel` at one grid point (one output row `oh`, every image at once): what it leaves in the
  output window's buffer, as a function of the five input windows' buffers.

  The body reads the three weight slabs `W₀ W₁ W₂ : [128, 96]` and the bias column `[128, 1]` once, and then, for each
  output column `ow < 15`, the rows `[64·ow, 64·ow + 96)` of the three input-row buffers (the taps `kh = 0, 1, 2`); it
  stores at `[0, ow, :, :]` of the output buffer the gated value of `W₀·A₀ + W₁·A₁ + W₂·A₂ + bias` (`posVal`). The fifteen
  stores tile the output buffer, so after the body it holds their canonical overlay (`outBuf`), and `sound_kernel` is
  the body's triple: the input buffers are left as found, the output buffer at `outBuf` of them.
-/
import proofs.«136853_g2000106783720467_pallasbulk_1336_12_alg».proof.Proof.Gen.Kernel.Launch
import proofs.«136853_g2000106783720467_pallasbulk_1336_12_alg».proof.Proof.Gen.Kernel.Skeleton
import proofs.«136853_g2000106783720467_pallasbulk_1336_12_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- Weight slab `k` of the weight buffer `[3, 128, 96]`. -/
abbrev rW0 : Rect S3x128x96 := Rect.unit (s := S3x128x96) ![0, 0, 0] S1x128x96.size inb_S3x128x96_S1x128x96_0_0_0
abbrev rW1 : Rect S3x128x96 := Rect.unit (s := S3x128x96) ![1, 0, 0] S1x128x96.size inb_S3x128x96_S1x128x96_1_0_0
abbrev rW2 : Rect S3x128x96 := Rect.unit (s := S3x128x96) ![2, 0, 0] S1x128x96.size inb_S3x128x96_S1x128x96_2_0_0
/-- The whole bias column. -/
abbrev rB : Rect S128x1 := Rect.unit (s := S128x1) ![0, 0] S128x1.size inb_S128x1_S128x1_0_0
/-- Rows `[64·ow, 64·ow + 96)` of an input-row buffer `[1, 1024, 256]`: the window of output column `ow`. -/
abbrev rI0 : Rect S1x1024x256 := Rect.unit (s := S1x1024x256) ![0, 0, 0] S1x96x256.size inb_S1x1024x256_S1x96x256_0_0_0
abbrev rI1 : Rect S1x1024x256 := Rect.unit (s := S1x1024x256) ![0, 64, 0] S1x96x256.size inb_S1x1024x256_S1x96x256_0_64_0
abbrev rI2 : Rect S1x1024x256 := Rect.unit (s := S1x1024x256) ![0, 128, 0] S1x96x256.size inb_S1x1024x256_S1x96x256_0_128_0
abbrev rI3 : Rect S1x1024x256 := Rect.unit (s := S1x1024x256) ![0, 192, 0] S1x96x256.size inb_S1x1024x256_S1x96x256_0_192_0
abbrev rI4 : Rect S1x1024x256 := Rect.unit (s := S1x1024x256) ![0, 256, 0] S1x96x256.size inb_S1x1024x256_S1x96x256_0_256_0
abbrev rI5 : Rect S1x1024x256 := Rect.unit (s := S1x1024x256) ![0, 320, 0] S1x96x256.size inb_S1x1024x256_S1x96x256_0_320_0
abbrev rI6 : Rect S1x1024x256 := Rect.unit (s := S1x1024x256) ![0, 384, 0] S1x96x256.size inb_S1x1024x256_S1x96x256_0_384_0
abbrev rI7 : Rect S1x1024x256 := Rect.unit (s := S1x1024x256) ![0, 448, 0] S1x96x256.size inb_S1x1024x256_S1x96x256_0_448_0
abbrev rI8 : Rect S1x1024x256 := Rect.unit (s := S1x1024x256) ![0, 512, 0] S1x96x256.size inb_S1x1024x256_S1x96x256_0_512_0
abbrev rI9 : Rect S1x1024x256 := Rect.unit (s := S1x1024x256) ![0, 576, 0] S1x96x256.size inb_S1x1024x256_S1x96x256_0_576_0
abbrev rI10 : Rect S1x1024x256 := Rect.unit (s := S1x1024x256) ![0, 640, 0] S1x96x256.size inb_S1x1024x256_S1x96x256_0_640_0
abbrev rI11 : Rect S1x1024x256 := Rect.unit (s := S1x1024x256) ![0, 704, 0] S1x96x256.size inb_S1x1024x256_S1x96x256_0_704_0
abbrev rI12 : Rect S1x1024x256 := Rect.unit (s := S1x1024x256) ![0, 768, 0] S1x96x256.size inb_S1x1024x256_S1x96x256_0_768_0
abbrev rI13 : Rect S1x1024x256 := Rect.unit (s := S1x1024x256) ![0, 832, 0] S1x96x256.size inb_S1x1024x256_S1x96x256_0_832_0
abbrev rI14 : Rect S1x1024x256 := Rect.unit (s := S1x1024x256) ![0, 896, 0] S1x96x256.size inb_S1x1024x256_S1x96x256_0_896_0
/-- Slot `[0, ow, :, :]` of the output buffer `[1, 15, 64, 256]`. -/
abbrev rO0 : Rect S1x15x64x256 := Rect.unit (s := S1x15x64x256) ![0, 0, 0, 0] S1x1x64x256.size inb_S1x15x64x256_S1x1x64x256_0_0_0_0
abbrev rO1 : Rect S1x15x64x256 := Rect.unit (s := S1x15x64x256) ![0, 1, 0, 0] S1x1x64x256.size inb_S1x15x64x256_S1x1x64x256_0_1_0_0
abbrev rO2 : Rect S1x15x64x256 := Rect.unit (s := S1x15x64x256) ![0, 2, 0, 0] S1x1x64x256.size inb_S1x15x64x256_S1x1x64x256_0_2_0_0
abbrev rO3 : Rect S1x15x64x256 := Rect.unit (s := S1x15x64x256) ![0, 3, 0, 0] S1x1x64x256.size inb_S1x15x64x256_S1x1x64x256_0_3_0_0
abbrev rO4 : Rect S1x15x64x256 := Rect.unit (s := S1x15x64x256) ![0, 4, 0, 0] S1x1x64x256.size inb_S1x15x64x256_S1x1x64x256_0_4_0_0
abbrev rO5 : Rect S1x15x64x256 := Rect.unit (s := S1x15x64x256) ![0, 5, 0, 0] S1x1x64x256.size inb_S1x15x64x256_S1x1x64x256_0_5_0_0
abbrev rO6 : Rect S1x15x64x256 := Rect.unit (s := S1x15x64x256) ![0, 6, 0, 0] S1x1x64x256.size inb_S1x15x64x256_S1x1x64x256_0_6_0_0
abbrev rO7 : Rect S1x15x64x256 := Rect.unit (s := S1x15x64x256) ![0, 7, 0, 0] S1x1x64x256.size inb_S1x15x64x256_S1x1x64x256_0_7_0_0
abbrev rO8 : Rect S1x15x64x256 := Rect.unit (s := S1x15x64x256) ![0, 8, 0, 0] S1x1x64x256.size inb_S1x15x64x256_S1x1x64x256_0_8_0_0
abbrev rO9 : Rect S1x15x64x256 := Rect.unit (s := S1x15x64x256) ![0, 9, 0, 0] S1x1x64x256.size inb_S1x15x64x256_S1x1x64x256_0_9_0_0
abbrev rO10 : Rect S1x15x64x256 := Rect.unit (s := S1x15x64x256) ![0, 10, 0, 0] S1x1x64x256.size inb_S1x15x64x256_S1x1x64x256_0_10_0_0
abbrev rO11 : Rect S1x15x64x256 := Rect.unit (s := S1x15x64x256) ![0, 11, 0, 0] S1x1x64x256.size inb_S1x15x64x256_S1x1x64x256_0_11_0_0
abbrev rO12 : Rect S1x15x64x256 := Rect.unit (s := S1x15x64x256) ![0, 12, 0, 0] S1x1x64x256.size inb_S1x15x64x256_S1x1x64x256_0_12_0_0
abbrev rO13 : Rect S1x15x64x256 := Rect.unit (s := S1x15x64x256) ![0, 13, 0, 0] S1x1x64x256.size inb_S1x15x64x256_S1x1x64x256_0_13_0_0
abbrev rO14 : Rect S1x15x64x256 := Rect.unit (s := S1x15x64x256) ![0, 14, 0, 0] S1x1x64x256.size inb_S1x15x64x256_S1x1x64x256_0_14_0_0

/-! ## One output column's value -/

/-- The value stored for one output column, from the three weight slabs, the bias column and the three input windows:
    `acc = W₀·A₀ + W₁·A₁ + W₂·A₂ + bias` (each product accumulated from zero), `lin` its rows `[0, 64)`, `g` its rows
    `[64, 128)`, `e = exp(0 − |g|)`, and `lin · ((if g ≥ 0 then 1 else e) / (1 + e))` narrowed to the output's format. -/
def posVal (w0 w1 w2 : Vec F S1x128x96 .bf16) (b : Vec F S128x1 .f32) (a0 a1 a2 : Vec F S1x96x256 .bf16) : Vec F S1x1x64x256 .bf16 :=
  let acc : FVec F S128x256 .f32 :=
    addf (addf (addf
      (matmul dot_S128x96_S96x256_S128x256_1_0_0_1_n_n none (shapeCast S128x96 w0 shapeCasts_S1x128x96_S128x96) (shapeCast S96x256 a0 shapeCasts_S1x96x256_S96x256) (constant S128x256 .f32 0x00000000#32))
      (matmul dot_S128x96_S96x256_S128x256_1_0_0_1_n_n none (shapeCast S128x96 w1 shapeCasts_S1x128x96_S128x96) (shapeCast S96x256 a1 shapeCasts_S1x96x256_S96x256) (constant S128x256 .f32 0x00000000#32)))
      (matmul dot_S128x96_S96x256_S128x256_1_0_0_1_n_n none (shapeCast S128x96 w2 shapeCasts_S1x128x96_S128x96) (shapeCast S96x256 a2 shapeCasts_S1x96x256_S96x256) (constant S128x256 .f32 0x00000000#32)))
      (broadcastTo S128x256 (shapeCast S128x1 b shapeCasts_S128x1_S128x1) broadcasts_S128x1_S128x256)
  let lin : FVec F S64x256 .f32 := extractStridedSlice S64x256 ![0, 0] acc slices_S128x256_o0_0_S64x256
  let g : FVec F S64x256 .f32 := extractStridedSlice S64x256 ![64, 0] acc slices_S128x256_o64_0_S64x256
  let e : FVec F S64x256 .f32 := exp (subf (broadcast S64x256 (Scalar.ofBits .f32 0x00000000#32)) (absf g))
  let gate : FVec F S64x256 .f32 :=
    divf (select (cmpf .oge g (broadcast S64x256 (Scalar.ofBits .f32 0x00000000#32))) (broadcast S64x256 (Scalar.ofBits .f32 0x3F800000#32)) e)
      (addf (broadcast S64x256 (Scalar.ofBits .f32 0x3F800000#32)) e)
  shapeCast S1x1x64x256 (truncf .bf16 (mulf lin gate) bitsLt_bf16_f32) shapeCasts_S64x256_S1x1x64x256

/-! ## What the body leaves in the output window's buffer -/

/-- The output buffer after the body, from the input windows' buffers `x0 x1 x2` (the three input rows), `x3` (weights)
    and `x4` (bias): its fifteen stores as pieces, last first. -/
def outBuf (x0 x1 x2 : Vec F S1x1024x256 .bf16) (x3 : Vec F S3x128x96 .bf16) (x4 : Vec F S128x1 .f32) : Vec F S1x15x64x256 .bf16 :=
  View.canon [
    ⟨rO14, posVal (View.ld x3 rW0) (View.ld x3 rW1) (View.ld x3 rW2) (View.ld x4 rB) (View.ld x0 rI14) (View.ld x1 rI14) (View.ld x2 rI14)⟩,
    ⟨rO13, posVal (View.ld x3 rW0) (View.ld x3 rW1) (View.ld x3 rW2) (View.ld x4 rB) (View.ld x0 rI13) (View.ld x1 rI13) (View.ld x2 rI13)⟩,
    ⟨rO12, posVal (View.ld x3 rW0) (View.ld x3 rW1) (View.ld x3 rW2) (View.ld x4 rB) (View.ld x0 rI12) (View.ld x1 rI12) (View.ld x2 rI12)⟩,
    ⟨rO11, posVal (View.ld x3 rW0) (View.ld x3 rW1) (View.ld x3 rW2) (View.ld x4 rB) (View.ld x0 rI11) (View.ld x1 rI11) (View.ld x2 rI11)⟩,
    ⟨rO10, posVal (View.ld x3 rW0) (View.ld x3 rW1) (View.ld x3 rW2) (View.ld x4 rB) (View.ld x0 rI10) (View.ld x1 rI10) (View.ld x2 rI10)⟩,
    ⟨rO9, posVal (View.ld x3 rW0) (View.ld x3 rW1) (View.ld x3 rW2) (View.ld x4 rB) (View.ld x0 rI9) (View.ld x1 rI9) (View.ld x2 rI9)⟩,
    ⟨rO8, posVal (View.ld x3 rW0) (View.ld x3 rW1) (View.ld x3 rW2) (View.ld x4 rB) (View.ld x0 rI8) (View.ld x1 rI8) (View.ld x2 rI8)⟩,
    ⟨rO7, posVal (View.ld x3 rW0) (View.ld x3 rW1) (View.ld x3 rW2) (View.ld x4 rB) (View.ld x0 rI7) (View.ld x1 rI7) (View.ld x2 rI7)⟩,
    ⟨rO6, posVal (View.ld x3 rW0) (View.ld x3 rW1) (View.ld x3 rW2) (View.ld x4 rB) (View.ld x0 rI6) (View.ld x1 rI6) (View.ld x2 rI6)⟩,
    ⟨rO5, posVal (View.ld x3 rW0) (View.ld x3 rW1) (View.ld x3 rW2) (View.ld x4 rB) (View.ld x0 rI5) (View.ld x1 rI5) (View.ld x2 rI5)⟩,
    ⟨rO4, posVal (View.ld x3 rW0) (View.ld x3 rW1) (View.ld x3 rW2) (View.ld x4 rB) (View.ld x0 rI4) (View.ld x1 rI4) (View.ld x2 rI4)⟩,
    ⟨rO3, posVal (View.ld x3 rW0) (View.ld x3 rW1) (View.ld x3 rW2) (View.ld x4 rB) (View.ld x0 rI3) (View.ld x1 rI3) (View.ld x2 rI3)⟩,
    ⟨rO2, posVal (View.ld x3 rW0) (View.ld x3 rW1) (View.ld x3 rW2) (View.ld x4 rB) (View.ld x0 rI2) (View.ld x1 rI2) (View.ld x2 rI2)⟩,
    ⟨rO1, posVal (View.ld x3 rW0) (View.ld x3 rW1) (View.ld x3 rW2) (View.ld x4 rB) (View.ld x0 rI1) (View.ld x1 rI1) (View.ld x2 rI1)⟩,
    ⟨rO0, posVal (View.ld x3 rW0) (View.ld x3 rW1) (View.ld x3 rW2) (View.ld x4 rB) (View.ld x0 rI0) (View.ld x1 rI0) (View.ld x2 rI0)⟩]

/-- The fifteen slots tile the output buffer, so every index lies in one of them. -/
theorem cover_out (p0 p1 p2 p3 p4 p5 p6 p7 p8 p9 p10 p11 p12 p13 p14 : Vec F S1x1x64x256 .bf16) (y : S1x15x64x256.Idx) :
    ∃ pc ∈ ([⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x15x64x256 .bf16)), y ∈ pc.1.set :=
  View.cover_of_tiled [⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S1x1x64x256.size (by rfl) y

/-! ## The body's triple -/

set_option maxHeartbeats 1000000 in
/-- The kernel body on whole staging memrefs, the five inputs' at read contents and the output's at anything, runs to the
    continuation holding the inputs' as they were and the output's at `outBuf` of them. -/
theorem sound_kernel (c : Dev nD) (E : Set ℕ) (i : grid0.Coords)
    (arg1 : Memref sig .tc .vmem S1x1024x256 .bf16) (harg1 : arg1.IsWhole) (arg2 : Memref sig .tc .vmem S1x1024x256 .bf16) (harg2 : arg2.IsWhole)
    (arg3 : Memref sig .tc .vmem S1x1024x256 .bf16) (harg3 : arg3.IsWhole) (arg4 : Memref sig .tc .vmem S3x128x96 .bf16) (harg4 : arg4.IsWhole)
    (arg5 : Memref sig .tc .vmem S128x1 .f32) (harg5 : arg5.IsWhole) (arg6 : Memref sig .tc .vmem S1x15x64x256 .bf16) (harg6 : arg6.IsWhole)
    (x0 x1 x2 : Vec F S1x1024x256 .bf16) (x3 : Vec F S3x128x96 .bf16) (x4 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBuf x0 x1 x2 x3 x4)) -∗ K ⟨⟩))
      ⊢ wp frame (wpE (defs₀ (F := F)) Variants.none c none) E (cc0__glu_body i arg1 harg1 arg2 harg2 arg3 harg3 arg4 harg4 arg5 harg5 arg6 harg6) K := by
  simp only [cc0__glu_body_eq_skeleton]; unfold cc0__glu_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _ _ _ _ _ _ _ _ _ _ _ _ _ _ _)

end Cert.Kernel.Hand

end
-- ==== Proof.KbData.lean ====
/-
  The proof data of `Cert.Kernel`'s one pipeline: the arrays as the region finds them, each window's block at a grid point,
  what each window's buffer holds after the body there, and the body obligation at every point.

  The three input-row windows stage ONE array (the re-laid activations): output row `t` reads its rows `2t`, `2t + 1`,
  `2t + 2`. Each of the three holds a third of that array's share; the weights, the bias and the output are held whole.
-/
import proofs.«136853_g2000106783720467_pallasbulk_1336_12_alg».proof.Proof.KbBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffer contents when the region is entered: after the ten host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The share each input window holds of its array: the three windows on the activations a third each. -/
def shareOf : Fin cfg0.W → PosShare TreeShare
  | ⟨0, _⟩ => fullShare.left
  | ⟨1, _⟩ => fullShare.right.left
  | ⟨2, _⟩ => fullShare.right.right
  | _ => fullShare

/-- The proof data on core `c`: the arrays as the region finds them; after the body at point `t` each input's buffer
    at its block and the output's at `outBuf` of the input blocks; the invariant the scoped buffers no window stages
    (there are none); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBuf (iblk m c 0 t) (iblk m c 1 t) (iblk m c 2 t) (iblk m c 3 t) (iblk m c 4 t)
  Φ _ := Pipeline.scopedRest spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBuf (iblk m c 0 t) (iblk m c 1 t) (iblk m c 2 t) (iblk m c 3 t) (iblk m c 4 t) := by dsimp only [dats]

/-! ## What each input's buffer holds when the body is called -/

/-- The first input-row window's buffer holds row `2t` of the activations at every point: the window is an input,
    never idle and uncut, and the body leaves its block in place, so the buffer holds what a fetch there puts in it,
    which is the block read off the array. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- The second input-row window's buffer holds row `2t + 1`, for the same reason. -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- The third input-row window's buffer holds row `2t + 2`, for the same reason. -/
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- The weights' buffer holds the whole weight array at every point. Its block index is constant, so it is fetched at
    the first point only; at a later point the index has not moved and the body left the block in place, so the
    buffer still holds it. -/
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
/-- The bias's buffer holds the whole bias column at every point, as the weights' does. -/
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-! ## The body obligation, at a generic point -/

/-- What the body is called with at point `t`: the invariant, what the core owes, and the six windows' current
    buffers, each whole at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the same invariant and debt, and each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. The five inputs' buffers hold their blocks, and the output's holds something, so the
    body's triple applies with the blocks as the inputs; it hands the inputs back as found and the output at `outBuf` of
    them, which is what the proof data says the body leaves. The invariant and the core's debt do not depend on the
    point and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: the product over the six windows written out, it is `sound_body`. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbRun.lean ====
/-
  The run of `Cert.Kernel`'s @main: ten host operations (the activations narrowed, re-laid to `[row, column·channel, image]`;
  the two weight sets stacked, narrowed and re-laid to `[kernel row, 2·64 channels, kernel column·channel]`; the two
  biases stacked into a column), the kernel region over fifteen grid points, and two host operations after it (the
  result re-laid to `[image, channel, row, column]` and widened). From any memory with zero counters every weakly fair
  execution terminates, the five argument arrays end as they were, and the result array is `tailOut` of what the
  pipeline library computes for the output window's array after the last point.
-/
import proofs.«136853_g2000106783720467_pallasbulk_1336_12_alg».proof.Proof.KbData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two host operations after the region, as one function of the kernel's result array: transpose
    `[row, column, channel, image] → [image, channel, row, column]`, then widen. -/
def tailOut (A : Vec F S15x15x64x256 .bf16) : Vec F S256x64x15x15 .f32 :=
  extf .f32 (transpose S256x64x15x15 [3, 2, 0, 1] A transposes_S15x15x64x256_S256x64x15x15_3_2_0_1) bitsLt_bf16_f32

/-- The output window's array after the last grid point, as the pipeline library computes it from the proof data. -/
def outArr (c : Dev nD) : Vec F S15x15x64x256 .bf16 := (dats m 0 c).arrAt 5 cfg0.N

/-! ## The windows' arrays and the last operations' buffers, one by one -/

/-- The windows' arrays, one by one. -/
theorem arrays_chain (c : Dev nD) (G : (w : Fin cfg0.W) → Buf (Elt F) ((cfg0.win w).arr.view.loc (c.tc : Thread nD τ))) :
    ((dats m 0 c).arrays G : sProp 𝕄) = iprop(
      (((c.tc : Thread nD τ).loc main_call0_v3) ↦{fullShare.left} G 0)
      ∗ (((c.tc : Thread nD τ).loc main_call0_v3) ↦{fullShare.right.left} G 1)
      ∗ (((c.tc : Thread nD τ).loc main_call0_v3) ↦{fullShare.right.right} G 2)
      ∗ (((c.tc : Thread nD τ).loc main_call0_v7) ↦{fullShare} G 3)
      ∗ (((c.tc : Thread nD τ).loc main_call0_v9) ↦{fullShare} G 4)
      ∗ (((c.tc : Thread nD τ).loc main_call0_v10) ↦{fullShare} G 5)) := by
  unfold Dat.arrays
  rw [bigSep_W0]
  rw [(arr_whole0 0).set_eq_univ, (arr_whole0 3).set_eq_univ, (arr_whole0 4).set_eq_univ, (arr_whole0 5).set_eq_univ]
  rfl

/-- The distinct buffers behind the windows' arrays, one by one. -/
theorem arrBufs_chain (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄)
      = iprop((((c.tc : Thread nD τ).loc main_call0_v3) ↦{fullShare} V' main_call0_v3)
        ∗ (((c.tc : Thread nD τ).loc main_call0_v7) ↦{fullShare} V' main_call0_v7)
        ∗ (((c.tc : Thread nD τ).loc main_call0_v9) ↦{fullShare} V' main_call0_v9)
        ∗ (((c.tc : Thread nD τ).loc main_call0_v10) ↦{fullShare} V' main_call0_v10)) := by
  unfold Pipeline.arrBufs
  exact bigSep_eq_bigSepL_of_eq [main_call0_v3, main_call0_v7, main_call0_v9, main_call0_v10] (by decide) (by decide) _

/-- The buffers the two operations after the region touch. -/
def S₁ : Finset (DevRef τ sig) :=
  ([main_call0_v10, main_call0_v11, main_v0].map (Proc.devRef (τ := τ) .tc)).toFinset

/-- Those three held at a valuation, one by one. -/
theorem held_S₁ (c : Dev nD) (W : Valuation τ sig (Elt F)) :
    (StableHlo.held (c.tc : Thread nD τ) S₁ W : sProp 𝕄)
      = iprop((((c.tc : Thread nD τ).loc main_call0_v10) ↦{fullShare} W (Proc.devRef .tc main_call0_v10))
        ∗ (((c.tc : Thread nD τ).loc main_call0_v11) ↦{fullShare} W (Proc.devRef .tc main_call0_v11))
        ∗ (((c.tc : Thread nD τ).loc main_v0) ↦{fullShare} W (Proc.devRef .tc main_v0))) := by
  unfold StableHlo.held S₁
  exact bigSep_eq_bigSepL_of_eq _ rfl (List.Nodup.map (Proc.devRef_injective _) (by decide)) _

/-! ## What the host operations leave alone -/

/-- No operation before the region writes a buffer other than its ten results. -/
theorem not_written0 (b : Ref sig .tc) (hb : b ≠ main_call0_v0 ∧ b ≠ main_call0_v1 ∧ b ≠ main_call0_v2 ∧ b ≠ main_call0_v3
      ∧ b ≠ main_call0_v4 ∧ b ≠ main_call0_v5 ∧ b ≠ main_call0_v6 ∧ b ≠ main_call0_v7 ∧ b ≠ main_call0_v8 ∧ b ≠ main_call0_v9) :
    ∀ op ∈ (hostOps0 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.reshape_writes, Finset.mem_singleton] <;>
    exact StableHlo.devRef_ne_of_ne ‹_›

/-- Each argument array reaches the region as launched. -/
theorem V_arg0 (c : Dev nD) : V m c main_arg0 = m ((c.tc : Thread nD τ).loc main_arg0) :=
  StableHlo.after_of_forall_not_mem (b := Proc.devRef .tc main_arg0) hostOps0 _ (not_written0 main_arg0 (by decide))
theorem V_arg1 (c : Dev nD) : V m c main_arg1 = m ((c.tc : Thread nD τ).loc main_arg1) :=
  StableHlo.after_of_forall_not_mem (b := Proc.devRef .tc main_arg1) hostOps0 _ (not_written0 main_arg1 (by decide))
theorem V_arg2 (c : Dev nD) : V m c main_arg2 = m ((c.tc : Thread nD τ).loc main_arg2) :=
  StableHlo.after_of_forall_not_mem (b := Proc.devRef .tc main_arg2) hostOps0 _ (not_written0 main_arg2 (by decide))
theorem V_arg3 (c : Dev nD) : V m c main_arg3 = m ((c.tc : Thread nD τ).loc main_arg3) :=
  StableHlo.after_of_forall_not_mem (b := Proc.devRef .tc main_arg3) hostOps0 _ (not_written0 main_arg3 (by decide))
theorem V_arg4 (c : Dev nD) : V m c main_arg4 = m ((c.tc : Thread nD τ).loc main_arg4) :=
  StableHlo.after_of_forall_not_mem (b := Proc.devRef .tc main_arg4) hostOps0 _ (not_written0 main_arg4 (by decide))

/-! ## The contents when the region is left -/

/-- Core `c`'s buffer contents when the region is left: the output window's array at what the pipeline computed,
    every other buffer as the region found it (of these only the three the last two operations touch are read). -/
def V₁ (c : Dev nD) : Valuation τ sig (Elt F) :=
  Function.update (V0 m c) (Proc.devRef .tc main_call0_v10) (outArr m c)

theorem V₁_out (c : Dev nD) : V₁ m c (Proc.devRef .tc main_call0_v10) = outArr m c := by
  unfold V₁; rw [Function.update_self]

theorem V₁_v11 (c : Dev nD) : V₁ m c (Proc.devRef .tc main_call0_v11) = V m c main_call0_v11 := by
  unfold V₁; rw [Function.update_of_ne (StableHlo.devRef_ne_of_ne (by decide))]

theorem V₁_v0 (c : Dev nD) : V₁ m c (Proc.devRef .tc main_v0) = V m c main_v0 := by
  unfold V₁; rw [Function.update_of_ne (StableHlo.devRef_ne_of_ne (by decide))]

/-- The result array after the last two operations: the transposed, widened output array. -/
theorem after1_v0 (c : Dev nD) :
    StableHlo.after hostOps1 (V₁ m c) (Proc.devRef .tc main_v0) = tailOut (outArr m c) := by
  after_results
  rw [V₁_out]
  rfl

/-! ## @main as three segments -/

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁

/-- Core `c`'s buffers at launch, as the operations' valuation. -/
abbrev Vm (c : Dev nD) : Valuation τ sig (Elt F) := fun b => m (c, b)

/-- What rides beside the buffers through every segment: the core owes nothing. -/
abbrev R (c : Dev nD) : sProp 𝕄 := iprop(∃ W, owes (c.tc : Thread nD τ) (0 : CellTallies nD τ sig Unit) W)

/-- The five argument arrays, whole, at the contents the region finds them at. -/
abbrev Args (c : Dev nD) : sProp 𝕄 :=
  iprop((((c.tc : Thread nD τ).loc main_arg0) ↦{fullShare} V m c main_arg0)
    ∗ (((c.tc : Thread nD τ).loc main_arg1) ↦{fullShare} V m c main_arg1)
    ∗ (((c.tc : Thread nD τ).loc main_arg2) ↦{fullShare} V m c main_arg2)
    ∗ (((c.tc : Thread nD τ).loc main_arg3) ↦{fullShare} V m c main_arg3)
    ∗ (((c.tc : Thread nD τ).loc main_arg4) ↦{fullShare} V m c main_arg4))

/-- What bypasses the region: the argument arrays and the two buffers the last operations write. -/
abbrev Zc (c : Dev nD) : sProp 𝕄 :=
  iprop(Args m c ∗ (((c.tc : Thread nD τ).loc main_call0_v11) ↦{fullShare} V m c main_call0_v11)
    ∗ (((c.tc : Thread nD τ).loc main_v0) ↦{fullShare} V m c main_v0))

/-- THE FIRST HOST SEGMENT: the ten operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vm m) R

/-- The last two operations touch the three buffers of `S₁` only. -/
theorem hostOps1_S₁ : ∀ op ∈ (hostOps1 (F := F)), op.bufs ⊆ S₁ := by
  intro op hop
  simp only [List.mem_cons, List.mem_nil_iff, or_false] at hop
  rcases hop with rfl | rfl <;> rw [StableHlo.unary_bufs] <;> decide

/-- THE LAST HOST SEGMENT: the two operations over the output array and their two results, the argument arrays riding along. -/
def seg1 : Pipeline.HostSeg (Name := ℕ) (U := UR sig nD τ) (pcfgs (F := F)) defs₀ 𝒱₀ L lv :=
  Pipeline.HostSeg.ofOps _ _ _ _ _ S₁ hostOps1 hostOps1_S₁
    (by intro _ h; (repeat (cases h with | head => rfl | tail _ h => ?_)); exact nomatch h) (V₁ m) (fun c => iprop(Args m c ∗ R c))

set_option backward.isDefEq.respectTransparency.types false in
/-- THE REGION: the launch layout, no semaphore of the kernel's own, the body obligation; entered from what the first
    host segment left — the activations' buffer split three ways among the windows that stage it, the weights, the bias
    and the output buffer whole, the argument arrays and the last operations' results bypassing —, left with the output
    array at its final contents beside what bypassed. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c.tc : Thread nD τ) (Pipeline.ucRefs τ sig) (StableHlo.after hostOps0 (Vm m c)) ∗ R c)
  post c := iprop(StableHlo.held (c.tc : Thread nD τ) S₁ (V₁ m c) ∗ (Args m c ∗ R c))
  X c := iprop(emp)
  Y c := iprop(emp)
  Z c := Zc m c
  hentry c := by
    rw [show StableHlo.held (c.tc : Thread nD τ) (Pipeline.ucRefs τ sig) (StableHlo.after hostOps0 (Vm m c)) = unscopedBufs c (V m c) from (Pipeline.unscopedBufs_held c _).symm,
      Pipeline.unscopedBufs_split₀ cfgs 0 winFacts₀0.arr_unscoped c (V m c), arrBufs_chain, unscopedRest0_eq, arrays_chain]
    iintro ⟨⟨⟨⟨H3, H7, H9, H10⟩, Ha0, Ha1, Ha2, Ha3, Ha4, -, -, -, -, -, -, -, H11, H0⟩, HO⟩, -, -⟩
    ihave H3 := (pointsTo_share (PosShare.mem_left_op_right fullShare)).1 $$ H3
    icases H3 with ⟨H3l, H3r⟩
    ihave H3r := (pointsTo_share (PosShare.mem_left_op_right fullShare.right)).1 $$ H3r
    icases H3r with ⟨H3rl, H3rr⟩
    imodintro
    isplitl [H3l H3rl H3rr H7 H9 H10]
    · isplitl [H3l]; · iexact H3l
      isplitl [H3rl]; · iexact H3rl
      isplitl [H3rr]; · iexact H3rr
      isplitl [H7]; · iexact H7
      isplitl [H9]; · iexact H9
      iexact H10
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0 Ha1 Ha2 Ha3 Ha4]
    · isplitl [Ha0]; · iexact Ha0
      isplitl [Ha1]; · iexact Ha1
      isplitl [Ha2]; · iexact Ha2
      isplitl [Ha3]; · iexact Ha3
      iexact Ha4
    isplitl [H11]; · iexact H11
    iexact H0
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [arrays_chain, held_S₁, V₁_out, V₁_v11, V₁_v0]
    iintro ⟨⟨-, -, -, -, -, H10⟩, HO, -, ⟨Ha, H11, H0⟩⟩
    imodintro
    isplitl [H10 H11 H0]
    · isplitl [H10]; · iexact H10
      isplitl [H11]; · iexact H11
      iexact H0
    isplitl [Ha]; · iexact Ha
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The last thread state: the three buffers of the last operations after them, and the argument arrays. -/
abbrev Tₙ (c : Dev nD) : sProp 𝕄 :=
  iprop(StableHlo.held (c.tc : Thread nD τ) S₁ (StableHlo.after hostOps1 (V₁ m c)) ∗ Args m c)

set_option backward.isDefEq.respectTransparency.types false in
/-- THE RUN: termination, no fault, the result array at `tailOut` of the output window's final array, the argument
    arrays unchanged. -/
theorem run_main : θ_run defs (onTc (τ := τ) (main (F := F))) (s₀ m ρ) (fun r => ∀ c : Dev nD,
      r.2.mem ((c.tc : Thread nD τ).loc main_v0) = tailOut (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (Vm m c) ∗ R c)) (Tₙ := Tₙ m)
    (hch := ⟨fun _ => .rfl, fun _ => .rfl, fun _ => .rfl, fun c => by
      show iprop(StableHlo.held (c.tc : Thread nD τ) S₁ (StableHlo.after hostOps1 (V₁ m c)) ∗ (Args m c ∗ R c))
        ⊢ iprop(Tₙ m c ∗ ∃ W, owes (c.tc : Thread nD τ) (0 : CellTallies nD τ sig Unit) W)
      iintro ⟨Hh, Ha, HO⟩
      isplitr [HO]
      · isplitl [Hh]; · iexact Hh
        iexact Ha
      iexact HO⟩)
    (hinit := by
      refine Pipeline.initEach L lv fun c => ?_
      rw [show unscopedBufs c (fun b => m ((c.tc : Thread nD τ).loc b)) = StableHlo.held (c.tc : Thread nD τ) (Pipeline.ucRefs τ sig) (Vm m c) from Pipeline.unscopedBufs_held c (Vm m c)]
      iintro ⟨⟨Hh, -, HO, -, -, -⟩, -⟩
      imodintro
      isplitl [Hh]; · iexact Hh
      iexists ∅; iexact HO)
    (QY := fun c s => s.mem ((c.tc : Thread nD τ).loc main_v0) = tailOut (outArr m c)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      dsimp only [Tₙ, Args]
      rw [held_S₁, after1_v0, V_arg0, V_arg1, V_arg2, V_arg3, V_arg4]
      iintro ⟨⟨⟨-, -, H0⟩, Ha0, Ha1, Ha2, Ha3, Ha4⟩, HSI⟩
      icombine HSI H0 gives %h
      icombine HSI Ha0 gives %h0
      icombine HSI Ha1 gives %h1
      icombine HSI Ha2 gives %h2
      icombine HSI Ha3 gives %h3
      icombine HSI Ha4 gives %h4
      imodintro
      isplitr
      · ipureintro
        exact ⟨Buf.eq_of_forall_mem_univ h, Buf.eq_of_forall_mem_univ h0, Buf.eq_of_forall_mem_univ h1, Buf.eq_of_forall_mem_univ h2,
          Buf.eq_of_forall_mem_univ h3, Buf.eq_of_forall_mem_univ h4⟩
      iexact HSI)
    (hQ := fun _ h => h)

end Cert.Kernel.Hand

end
-- ==== Proof.KiBody.lean ====
/-
  The kernel body of `Cert.KernelIdeal` at one grid point (one output row `oh`, every image at once): what it leaves in the
  output window's buffer, as a function of the five input windows' buffers.

  The body reads the three weight slabs `W₀ W₁ W₂ : [128, 96]` and the bias column `[128, 1]` once, and then, for each
  output column `ow < 15`, the rows `[64·ow, 64·ow + 96)` of the three input-row buffers (the taps `kh = 0, 1, 2`); it
  stores at `[0, ow, :, :]` of the output buffer the gated value of `W₀·A₀ + W₁·A₁ + W₂·A₂ + bias` (`posVal`). The fifteen
  stores tile the output buffer, so after the body it holds their canonical overlay (`outBuf`), and `sound_kernel` is
  the body's triple: the input buffers are left as found, the output buffer at `outBuf` of them.
-/
import proofs.«136853_g2000106783720467_pallasbulk_1336_12_alg».proof.Proof.Gen.KernelIdeal.Launch
import proofs.«136853_g2000106783720467_pallasbulk_1336_12_alg».proof.Proof.Gen.KernelIdeal.Skeleton
import proofs.«136853_g2000106783720467_pallasbulk_1336_12_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- Weight slab `k` of the weight buffer `[3, 128, 96]`. -/
abbrev rW0 : Rect S3x128x96 := Rect.unit (s := S3x128x96) ![0, 0, 0] S1x128x96.size inb_S3x128x96_S1x128x96_0_0_0
abbrev rW1 : Rect S3x128x96 := Rect.unit (s := S3x128x96) ![1, 0, 0] S1x128x96.size inb_S3x128x96_S1x128x96_1_0_0
abbrev rW2 : Rect S3x128x96 := Rect.unit (s := S3x128x96) ![2, 0, 0] S1x128x96.size inb_S3x128x96_S1x128x96_2_0_0
/-- The whole bias column. -/
abbrev rB : Rect S128x1 := Rect.unit (s := S128x1) ![0, 0] S128x1.size inb_S128x1_S128x1_0_0
/-- Rows `[64·ow, 64·ow + 96)` of an input-row buffer `[1, 1024, 256]`: the window of output column `ow`. -/
abbrev rI0 : Rect S1x1024x256 := Rect.unit (s := S1x1024x256) ![0, 0, 0] S1x96x256.size inb_S1x1024x256_S1x96x256_0_0_0
abbrev rI1 : Rect S1x1024x256 := Rect.unit (s := S1x1024x256) ![0, 64, 0] S1x96x256.size inb_S1x1024x256_S1x96x256_0_64_0
abbrev rI2 : Rect S1x1024x256 := Rect.unit (s := S1x1024x256) ![0, 128, 0] S1x96x256.size inb_S1x1024x256_S1x96x256_0_128_0
abbrev rI3 : Rect S1x1024x256 := Rect.unit (s := S1x1024x256) ![0, 192, 0] S1x96x256.size inb_S1x1024x256_S1x96x256_0_192_0
abbrev rI4 : Rect S1x1024x256 := Rect.unit (s := S1x1024x256) ![0, 256, 0] S1x96x256.size inb_S1x1024x256_S1x96x256_0_256_0
abbrev rI5 : Rect S1x1024x256 := Rect.unit (s := S1x1024x256) ![0, 320, 0] S1x96x256.size inb_S1x1024x256_S1x96x256_0_320_0
abbrev rI6 : Rect S1x1024x256 := Rect.unit (s := S1x1024x256) ![0, 384, 0] S1x96x256.size inb_S1x1024x256_S1x96x256_0_384_0
abbrev rI7 : Rect S1x1024x256 := Rect.unit (s := S1x1024x256) ![0, 448, 0] S1x96x256.size inb_S1x1024x256_S1x96x256_0_448_0
abbrev rI8 : Rect S1x1024x256 := Rect.unit (s := S1x1024x256) ![0, 512, 0] S1x96x256.size inb_S1x1024x256_S1x96x256_0_512_0
abbrev rI9 : Rect S1x1024x256 := Rect.unit (s := S1x1024x256) ![0, 576, 0] S1x96x256.size inb_S1x1024x256_S1x96x256_0_576_0
abbrev rI10 : Rect S1x1024x256 := Rect.unit (s := S1x1024x256) ![0, 640, 0] S1x96x256.size inb_S1x1024x256_S1x96x256_0_640_0
abbrev rI11 : Rect S1x1024x256 := Rect.unit (s := S1x1024x256) ![0, 704, 0] S1x96x256.size inb_S1x1024x256_S1x96x256_0_704_0
abbrev rI12 : Rect S1x1024x256 := Rect.unit (s := S1x1024x256) ![0, 768, 0] S1x96x256.size inb_S1x1024x256_S1x96x256_0_768_0
abbrev rI13 : Rect S1x1024x256 := Rect.unit (s := S1x1024x256) ![0, 832, 0] S1x96x256.size inb_S1x1024x256_S1x96x256_0_832_0
abbrev rI14 : Rect S1x1024x256 := Rect.unit (s := S1x1024x256) ![0, 896, 0] S1x96x256.size inb_S1x1024x256_S1x96x256_0_896_0
/-- Slot `[0, ow, :, :]` of the output buffer `[1, 15, 64, 256]`. -/
abbrev rO0 : Rect S1x15x64x256 := Rect.unit (s := S1x15x64x256) ![0, 0, 0, 0] S1x1x64x256.size inb_S1x15x64x256_S1x1x64x256_0_0_0_0
abbrev rO1 : Rect S1x15x64x256 := Rect.unit (s := S1x15x64x256) ![0, 1, 0, 0] S1x1x64x256.size inb_S1x15x64x256_S1x1x64x256_0_1_0_0
abbrev rO2 : Rect S1x15x64x256 := Rect.unit (s := S1x15x64x256) ![0, 2, 0, 0] S1x1x64x256.size inb_S1x15x64x256_S1x1x64x256_0_2_0_0
abbrev rO3 : Rect S1x15x64x256 := Rect.unit (s := S1x15x64x256) ![0, 3, 0, 0] S1x1x64x256.size inb_S1x15x64x256_S1x1x64x256_0_3_0_0
abbrev rO4 : Rect S1x15x64x256 := Rect.unit (s := S1x15x64x256) ![0, 4, 0, 0] S1x1x64x256.size inb_S1x15x64x256_S1x1x64x256_0_4_0_0
abbrev rO5 : Rect S1x15x64x256 := Rect.unit (s := S1x15x64x256) ![0, 5, 0, 0] S1x1x64x256.size inb_S1x15x64x256_S1x1x64x256_0_5_0_0
abbrev rO6 : Rect S1x15x64x256 := Rect.unit (s := S1x15x64x256) ![0, 6, 0, 0] S1x1x64x256.size inb_S1x15x64x256_S1x1x64x256_0_6_0_0
abbrev rO7 : Rect S1x15x64x256 := Rect.unit (s := S1x15x64x256) ![0, 7, 0, 0] S1x1x64x256.size inb_S1x15x64x256_S1x1x64x256_0_7_0_0
abbrev rO8 : Rect S1x15x64x256 := Rect.unit (s := S1x15x64x256) ![0, 8, 0, 0] S1x1x64x256.size inb_S1x15x64x256_S1x1x64x256_0_8_0_0
abbrev rO9 : Rect S1x15x64x256 := Rect.unit (s := S1x15x64x256) ![0, 9, 0, 0] S1x1x64x256.size inb_S1x15x64x256_S1x1x64x256_0_9_0_0
abbrev rO10 : Rect S1x15x64x256 := Rect.unit (s := S1x15x64x256) ![0, 10, 0, 0] S1x1x64x256.size inb_S1x15x64x256_S1x1x64x256_0_10_0_0
abbrev rO11 : Rect S1x15x64x256 := Rect.unit (s := S1x15x64x256) ![0, 11, 0, 0] S1x1x64x256.size inb_S1x15x64x256_S1x1x64x256_0_11_0_0
abbrev rO12 : Rect S1x15x64x256 := Rect.unit (s := S1x15x64x256) ![0, 12, 0, 0] S1x1x64x256.size inb_S1x15x64x256_S1x1x64x256_0_12_0_0
abbrev rO13 : Rect S1x15x64x256 := Rect.unit (s := S1x15x64x256) ![0, 13, 0, 0] S1x1x64x256.size inb_S1x15x64x256_S1x1x64x256_0_13_0_0
abbrev rO14 : Rect S1x15x64x256 := Rect.unit (s := S1x15x64x256) ![0, 14, 0, 0] S1x1x64x256.size inb_S1x15x64x256_S1x1x64x256_0_14_0_0

/-! ## One output column's value -/

/-- The value stored for one output column, from the three weight slabs, the bias column and the three input windows:
    `acc = W₀·A₀ + W₁·A₁ + W₂·A₂ + bias` (each product accumulated from zero), `lin` its rows `[0, 64)`, `g` its rows
    `[64, 128)`, `e = exp(0 − |g|)`, and `lin · ((if g ≥ 0 then 1 else e) / (1 + e))` narrowed to the output's format. -/
def posVal (w0 w1 w2 : Vec F S1x128x96 .bf16) (b : Vec F S128x1 .f32) (a0 a1 a2 : Vec F S1x96x256 .bf16) : Vec F S1x1x64x256 .bf16 :=
  let acc : FVec F S128x256 .f32 :=
    addf (addf (addf
      (matmul dot_S128x96_S96x256_S128x256_1_0_0_1_n_n none (shapeCast S128x96 w0 shapeCasts_S1x128x96_S128x96) (shapeCast S96x256 a0 shapeCasts_S1x96x256_S96x256) (constant S128x256 .f32 0x00000000#32))
      (matmul dot_S128x96_S96x256_S128x256_1_0_0_1_n_n none (shapeCast S128x96 w1 shapeCasts_S1x128x96_S128x96) (shapeCast S96x256 a1 shapeCasts_S1x96x256_S96x256) (constant S128x256 .f32 0x00000000#32)))
      (matmul dot_S128x96_S96x256_S128x256_1_0_0_1_n_n none (shapeCast S128x96 w2 shapeCasts_S1x128x96_S128x96) (shapeCast S96x256 a2 shapeCasts_S1x96x256_S96x256) (constant S128x256 .f32 0x00000000#32)))
      (broadcastTo S128x256 (shapeCast S128x1 b shapeCasts_S128x1_S128x1) broadcasts_S128x1_S128x256)
  let lin : FVec F S64x256 .f32 := extractStridedSlice S64x256 ![0, 0] acc slices_S128x256_o0_0_S64x256
  let g : FVec F S64x256 .f32 := extractStridedSlice S64x256 ![64, 0] acc slices_S128x256_o64_0_S64x256
  let e : FVec F S64x256 .f32 := exp (subf (broadcast S64x256 (Scalar.ofBits .f32 0x00000000#32)) (absf g))
  let gate : FVec F S64x256 .f32 :=
    divf (select (cmpf .oge g (broadcast S64x256 (Scalar.ofBits .f32 0x00000000#32))) (broadcast S64x256 (Scalar.ofBits .f32 0x3F800000#32)) e)
      (addf (broadcast S64x256 (Scalar.ofBits .f32 0x3F800000#32)) e)
  shapeCast S1x1x64x256 (truncf .bf16 (mulf lin gate) bitsLt_bf16_f32) shapeCasts_S64x256_S1x1x64x256

/-! ## What the body leaves in the output window's buffer -/

/-- The output buffer after the body, from the input windows' buffers `x0 x1 x2` (the three input rows), `x3` (weights)
    and `x4` (bias): its fifteen stores as pieces, last first. -/
def outBuf (x0 x1 x2 : Vec F S1x1024x256 .bf16) (x3 : Vec F S3x128x96 .bf16) (x4 : Vec F S128x1 .f32) : Vec F S1x15x64x256 .bf16 :=
  View.canon [
    ⟨rO14, posVal (View.ld x3 rW0) (View.ld x3 rW1) (View.ld x3 rW2) (View.ld x4 rB) (View.ld x0 rI14) (View.ld x1 rI14) (View.ld x2 rI14)⟩,
    ⟨rO13, posVal (View.ld x3 rW0) (View.ld x3 rW1) (View.ld x3 rW2) (View.ld x4 rB) (View.ld x0 rI13) (View.ld x1 rI13) (View.ld x2 rI13)⟩,
    ⟨rO12, posVal (View.ld x3 rW0) (View.ld x3 rW1) (View.ld x3 rW2) (View.ld x4 rB) (View.ld x0 rI12) (View.ld x1 rI12) (View.ld x2 rI12)⟩,
    ⟨rO11, posVal (View.ld x3 rW0) (View.ld x3 rW1) (View.ld x3 rW2) (View.ld x4 rB) (View.ld x0 rI11) (View.ld x1 rI11) (View.ld x2 rI11)⟩,
    ⟨rO10, posVal (View.ld x3 rW0) (View.ld x3 rW1) (View.ld x3 rW2) (View.ld x4 rB) (View.ld x0 rI10) (View.ld x1 rI10) (View.ld x2 rI10)⟩,
    ⟨rO9, posVal (View.ld x3 rW0) (View.ld x3 rW1) (View.ld x3 rW2) (View.ld x4 rB) (View.ld x0 rI9) (View.ld x1 rI9) (View.ld x2 rI9)⟩,
    ⟨rO8, posVal (View.ld x3 rW0) (View.ld x3 rW1) (View.ld x3 rW2) (View.ld x4 rB) (View.ld x0 rI8) (View.ld x1 rI8) (View.ld x2 rI8)⟩,
    ⟨rO7, posVal (View.ld x3 rW0) (View.ld x3 rW1) (View.ld x3 rW2) (View.ld x4 rB) (View.ld x0 rI7) (View.ld x1 rI7) (View.ld x2 rI7)⟩,
    ⟨rO6, posVal (View.ld x3 rW0) (View.ld x3 rW1) (View.ld x3 rW2) (View.ld x4 rB) (View.ld x0 rI6) (View.ld x1 rI6) (View.ld x2 rI6)⟩,
    ⟨rO5, posVal (View.ld x3 rW0) (View.ld x3 rW1) (View.ld x3 rW2) (View.ld x4 rB) (View.ld x0 rI5) (View.ld x1 rI5) (View.ld x2 rI5)⟩,
    ⟨rO4, posVal (View.ld x3 rW0) (View.ld x3 rW1) (View.ld x3 rW2) (View.ld x4 rB) (View.ld x0 rI4) (View.ld x1 rI4) (View.ld x2 rI4)⟩,
    ⟨rO3, posVal (View.ld x3 rW0) (View.ld x3 rW1) (View.ld x3 rW2) (View.ld x4 rB) (View.ld x0 rI3) (View.ld x1 rI3) (View.ld x2 rI3)⟩,
    ⟨rO2, posVal (View.ld x3 rW0) (View.ld x3 rW1) (View.ld x3 rW2) (View.ld x4 rB) (View.ld x0 rI2) (View.ld x1 rI2) (View.ld x2 rI2)⟩,
    ⟨rO1, posVal (View.ld x3 rW0) (View.ld x3 rW1) (View.ld x3 rW2) (View.ld x4 rB) (View.ld x0 rI1) (View.ld x1 rI1) (View.ld x2 rI1)⟩,
    ⟨rO0, posVal (View.ld x3 rW0) (View.ld x3 rW1) (View.ld x3 rW2) (View.ld x4 rB) (View.ld x0 rI0) (View.ld x1 rI0) (View.ld x2 rI0)⟩]

/-- The fifteen slots tile the output buffer, so every index lies in one of them. -/
theorem cover_out (p0 p1 p2 p3 p4 p5 p6 p7 p8 p9 p10 p11 p12 p13 p14 : Vec F S1x1x64x256 .bf16) (y : S1x15x64x256.Idx) :
    ∃ pc ∈ ([⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S1x15x64x256 .bf16)), y ∈ pc.1.set :=
  View.cover_of_tiled [⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S1x1x64x256.size (by rfl) y

/-! ## The body's triple -/

set_option maxHeartbeats 1000000 in
/-- The kernel body on whole staging memrefs, the five inputs' at read contents and the output's at anything, runs to the
    continuation holding the inputs' as they were and the output's at `outBuf` of them. -/
theorem sound_kernel (c : Dev nD) (E : Set ℕ) (i : grid0.Coords)
    (arg1 : Memref sig .tc .vmem S1x1024x256 .bf16) (harg1 : arg1.IsWhole) (arg2 : Memref sig .tc .vmem S1x1024x256 .bf16) (harg2 : arg2.IsWhole)
    (arg3 : Memref sig .tc .vmem S1x1024x256 .bf16) (harg3 : arg3.IsWhole) (arg4 : Memref sig .tc .vmem S3x128x96 .bf16) (harg4 : arg4.IsWhole)
    (arg5 : Memref sig .tc .vmem S128x1 .f32) (harg5 : arg5.IsWhole) (arg6 : Memref sig .tc .vmem S1x15x64x256 .bf16) (harg6 : arg6.IsWhole)
    (x0 x1 x2 : Vec F S1x1024x256 .bf16) (x3 : Vec F S3x128x96 .bf16) (x4 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBuf x0 x1 x2 x3 x4)) -∗ K ⟨⟩))
      ⊢ wp frame (wpE (defs₀ (F := F)) Variants.none c none) E (cc0__glu_body i arg1 harg1 arg2 harg2 arg3 harg3 arg4 harg4 arg5 harg5 arg6 harg6) K := by
  simp only [cc0__glu_body_eq_skeleton]; unfold cc0__glu_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _ _ _ _ _ _ _ _ _ _ _ _ _ _ _)

end Cert.KernelIdeal.Hand

end
-- ==== Proof.KiData.lean ====
/-
  The proof data of `Cert.KernelIdeal`'s one pipeline: the arrays as the region finds them, each window's block at a grid point,
  what each window's buffer holds after the body there, and the body obligation at every point.

  The three input-row windows stage ONE array (the re-laid activations): output row `t` reads its rows `2t`, `2t + 1`,
  `2t + 2`. Each of the three holds a third of that array's share; the weights, the bias and the output are held whole.
-/
import proofs.«136853_g2000106783720467_pallasbulk_1336_12_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffer contents when the region is entered: after the ten host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The share each input window holds of its array: the three windows on the activations a third each. -/
def shareOf : Fin cfg0.W → PosShare TreeShare
  | ⟨0, _⟩ => fullShare.left
  | ⟨1, _⟩ => fullShare.right.left
  | ⟨2, _⟩ => fullShare.right.right
  | _ => fullShare

/-- The proof data on core `c`: the arrays as the region finds them; after the body at point `t` each input's buffer
    at its block and the output's at `outBuf` of the input blocks; the invariant the scoped buffers no window stages
    (there are none); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBuf (iblk m c 0 t) (iblk m c 1 t) (iblk m c 2 t) (iblk m c 3 t) (iblk m c 4 t)
  Φ _ := Pipeline.scopedRest spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBuf (iblk m c 0 t) (iblk m c 1 t) (iblk m c 2 t) (iblk m c 3 t) (iblk m c 4 t) := by dsimp only [dats]

/-! ## What each input's buffer holds when the body is called -/

/-- The first input-row window's buffer holds row `2t` of the activations at every point: the window is an input,
    never idle and uncut, and the body leaves its block in place, so the buffer holds what a fetch there puts in it,
    which is the block read off the array. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- The second input-row window's buffer holds row `2t + 1`, for the same reason. -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- The third input-row window's buffer holds row `2t + 2`, for the same reason. -/
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- The weights' buffer holds the whole weight array at every point. Its block index is constant, so it is fetched at
    the first point only; at a later point the index has not moved and the body left the block in place, so the
    buffer still holds it. -/
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
/-- The bias's buffer holds the whole bias column at every point, as the weights' does. -/
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-! ## The body obligation, at a generic point -/

/-- What the body is called with at point `t`: the invariant, what the core owes, and the six windows' current
    buffers, each whole at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the same invariant and debt, and each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. The five inputs' buffers hold their blocks, and the output's holds something, so the
    body's triple applies with the blocks as the inputs; it hands the inputs back as found and the output at `outBuf` of
    them, which is what the proof data says the body leaves. The invariant and the core's debt do not depend on the
    point and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point: the product over the six windows written out, it is `sound_body`. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiRun.lean ====
/-
  The run of `Cert.KernelIdeal`'s @main: ten host operations (the activations narrowed, re-laid to `[row, column·channel, image]`;
  the two weight sets stacked, narrowed and re-laid to `[kernel row, 2·64 channels, kernel column·channel]`; the two
  biases stacked into a column), the kernel region over fifteen grid points, and two host operations after it (the
  result re-laid to `[image, channel, row, column]` and widened). From any memory with zero counters every weakly fair
  execution terminates, the five argument arrays end as they were, and the result array is `tailOut` of what the
  pipeline library computes for the output window's array after the last point.
-/
import proofs.«136853_g2000106783720467_pallasbulk_1336_12_alg».proof.Proof.KiData
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two host operations after the region, as one function of the kernel's result array: transpose
    `[row, column, channel, image] → [image, channel, row, column]`, then widen. -/
def tailOut (A : Vec F S15x15x64x256 .bf16) : Vec F S256x64x15x15 .f32 :=
  extf .f32 (transpose S256x64x15x15 [3, 2, 0, 1] A transposes_S15x15x64x256_S256x64x15x15_3_2_0_1) bitsLt_bf16_f32

/-- The output window's array after the last grid point, as the pipeline library computes it from the proof data. -/
def outArr (c : Dev nD) : Vec F S15x15x64x256 .bf16 := (dats m 0 c).arrAt 5 cfg0.N

/-! ## The windows' arrays and the last operations' buffers, one by one -/

/-- The windows' arrays, one by one. -/
theorem arrays_chain (c : Dev nD) (G : (w : Fin cfg0.W) → Buf (Elt F) ((cfg0.win w).arr.view.loc (c.tc : Thread nD τ))) :
    ((dats m 0 c).arrays G : sProp 𝕄) = iprop(
      (((c.tc : Thread nD τ).loc main_call0_v3) ↦{fullShare.left} G 0)
      ∗ (((c.tc : Thread nD τ).loc main_call0_v3) ↦{fullShare.right.left} G 1)
      ∗ (((c.tc : Thread nD τ).loc main_call0_v3) ↦{fullShare.right.right} G 2)
      ∗ (((c.tc : Thread nD τ).loc main_call0_v7) ↦{fullShare} G 3)
      ∗ (((c.tc : Thread nD τ).loc main_call0_v9) ↦{fullShare} G 4)
      ∗ (((c.tc : Thread nD τ).loc main_call0_v10) ↦{fullShare} G 5)) := by
  unfold Dat.arrays
  rw [bigSep_W0]
  rw [(arr_whole0 0).set_eq_univ, (arr_whole0 3).set_eq_univ, (arr_whole0 4).set_eq_univ, (arr_whole0 5).set_eq_univ]
  rfl

/-- The distinct buffers behind the windows' arrays, one by one. -/
theorem arrBufs_chain (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄)
      = iprop((((c.tc : Thread nD τ).loc main_call0_v3) ↦{fullShare} V' main_call0_v3)
        ∗ (((c.tc : Thread nD τ).loc main_call0_v7) ↦{fullShare} V' main_call0_v7)
        ∗ (((c.tc : Thread nD τ).loc main_call0_v9) ↦{fullShare} V' main_call0_v9)
        ∗ (((c.tc : Thread nD τ).loc main_call0_v10) ↦{fullShare} V' main_call0_v10)) := by
  unfold Pipeline.arrBufs
  exact bigSep_eq_bigSepL_of_eq [main_call0_v3, main_call0_v7, main_call0_v9, main_call0_v10] (by decide) (by decide) _

/-- The buffers the two operations after the region touch. -/
def S₁ : Finset (DevRef τ sig) :=
  ([main_call0_v10, main_call0_v11, main_v0].map (Proc.devRef (τ := τ) .tc)).toFinset

/-- Those three held at a valuation, one by one. -/
theorem held_S₁ (c : Dev nD) (W : Valuation τ sig (Elt F)) :
    (StableHlo.held (c.tc : Thread nD τ) S₁ W : sProp 𝕄)
      = iprop((((c.tc : Thread nD τ).loc main_call0_v10) ↦{fullShare} W (Proc.devRef .tc main_call0_v10))
        ∗ (((c.tc : Thread nD τ).loc main_call0_v11) ↦{fullShare} W (Proc.devRef .tc main_call0_v11))
        ∗ (((c.tc : Thread nD τ).loc main_v0) ↦{fullShare} W (Proc.devRef .tc main_v0))) := by
  unfold StableHlo.held S₁
  exact bigSep_eq_bigSepL_of_eq _ rfl (List.Nodup.map (Proc.devRef_injective _) (by decide)) _

/-! ## What the host operations leave alone -/

/-- No operation before the region writes a buffer other than its ten results. -/
theorem not_written0 (b : Ref sig .tc) (hb : b ≠ main_call0_v0 ∧ b ≠ main_call0_v1 ∧ b ≠ main_call0_v2 ∧ b ≠ main_call0_v3
      ∧ b ≠ main_call0_v4 ∧ b ≠ main_call0_v5 ∧ b ≠ main_call0_v6 ∧ b ≠ main_call0_v7 ∧ b ≠ main_call0_v8 ∧ b ≠ main_call0_v9) :
    ∀ op ∈ (hostOps0 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.reshape_writes, Finset.mem_singleton] <;>
    exact StableHlo.devRef_ne_of_ne ‹_›

/-- Each argument array reaches the region as launched. -/
theorem V_arg0 (c : Dev nD) : V m c main_arg0 = m ((c.tc : Thread nD τ).loc main_arg0) :=
  StableHlo.after_of_forall_not_mem (b := Proc.devRef .tc main_arg0) hostOps0 _ (not_written0 main_arg0 (by decide))
theorem V_arg1 (c : Dev nD) : V m c main_arg1 = m ((c.tc : Thread nD τ).loc main_arg1) :=
  StableHlo.after_of_forall_not_mem (b := Proc.devRef .tc main_arg1) hostOps0 _ (not_written0 main_arg1 (by decide))
theorem V_arg2 (c : Dev nD) : V m c main_arg2 = m ((c.tc : Thread nD τ).loc main_arg2) :=
  StableHlo.after_of_forall_not_mem (b := Proc.devRef .tc main_arg2) hostOps0 _ (not_written0 main_arg2 (by decide))
theorem V_arg3 (c : Dev nD) : V m c main_arg3 = m ((c.tc : Thread nD τ).loc main_arg3) :=
  StableHlo.after_of_forall_not_mem (b := Proc.devRef .tc main_arg3) hostOps0 _ (not_written0 main_arg3 (by decide))
theorem V_arg4 (c : Dev nD) : V m c main_arg4 = m ((c.tc : Thread nD τ).loc main_arg4) :=
  StableHlo.after_of_forall_not_mem (b := Proc.devRef .tc main_arg4) hostOps0 _ (not_written0 main_arg4 (by decide))

/-! ## The contents when the region is left -/

/-- Core `c`'s buffer contents when the region is left: the output window's array at what the pipeline computed,
    every other buffer as the region found it (of these only the three the last two operations touch are read). -/
def V₁ (c : Dev nD) : Valuation τ sig (Elt F) :=
  Function.update (V0 m c) (Proc.devRef .tc main_call0_v10) (outArr m c)

theorem V₁_out (c : Dev nD) : V₁ m c (Proc.devRef .tc main_call0_v10) = outArr m c := by
  unfold V₁; rw [Function.update_self]

theorem V₁_v11 (c : Dev nD) : V₁ m c (Proc.devRef .tc main_call0_v11) = V m c main_call0_v11 := by
  unfold V₁; rw [Function.update_of_ne (StableHlo.devRef_ne_of_ne (by decide))]

theorem V₁_v0 (c : Dev nD) : V₁ m c (Proc.devRef .tc main_v0) = V m c main_v0 := by
  unfold V₁; rw [Function.update_of_ne (StableHlo.devRef_ne_of_ne (by decide))]

/-- The result array after the last two operations: the transposed, widened output array. -/
theorem after1_v0 (c : Dev nD) :
    StableHlo.after hostOps1 (V₁ m c) (Proc.devRef .tc main_v0) = tailOut (outArr m c) := by
  after_results
  rw [V₁_out]
  rfl

/-! ## @main as three segments -/

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁

/-- Core `c`'s buffers at launch, as the operations' valuation. -/
abbrev Vm (c : Dev nD) : Valuation τ sig (Elt F) := fun b => m (c, b)

/-- What rides beside the buffers through every segment: the core owes nothing. -/
abbrev R (c : Dev nD) : sProp 𝕄 := iprop(∃ W, owes (c.tc : Thread nD τ) (0 : CellTallies nD τ sig Unit) W)

/-- The five argument arrays, whole, at the contents the region finds them at. -/
abbrev Args (c : Dev nD) : sProp 𝕄 :=
  iprop((((c.tc : Thread nD τ).loc main_arg0) ↦{fullShare} V m c main_arg0)
    ∗ (((c.tc : Thread nD τ).loc main_arg1) ↦{fullShare} V m c main_arg1)
    ∗ (((c.tc : Thread nD τ).loc main_arg2) ↦{fullShare} V m c main_arg2)
    ∗ (((c.tc : Thread nD τ).loc main_arg3) ↦{fullShare} V m c main_arg3)
    ∗ (((c.tc : Thread nD τ).loc main_arg4) ↦{fullShare} V m c main_arg4))

/-- What bypasses the region: the argument arrays and the two buffers the last operations write. -/
abbrev Zc (c : Dev nD) : sProp 𝕄 :=
  iprop(Args m c ∗ (((c.tc : Thread nD τ).loc main_call0_v11) ↦{fullShare} V m c main_call0_v11)
    ∗ (((c.tc : Thread nD τ).loc main_v0) ↦{fullShare} V m c main_v0))

/-- THE FIRST HOST SEGMENT: the ten operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vm m) R

/-- The last two operations touch the three buffers of `S₁` only. -/
theorem hostOps1_S₁ : ∀ op ∈ (hostOps1 (F := F)), op.bufs ⊆ S₁ := by
  intro op hop
  simp only [List.mem_cons, List.mem_nil_iff, or_false] at hop
  rcases hop with rfl | rfl <;> rw [StableHlo.unary_bufs] <;> decide

/-- THE LAST HOST SEGMENT: the two operations over the output array and their two results, the argument arrays riding along. -/
def seg1 : Pipeline.HostSeg (Name := ℕ) (U := UR sig nD τ) (pcfgs (F := F)) defs₀ 𝒱₀ L lv :=
  Pipeline.HostSeg.ofOps _ _ _ _ _ S₁ hostOps1 hostOps1_S₁
    (by intro _ h; (repeat (cases h with | head => rfl | tail _ h => ?_)); exact nomatch h) (V₁ m) (fun c => iprop(Args m c ∗ R c))

set_option backward.isDefEq.respectTransparency.types false in
/-- THE REGION: the launch layout, no semaphore of the kernel's own, the body obligation; entered from what the first
    host segment left — the activations' buffer split three ways among the windows that stage it, the weights, the bias
    and the output buffer whole, the argument arrays and the last operations' results bypassing —, left with the output
    array at its final contents beside what bypassed. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c.tc : Thread nD τ) (Pipeline.ucRefs τ sig) (StableHlo.after hostOps0 (Vm m c)) ∗ R c)
  post c := iprop(StableHlo.held (c.tc : Thread nD τ) S₁ (V₁ m c) ∗ (Args m c ∗ R c))
  X c := iprop(emp)
  Y c := iprop(emp)
  Z c := Zc m c
  hentry c := by
    rw [show StableHlo.held (c.tc : Thread nD τ) (Pipeline.ucRefs τ sig) (StableHlo.after hostOps0 (Vm m c)) = unscopedBufs c (V m c) from (Pipeline.unscopedBufs_held c _).symm,
      Pipeline.unscopedBufs_split₀ cfgs 0 winFacts₀0.arr_unscoped c (V m c), arrBufs_chain, unscopedRest0_eq, arrays_chain]
    iintro ⟨⟨⟨⟨H3, H7, H9, H10⟩, Ha0, Ha1, Ha2, Ha3, Ha4, -, -, -, -, -, -, -, H11, H0⟩, HO⟩, -, -⟩
    ihave H3 := (pointsTo_share (PosShare.mem_left_op_right fullShare)).1 $$ H3
    icases H3 with ⟨H3l, H3r⟩
    ihave H3r := (pointsTo_share (PosShare.mem_left_op_right fullShare.right)).1 $$ H3r
    icases H3r with ⟨H3rl, H3rr⟩
    imodintro
    isplitl [H3l H3rl H3rr H7 H9 H10]
    · isplitl [H3l]; · iexact H3l
      isplitl [H3rl]; · iexact H3rl
      isplitl [H3rr]; · iexact H3rr
      isplitl [H7]; · iexact H7
      isplitl [H9]; · iexact H9
      iexact H10
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0 Ha1 Ha2 Ha3 Ha4]
    · isplitl [Ha0]; · iexact Ha0
      isplitl [Ha1]; · iexact Ha1
      isplitl [Ha2]; · iexact Ha2
      isplitl [Ha3]; · iexact Ha3
      iexact Ha4
    isplitl [H11]; · iexact H11
    iexact H0
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [arrays_chain, held_S₁, V₁_out, V₁_v11, V₁_v0]
    iintro ⟨⟨-, -, -, -, -, H10⟩, HO, -, ⟨Ha, H11, H0⟩⟩
    imodintro
    isplitl [H10 H11 H0]
    · isplitl [H10]; · iexact H10
      isplitl [H11]; · iexact H11
      iexact H0
    isplitl [Ha]; · iexact Ha
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The last thread state: the three buffers of the last operations after them, and the argument arrays. -/
abbrev Tₙ (c : Dev nD) : sProp 𝕄 :=
  iprop(StableHlo.held (c.tc : Thread nD τ) S₁ (StableHlo.after hostOps1 (V₁ m c)) ∗ Args m c)

set_option backward.isDefEq.respectTransparency.types false in
/-- THE RUN: termination, no fault, the result array at `tailOut` of the output window's final array, the argument
    arrays unchanged. -/
theorem run_main : θ_run defs (onTc (τ := τ) (main (F := F))) (s₀ m ρ) (fun r => ∀ c : Dev nD,
      r.2.mem ((c.tc : Thread nD τ).loc main_v0) = tailOut (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (Vm m c) ∗ R c)) (Tₙ := Tₙ m)
    (hch := ⟨fun _ => .rfl, fun _ => .rfl, fun _ => .rfl, fun c => by
      show iprop(StableHlo.held (c.tc : Thread nD τ) S₁ (StableHlo.after hostOps1 (V₁ m c)) ∗ (Args m c ∗ R c))
        ⊢ iprop(Tₙ m c ∗ ∃ W, owes (c.tc : Thread nD τ) (0 : CellTallies nD τ sig Unit) W)
      iintro ⟨Hh, Ha, HO⟩
      isplitr [HO]
      · isplitl [Hh]; · iexact Hh
        iexact Ha
      iexact HO⟩)
    (hinit := by
      refine Pipeline.initEach L lv fun c => ?_
      rw [show unscopedBufs c (fun b => m ((c.tc : Thread nD τ).loc b)) = StableHlo.held (c.tc : Thread nD τ) (Pipeline.ucRefs τ sig) (Vm m c) from Pipeline.unscopedBufs_held c (Vm m c)]
      iintro ⟨⟨Hh, -, HO, -, -, -⟩, -⟩
      imodintro
      isplitl [Hh]; · iexact Hh
      iexists ∅; iexact HO)
    (QY := fun c s => s.mem ((c.tc : Thread nD τ).loc main_v0) = tailOut (outArr m c)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      dsimp only [Tₙ, Args]
      rw [held_S₁, after1_v0, V_arg0, V_arg1, V_arg2, V_arg3, V_arg4]
      iintro ⟨⟨⟨-, -, H0⟩, Ha0, Ha1, Ha2, Ha3, Ha4⟩, HSI⟩
      icombine HSI H0 gives %h
      icombine HSI Ha0 gives %h0
      icombine HSI Ha1 gives %h1
      icombine HSI Ha2 gives %h2
      icombine HSI Ha3 gives %h3
      icombine HSI Ha4 gives %h4
      imodintro
      isplitr
      · ipureintro
        exact ⟨Buf.eq_of_forall_mem_univ h, Buf.eq_of_forall_mem_univ h0, Buf.eq_of_forall_mem_univ h1, Buf.eq_of_forall_mem_univ h2,
          Buf.eq_of_forall_mem_univ h3, Buf.eq_of_forall_mem_univ h4⟩
      iexact HSI)
    (hQ := fun _ h => h)

end Cert.KernelIdeal.Hand

end
-- ==== Proof.KiHost.lean ====
/-
  The arrays the kernel region of `Cert.KernelIdeal` finds, read at an index in terms of the argument arrays (over the
  extended reals, where a change of float format is the identity): the host operations before the region re-lay the
  activations `x[n, ci, h, w]` to `[h, 32·w + ci, n]`, stack the two weight sets along the output channel and re-lay
  `wcat[c, ci, kh, kw]` to `[kh, c, 32·kw + ci]`, and stack the two biases into a column `[c, 0]`.
-/
import proofs.«136853_g2000106783720467_pallasbulk_1336_12_alg».proof.Proof.KiData
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-- The re-laid activations as one term of the argument: the format change, then the axes permuted to
    `[h, w, ci, n]`, then the two middle axes merged. -/
theorem xr_term (c : Dev nD) :
    @Eq (S32x1024x256.Idx → EReal) (V m c main_call0_v3)
      (shapeCast S32x1024x256
          (transpose S32x32x32x256 [2, 3, 1, 0]
            (id (truncf (F := Ideal) .bf16 (m ((c.tc : Thread nD τ).loc main_arg0) : FVec Ideal S256x32x32x32 .f32) bitsLt_bf16_f32))
            transposes_S256x32x32x32_S32x32x32x256_2_3_1_0)
          shapeCasts_S32x32x32x256_S32x1024x256) := by
  dsimp only [V, V0, hostOps0]; after_results; rfl

/-- The re-laid activations: row `h`, sublane `32·w + ci`, lane `n` holds `x[n, ci, h, w]`. -/
theorem xr_apply (c : Dev nD) (h w ci : Fin 32) (n : Fin 256) :
    (V m c main_call0_v3 : S32x1024x256.Idx → EReal) (ix3 h (⟨32 * w.val + ci.val, by omega⟩ : Fin 1024) n)
      = (m ((c.tc : Thread nD τ).loc main_arg0) : S256x32x32x32.Idx → EReal) (ix4 n ci h w) := by
  rw [xr_term]
  -- the merged axis: position `32·w + ci` of 1024 is the pair `(w, ci)` of `32 × 32` (same row-major position)
  refine (shapeCast_apply _ _ _ (ix4 h w ci n) ?_).trans ?_
  · rw [Shape.rowMajor_val_four, Shape.rowMajor_val_three]
    show ((h.val * 32 + w.val) * 32 + ci.val) * 256 + n.val = (h.val * 1024 + (32 * w.val + ci.val)) * 256 + n.val
    omega
  -- the permutation: result axes `(h, w, ci, n)` are source axes `2, 3, 1, 0`
  refine (transpose_apply _ _ _ _ (ix4 n ci h w) ?_).trans ?_
  · intro b
    match b with
    | ⟨0, _⟩ => rfl
    | ⟨1, _⟩ => rfl
    | ⟨2, _⟩ => rfl
    | ⟨3, _⟩ => rfl
  -- over the extended reals the format change is the identity
  rfl

/-- The re-laid weights as one term of the two weight arguments: stacked along the output channel, the format
    change, the axes permuted to `[kh, c, kw, ci]`, then the last two axes merged. -/
theorem wg_term (c : Dev nD) :
    @Eq (S3x128x96.Idx → EReal) (V m c main_call0_v7)
      (shapeCast S3x128x96
          (transpose S3x128x3x32 [2, 0, 3, 1]
            (truncf (F := Ideal) .bf16
              (concatenate S128x32x3x3 0
                [⟨S64x32x3x3, (m ((c.tc : Thread nD τ).loc main_arg1) : FVec Ideal S64x32x3x3 .f32)⟩,
                 ⟨S64x32x3x3, (m ((c.tc : Thread nD τ).loc main_arg3) : FVec Ideal S64x32x3x3 .f32)⟩]
                concatenates_S64x32x3x3_S64x32x3x3_S128x32x3x3_d0 : FVec Ideal S128x32x3x3 .f32)
              bitsLt_bf16_f32)
            transposes_S128x32x3x3_S3x128x3x32_2_0_3_1)
          shapeCasts_S3x128x3x32_S3x128x96) := by
  dsimp only [V, V0, hostOps0]; after_results; rfl

/-- The re-laid weights: slab `kh`, row `cc`, column `32·kw + ci` holds the stacked weights at `[cc, ci, kh, kw]`: the first
    set for `cc < 64`, the second at `cc − 64` otherwise. -/
theorem wg_apply (c : Dev nD) (kh kw : Fin 3) (cc : Fin 128) (ci : Fin 32) :
    (V m c main_call0_v7 : S3x128x96.Idx → EReal) (ix3 kh cc (⟨32 * kw.val + ci.val, by omega⟩ : Fin 96))
      = if hc : cc.val < 64 then (m ((c.tc : Thread nD τ).loc main_arg1) : S64x32x3x3.Idx → EReal) (ix4 (⟨cc.val, hc⟩ : Fin 64) ci kh kw)
        else (m ((c.tc : Thread nD τ).loc main_arg3) : S64x32x3x3.Idx → EReal) (ix4 (⟨cc.val - 64, by omega⟩ : Fin 64) ci kh kw) := by
  rw [wg_term]
  -- the merged axis: position `32·kw + ci` of 96 is the pair `(kw, ci)` of `3 × 32`
  refine (shapeCast_apply _ _ _ (ix4 kh cc kw ci) ?_).trans ?_
  · rw [Shape.rowMajor_val_four, Shape.rowMajor_val_three]
    show ((kh.val * 128 + cc.val) * 3 + kw.val) * 32 + ci.val = (kh.val * 128 + cc.val) * 96 + (32 * kw.val + ci.val)
    omega
  -- the permutation: result axes `(kh, c, kw, ci)` are source axes `2, 0, 3, 1`
  refine (transpose_apply _ _ _ _ (ix4 cc ci kh kw) ?_).trans ?_
  · intro b
    match b with
    | ⟨0, _⟩ => rfl
    | ⟨1, _⟩ => rfl
    | ⟨2, _⟩ => rfl
    | ⟨3, _⟩ => rfl
  rw [truncf_apply]
  -- the stack along the channel: the first set below 64, the second, 64 less, from there on
  by_cases hc : cc.val < 64
  · rw [dif_pos hc]
    refine concatenate_pair_apply_left (t := S128x32x3x3) (s₁ := S64x32x3x3) (s₂ := S64x32x3x3) 0 _ _
      concatenates_S64x32x3x3_S64x32x3x3_S128x32x3x3_d0 (ix4 cc ci kh kw) rfl (ix4 (⟨cc.val, hc⟩ : Fin 64) ci kh kw) ?_
    intro b
    match b with
    | ⟨0, _⟩ => rfl
    | ⟨1, _⟩ => rfl
    | ⟨2, _⟩ => rfl
    | ⟨3, _⟩ => rfl
  · rw [dif_neg hc]
    refine concatenate_pair_apply_right (t := S128x32x3x3) (s₁ := S64x32x3x3) (s₂ := S64x32x3x3) 0 _ _
      concatenates_S64x32x3x3_S64x32x3x3_S128x32x3x3_d0 (ix4 cc ci kh kw) rfl rfl (ix4 (⟨cc.val - 64, by omega⟩ : Fin 64) ci kh kw) ?_ ?_
    · intro b hb
      match b, hb with
      | ⟨0, _⟩, hb => exact absurd rfl hb
      | ⟨1, _⟩, _ => rfl
      | ⟨2, _⟩, _ => rfl
      | ⟨3, _⟩, _ => rfl
    · show (cc.val - 64) + 64 = cc.val
      omega

/-- The bias column as one term of the two bias arguments: stacked, then given a unit second axis. -/
theorem bcol_term (c : Dev nD) :
    @Eq (S128x1.Idx → EReal) (V m c main_call0_v9)
      (shapeCast S128x1
          (concatenate S128 0
            [⟨S64, (m ((c.tc : Thread nD τ).loc main_arg2) : FVec Ideal S64 .f32)⟩,
             ⟨S64, (m ((c.tc : Thread nD τ).loc main_arg4) : FVec Ideal S64 .f32)⟩]
            concatenates_S64_S64_S128_d0 : FVec Ideal S128 .f32)
          shapeCasts_S128_S128x1) := by
  dsimp only [V, V0, hostOps0]; after_results; rfl

/-- The bias column: row `cc` holds the first bias for `cc < 64`, the second at `cc − 64` otherwise. -/
theorem bcol_apply (c : Dev nD) (cc : Fin 128) :
    (V m c main_call0_v9 : S128x1.Idx → EReal) (ix2 cc (0 : Fin 1))
      = if hc : cc.val < 64 then (m ((c.tc : Thread nD τ).loc main_arg2) : S64.Idx → EReal) (ix1 (⟨cc.val, hc⟩ : Fin 64))
        else (m ((c.tc : Thread nD τ).loc main_arg4) : S64.Idx → EReal) (ix1 (⟨cc.val - 64, by omega⟩ : Fin 64)) := by
  rw [bcol_term]
  -- the unit axis: `[cc, 0]` of `128 × 1` is position `cc` of 128
  refine (shapeCast_apply _ _ _ (ix1 cc) ?_).trans ?_
  · rw [Shape.rowMajor_val_one, Shape.rowMajor_val_two]
    show cc.val = cc.val * 1 + 0
    omega
  by_cases hc : cc.val < 64
  · rw [dif_pos hc]
    refine concatenate_pair_apply_left (t := S128) (s₁ := S64) (s₂ := S64) 0 _ _
      concatenates_S64_S64_S128_d0 (ix1 cc) rfl (ix1 (⟨cc.val, hc⟩ : Fin 64)) ?_
    intro b
    match b with
    | ⟨0, _⟩ => rfl
  · rw [dif_neg hc]
    refine concatenate_pair_apply_right (t := S128) (s₁ := S64) (s₂ := S64) 0 _ _
      concatenates_S64_S64_S128_d0 (ix1 cc) rfl rfl (ix1 (⟨cc.val - 64, by omega⟩ : Fin 64)) ?_ ?_
    · intro b hb
      match b, hb with
      | ⟨0, _⟩, hb => exact absurd rfl hb
    · show (cc.val - 64) + 64 = cc.val
      omega

end Cert.KernelIdeal.Hand

end
-- ==== Proof.Spec.lean ====
/-
  The mathematical content of the certificate, stated once over plain index types: a gated ("GLU") 3×3 valid
  convolution of stride 2. For an image `n`, an output channel `co` and an output position `(oh, ow)`,

      conv x w b n co oh ow = (∑ kh < 3, ∑ kw < 3, ∑ ci < 32, w[co, ci, kh, kw] · x[n, ci, 2·oh + kh, 2·ow + kw]) + b[co]

  over the extended reals, and the result is `lin · gate(g)` with `lin` the convolution by the first weight set,
  `g` the one by the second, and `gate(g) = (if g ≥ 0 then 1 else e) / (1 + e)`, `e = exp(0 − |g|)`: the logistic
  function of `g` written so that the exponential's argument is never positive. Both programs compute this function;
  they differ in how they lay the operands out and in which order they add the products up.
-/
import Idealize.ShloMosaic.PureOps.Ideal
import Idealize.ShloMosaic.Lib.ValueIdx

noncomputable section

open scoped BigOperators

namespace Cert.Spec

open Idealize.ShloMosaic Idealize.ShloMosaic.ValueIdx

/-- The activations, `[image, input channel, row, column]`. -/
abbrev SX : Shape := ⟨4, ![256, 32, 32, 32]⟩
/-- One weight set, `[output channel, input channel, kernel row, kernel column]`. -/
abbrev SW : Shape := ⟨4, ![64, 32, 3, 3]⟩
/-- One bias vector. -/
abbrev SB : Shape := ⟨1, ![64]⟩
/-- The result, `[image, output channel, output row, output column]`. -/
abbrev SO : Shape := ⟨4, ![256, 64, 15, 15]⟩

/-- The input row (or column) that tap `k` of output row (or column) `o` reads: `2·o + k`, below 32 because `o < 15`
    and `k < 3`. -/
def tap (o : Fin 15) (k : Fin 3) : Fin 32 := ⟨2 * o.val + k.val, by omega⟩

/-- One convolution branch at one output element: the 3·3·32 products summed, then the bias. -/
def conv (x : SX.Idx → EReal) (w : SW.Idx → EReal) (b : SB.Idx → EReal) (n : Fin 256) (co : Fin 64) (oh ow : Fin 15) : EReal :=
  (∑ kh : Fin 3, ∑ kw : Fin 3, ∑ ci : Fin 32, w (ix4 co ci kh kw) * x (ix4 n ci (tap oh kh) (tap ow kw))) + b (ix1 co)

/-- The gate applied to the linear branch: `lin · ((if g ≥ 0 then 1 else e) / (1 + e))` with `e = exp(0 − |g|)`,
    in the extended reals' operations (`|g| = max g (−g)`; the two literals are the words of `0.0` and `1.0`). -/
def glu (lin g : EReal) : EReal :=
  lin * Ideal.div
    (Scalar.select (Ideal.cmp .oge g (Ideal.ofBits .f32 0x00000000#32)) (Ideal.ofBits .f32 0x3F800000#32)
      (Ideal.exp (Ideal.ofBits .f32 0x00000000#32 - max g (-g))))
    (Ideal.ofBits .f32 0x3F800000#32 + Ideal.exp (Ideal.ofBits .f32 0x00000000#32 - max g (-g)))

/-- The result array as one function of the five argument arrays. -/
def G (x : SX.Idx → EReal) (w1 : SW.Idx → EReal) (b1 : SB.Idx → EReal) (w2 : SW.Idx → EReal) (b2 : SB.Idx → EReal) :
    SO.Idx → EReal := fun j =>
  glu (conv x w1 b1 (j 0) (j 1) (j 2) (j 3)) (conv x w2 b2 (j 0) (j 1) (j 2) (j 3))

theorem G_apply (x : SX.Idx → EReal) (w1 : SW.Idx → EReal) (b1 : SB.Idx → EReal) (w2 : SW.Idx → EReal) (b2 : SB.Idx → EReal)
    (n : Fin 256) (co : Fin 64) (oh ow : Fin 15) :
    G x w1 b1 w2 b2 (ix4 n co oh ow) = glu (conv x w1 b1 n co oh ow) (conv x w2 b2 n co oh ow) := rfl

end Cert.Spec

end
-- ==== Proof.KiValue.lean ====
/-
  The value of `Cert.KernelIdeal`'s result over the extended reals: the result array is the gated convolution
  `Cert.Spec.G` of the five argument arrays.

  At grid point `t` (output row `oh = t`) the three input windows hold rows `2t`, `2t + 1`, `2t + 2` of the re-laid
  activations `xr[h, 32·w + ci, n] = x[n, ci, h, w]`; the window of output column `ow` is rows `[64·ow, 64·ow + 96)`, i.e.
  `(w, ci)` with `w = 2·ow + kw`, `kw < 3`. The weight slab `kh` is `wg[kh, c, 32·kw + ci] = wcat[c, ci, kh, kw]` with
  `wcat` the two weight sets stacked along the output channel. So the accumulator at `(c, n)` is
  `∑ kh, ∑ (kw, ci), wcat[c, ci, kh, kw] · x[n, ci, 2·oh + kh, 2·ow + kw] + bcat[c]`, rows `c < 64` the linear branch and
  rows `64 + c` the gate's; the block written back at point `t` is row `oh = t` of `[oh, ow, co, n]`, the fifteen blocks
  cover that array, and the host transposes it to `[n, co, oh, ow]`. Changes of float format are the identity here.
-/
import proofs.«136853_g2000106783720467_pallasbulk_1336_12_alg».proof.Proof.KiRun
import proofs.«136853_g2000106783720467_pallasbulk_1336_12_alg».proof.Proof.KiHost
import proofs.«136853_g2000106783720467_pallasbulk_1336_12_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-! ## Reading through a unit-stride rectangle, the host's last two operations, one matrix product -/

/-- A load through a unit-stride rectangle reads the operand at the rectangle's offsets plus the local coordinates. -/
theorem ld_unit_eq {S : Shape} {Val : EltTy → Type} {e : EltTy} (X : S.Idx → Val e) (off size : Fin S.rank → Nat)
    (inb : ∀ a, off a + size a ≤ S.size a) (x : (Rect.unit (s := S) off size inb).shape.Idx) (k : S.Idx)
    (hk : ∀ a, (k a).val = off a + (x a).val) : View.ld X (Rect.unit (s := S) off size inb) x = X k := by
  show X ((Rect.unit (s := S) off size inb).idx x) = X k
  refine congrArg X (funext fun a => Fin.ext ?_)
  show off a + 1 * (x a).val = (k a).val
  rw [hk a, Nat.one_mul]

/-- The transposed and widened result at `[n, co, oh, ow]` is the kernel's array at `[oh, ow, co, n]`. -/
theorem tailOut_apply (A : Vec Ideal S15x15x64x256 .bf16) (n : Fin 256) (co : Fin 64) (oh ow : Fin 15) :
    tailOut (F := Ideal) A (ix4 n co oh ow) = A (ix4 oh ow co n) := by
  unfold tailOut
  rw [extf_apply]
  exact transpose_apply [3, 2, 0, 1] A transposes_S15x15x64x256_S256x64x15x15_3_2_0_1 (ix4 n co oh ow) (ix4 oh ow co n)
    (fun b => by match b with | ⟨0, _⟩ => rfl | ⟨1, _⟩ => rfl | ⟨2, _⟩ => rfl | ⟨3, _⟩ => rfl)

/-- One matrix product accumulated from zero, at an entry: the sum over the contracted coordinate. -/
theorem mm_apply (A : FVec Ideal S128x96 .bf16) (B : FVec Ideal S96x256 .bf16) (a : Fin 128) (b : Fin 256) :
    matmul dot_S128x96_S96x256_S128x256_1_0_0_1_n_n none A B (constant (F := Ideal) S128x256 .f32 0x00000000#32) (ix2 a b)
      = ∑ j : Fin 96, A (ix2 a j) * B (ix2 j b) := by
  show FloatOps.matmul _ none A B _ (ix2 a b) = _
  rw [Ideal.matmul_constant_zero_apply,
    ← Equiv.sum_comp (contrEquiv1 dot_S128x96_S96x256_S128x256_1_0_0_1_n_n 96 rfl rfl).symm]
  refine Finset.sum_congr rfl fun j _ => ?_
  have c2 := contrEquiv1_symm_val dot_S128x96_S96x256_S128x256_1_0_0_1_n_n 96 rfl rfl j
  have l2 : dot_S128x96_S96x256_S128x256_1_0_0_1_n_n.lhsIdx (ix2 a b) ((contrEquiv1 _ 96 rfl rfl).symm j) = ix2 a j := by
    funext ax; apply Fin.ext
    match ax with
    | ⟨0, _⟩ => simp [DotDims.lhsIdx, dot_S128x96_S96x256_S128x256_1_0_0_1_n_n]; rfl
    | ⟨1, _⟩ => simp [DotDims.lhsIdx, dot_S128x96_S96x256_S128x256_1_0_0_1_n_n]; exact c2
  have r2 : dot_S128x96_S96x256_S128x256_1_0_0_1_n_n.rhsIdx (ix2 a b) ((contrEquiv1 _ 96 rfl rfl).symm j) = ix2 j b := by
    funext ax; apply Fin.ext
    match ax with
    | ⟨0, _⟩ => simp [DotDims.rhsIdx, dot_S128x96_S96x256_S128x256_1_0_0_1_n_n]; exact c2
    | ⟨1, _⟩ => simp [DotDims.rhsIdx, dot_S128x96_S96x256_S128x256_1_0_0_1_n_n]; rfl
  rw [l2, r2]

/-! ## One output column's value at an entry -/

/-- The accumulator's entry `(c, n)`: the three slabs' products summed over the 96 window rows, then the bias. -/
def accE (w0 w1 w2 : Vec Ideal S1x128x96 .bf16) (b : Vec Ideal S128x1 .f32) (a0 a1 a2 : Vec Ideal S1x96x256 .bf16)
    (c : Fin 128) (n : Fin 256) : EReal :=
  (((∑ j : Fin 96, (w0 (ix3 (0 : Fin 1) c j) : EReal) * (a0 (ix3 (0 : Fin 1) j n) : EReal))
      + (∑ j : Fin 96, (w1 (ix3 (0 : Fin 1) c j) : EReal) * (a1 (ix3 (0 : Fin 1) j n) : EReal)))
      + (∑ j : Fin 96, (w2 (ix3 (0 : Fin 1) c j) : EReal) * (a2 (ix3 (0 : Fin 1) j n) : EReal)))
    + (b (ix2 c (0 : Fin 1)) : EReal)

/-- A weight slab `[1, 128, 96]` recast to `[128, 96]`, at an entry. -/
theorem castW_apply (w : Vec Ideal S1x128x96 .bf16) (c : Fin 128) (j : Fin 96) :
    shapeCast S128x96 w shapeCasts_S1x128x96_S128x96 (ix2 c j) = w (ix3 (0 : Fin 1) c j) :=
  shapeCast_apply w shapeCasts_S1x128x96_S128x96 (ix2 c j) (ix3 (0 : Fin 1) c j) (by
    rw [Shape.rowMajor_val_three, Shape.rowMajor_val_two]
    show (0 * 128 + c.val) * 96 + j.val = c.val * 96 + j.val
    omega)

/-- An input window `[1, 96, 256]` recast to `[96, 256]`, at an entry. -/
theorem castA_apply (a : Vec Ideal S1x96x256 .bf16) (j : Fin 96) (n : Fin 256) :
    shapeCast S96x256 a shapeCasts_S1x96x256_S96x256 (ix2 j n) = a (ix3 (0 : Fin 1) j n) :=
  shapeCast_apply a shapeCasts_S1x96x256_S96x256 (ix2 j n) (ix3 (0 : Fin 1) j n) (by
    rw [Shape.rowMajor_val_three, Shape.rowMajor_val_two]
    show (0 * 96 + j.val) * 256 + n.val = j.val * 256 + n.val
    omega)

/-- The bias column broadcast along the images, at an entry. -/
theorem bias_apply (b : Vec Ideal S128x1 .f32) (c : Fin 128) (n : Fin 256) :
    broadcastTo S128x256 (shapeCast S128x1 b shapeCasts_S128x1_S128x1) broadcasts_S128x1_S128x256 (ix2 c n) = b (ix2 c (0 : Fin 1)) := by
  rw [shapeCast_self]
  exact broadcastTo_apply b broadcasts_S128x1_S128x256 (ix2 c n) (ix2 c (0 : Fin 1))
    (fun a => by match a with | ⟨0, _⟩ => rfl | ⟨1, _⟩ => rfl)

/-- One slab's product at an entry, over the un-recast operands. -/
theorem mmW_apply (w : Vec Ideal S1x128x96 .bf16) (a : Vec Ideal S1x96x256 .bf16) (c : Fin 128) (n : Fin 256) :
    matmul (φ₁ := .bf16) (φ₂ := .bf16) dot_S128x96_S96x256_S128x256_1_0_0_1_n_n none (shapeCast S128x96 w shapeCasts_S1x128x96_S128x96)
        (shapeCast S96x256 a shapeCasts_S1x96x256_S96x256) (constant (F := Ideal) S128x256 .f32 0x00000000#32) (ix2 c n)
      = ∑ j : Fin 96, (w (ix3 (0 : Fin 1) c j) : EReal) * (a (ix3 (0 : Fin 1) j n) : EReal) := by
  refine (mm_apply _ _ c n).trans (Finset.sum_congr rfl fun j _ => ?_)
  exact congrArg₂ (· * ·) (castW_apply w c j) (castA_apply a j n)

/-- The accumulator as the body computes it. -/
def accV (w0 w1 w2 : Vec Ideal S1x128x96 .bf16) (b : Vec Ideal S128x1 .f32) (a0 a1 a2 : Vec Ideal S1x96x256 .bf16) : FVec Ideal S128x256 .f32 :=
  addf (addf (addf
      (matmul (φ₁ := .bf16) (φ₂ := .bf16) dot_S128x96_S96x256_S128x256_1_0_0_1_n_n none (shapeCast S128x96 w0 shapeCasts_S1x128x96_S128x96) (shapeCast S96x256 a0 shapeCasts_S1x96x256_S96x256) (constant (F := Ideal) S128x256 .f32 0x00000000#32))
      (matmul (φ₁ := .bf16) (φ₂ := .bf16) dot_S128x96_S96x256_S128x256_1_0_0_1_n_n none (shapeCast S128x96 w1 shapeCasts_S1x128x96_S128x96) (shapeCast S96x256 a1 shapeCasts_S1x96x256_S96x256) (constant (F := Ideal) S128x256 .f32 0x00000000#32)))
      (matmul (φ₁ := .bf16) (φ₂ := .bf16) dot_S128x96_S96x256_S128x256_1_0_0_1_n_n none (shapeCast S128x96 w2 shapeCasts_S1x128x96_S128x96) (shapeCast S96x256 a2 shapeCasts_S1x96x256_S96x256) (constant (F := Ideal) S128x256 .f32 0x00000000#32)))
      (broadcastTo S128x256 (shapeCast S128x1 b shapeCasts_S128x1_S128x1) broadcasts_S128x1_S128x256)

/-- Its entry `(c, n)`. -/
theorem accV_apply (w0 w1 w2 : Vec Ideal S1x128x96 .bf16) (b : Vec Ideal S128x1 .f32) (a0 a1 a2 : Vec Ideal S1x96x256 .bf16)
    (c : Fin 128) (n : Fin 256) : accV w0 w1 w2 b a0 a1 a2 (ix2 c n) = accE w0 w1 w2 b a0 a1 a2 c n := by
  unfold accV accE
  rw [addf_apply, addf_apply, addf_apply, mmW_apply, mmW_apply, mmW_apply, bias_apply]

/-- The linear half of the accumulator: rows `[0, 64)`. -/
theorem sliceLin_apply (x : FVec Ideal S128x256 .f32) (co : Fin 64) (n : Fin 256) :
    extractStridedSlice S64x256 ![0, 0] x slices_S128x256_o0_0_S64x256 (ix2 co n) = x (ix2 (⟨co.val, by omega⟩ : Fin 128) n) :=
  extractStridedSlice_apply ![0, 0] x slices_S128x256_o0_0_S64x256 (ix2 co n) (ix2 (⟨co.val, by omega⟩ : Fin 128) n)
    (fun a => by match a with | ⟨0, _⟩ => (show co.val = 0 + co.val; omega) | ⟨1, _⟩ => (show n.val = 0 + n.val; omega))

/-- The gate half: rows `[64, 128)`. -/
theorem sliceGate_apply (x : FVec Ideal S128x256 .f32) (co : Fin 64) (n : Fin 256) :
    extractStridedSlice S64x256 ![64, 0] x slices_S128x256_o64_0_S64x256 (ix2 co n) = x (ix2 (⟨64 + co.val, by omega⟩ : Fin 128) n) :=
  extractStridedSlice_apply ![64, 0] x slices_S128x256_o64_0_S64x256 (ix2 co n) (ix2 (⟨64 + co.val, by omega⟩ : Fin 128) n)
    (fun a => by match a with | ⟨0, _⟩ => rfl | ⟨1, _⟩ => (show n.val = 0 + n.val; omega))

/-- THE STORED VALUE at `[0, 0, co, n]`: the gate of accumulator rows `co` (linear branch) and `64 + co` (gate branch). -/
theorem posVal_apply (w0 w1 w2 : Vec Ideal S1x128x96 .bf16) (b : Vec Ideal S128x1 .f32) (a0 a1 a2 : Vec Ideal S1x96x256 .bf16)
    (co : Fin 64) (n : Fin 256) :
    posVal (F := Ideal) w0 w1 w2 b a0 a1 a2 (ix4 (0 : Fin 1) (0 : Fin 1) co n)
      = Cert.Spec.glu (accE w0 w1 w2 b a0 a1 a2 ⟨co.val, by omega⟩ n) (accE w0 w1 w2 b a0 a1 a2 ⟨64 + co.val, by omega⟩ n) := by
  have hl : extractStridedSlice S64x256 ![0, 0] (accV w0 w1 w2 b a0 a1 a2) slices_S128x256_o0_0_S64x256 (ix2 co n)
      = accE w0 w1 w2 b a0 a1 a2 ⟨co.val, by omega⟩ n :=
    (sliceLin_apply (accV w0 w1 w2 b a0 a1 a2) co n).trans (accV_apply w0 w1 w2 b a0 a1 a2 ⟨co.val, by omega⟩ n)
  have hg : extractStridedSlice S64x256 ![64, 0] (accV w0 w1 w2 b a0 a1 a2) slices_S128x256_o64_0_S64x256 (ix2 co n)
      = accE w0 w1 w2 b a0 a1 a2 ⟨64 + co.val, by omega⟩ n :=
    (sliceGate_apply (accV w0 w1 w2 b a0 a1 a2) co n).trans (accV_apply w0 w1 w2 b a0 a1 a2 ⟨64 + co.val, by omega⟩ n)
  unfold posVal
  refine (shapeCast_apply _ shapeCasts_S64x256_S1x1x64x256 (ix4 (0 : Fin 1) (0 : Fin 1) co n) (ix2 co n) (by
    rw [Shape.rowMajor_val_two, Shape.rowMajor_val_four]
    show co.val * 256 + n.val = ((0 * 1 + 0) * 64 + co.val) * 256 + n.val
    omega)).trans ?_
  unfold Cert.Spec.glu
  rw [← hl, ← hg]
  rfl

/-! ## The output buffer after the body, at an entry -/

/-- The accumulator at output column `ow`, over the five input buffers: slab `kh` of the weights against rows
    `[64·ow, 64·ow + 96)` of input row `kh`, and the bias column. -/
def accB (x0 x1 x2 : Vec Ideal S1x1024x256 .bf16) (x3 : Vec Ideal S3x128x96 .bf16) (x4 : Vec Ideal S128x1 .f32)
    (ow : Fin 15) (c : Fin 128) (n : Fin 256) : EReal :=
  (((∑ j : Fin 96, (x3 (ix3 (0 : Fin 3) c j) : EReal) * (x0 (ix3 (0 : Fin 1) (⟨64 * ow.val + j.val, by omega⟩ : Fin 1024) n) : EReal))
      + (∑ j : Fin 96, (x3 (ix3 (1 : Fin 3) c j) : EReal) * (x1 (ix3 (0 : Fin 1) (⟨64 * ow.val + j.val, by omega⟩ : Fin 1024) n) : EReal)))
      + (∑ j : Fin 96, (x3 (ix3 (2 : Fin 3) c j) : EReal) * (x2 (ix3 (0 : Fin 1) (⟨64 * ow.val + j.val, by omega⟩ : Fin 1024) n) : EReal)))
    + (x4 (ix2 c (0 : Fin 1)) : EReal)

/-- The value the body leaves at `[0, ow, co, n]` of the output buffer. -/
def outE (x0 x1 x2 : Vec Ideal S1x1024x256 .bf16) (x3 : Vec Ideal S3x128x96 .bf16) (x4 : Vec Ideal S128x1 .f32)
    (ow : Fin 15) (co : Fin 64) (n : Fin 256) : EReal :=
  Cert.Spec.glu (accB x0 x1 x2 x3 x4 ow ⟨co.val, by omega⟩ n) (accB x0 x1 x2 x3 x4 ow ⟨64 + co.val, by omega⟩ n)

/-- The same as one function of the buffer's index. -/
def outG (x0 x1 x2 : Vec Ideal S1x1024x256 .bf16) (x3 : Vec Ideal S3x128x96 .bf16) (x4 : Vec Ideal S128x1 .f32) :
    S1x15x64x256.Idx → EReal := fun y => outE x0 x1 x2 x3 x4 (y 1) (y 2) (y 3)

/-- The loaded operands' accumulator is the buffers' at that column. -/
theorem accE_ld (x0 x1 x2 : Vec Ideal S1x1024x256 .bf16) (x3 : Vec Ideal S3x128x96 .bf16) (x4 : Vec Ideal S128x1 .f32)
    (ow : Fin 15) (off : Nat) (hoff : off = 64 * ow.val)
    (inbI : ∀ a, (![0, off, 0] : Fin 3 → Nat) a + S1x96x256.size a ≤ S1x1024x256.size a) (c : Fin 128) (n : Fin 256) :
    accE (View.ld x3 rW0) (View.ld x3 rW1) (View.ld x3 rW2) (View.ld x4 rB)
        (View.ld x0 (Rect.unit (s := S1x1024x256) ![0, off, 0] S1x96x256.size inbI))
        (View.ld x1 (Rect.unit (s := S1x1024x256) ![0, off, 0] S1x96x256.size inbI))
        (View.ld x2 (Rect.unit (s := S1x1024x256) ![0, off, 0] S1x96x256.size inbI)) c n
      = accB x0 x1 x2 x3 x4 ow c n := by
  subst hoff
  have hW0 : ∀ j : Fin 96, View.ld x3 rW0 (ix3 (0 : Fin 1) c j) = x3 (ix3 (0 : Fin 3) c j) := fun j =>
    ld_unit_eq x3 _ _ _ _ _ (fun a => by match a with | ⟨0, _⟩ => rfl | ⟨1, _⟩ => (show c.val = 0 + c.val; omega) | ⟨2, _⟩ => (show j.val = 0 + j.val; omega))
  have hW1 : ∀ j : Fin 96, View.ld x3 rW1 (ix3 (0 : Fin 1) c j) = x3 (ix3 (1 : Fin 3) c j) := fun j =>
    ld_unit_eq x3 _ _ _ _ _ (fun a => by match a with | ⟨0, _⟩ => rfl | ⟨1, _⟩ => (show c.val = 0 + c.val; omega) | ⟨2, _⟩ => (show j.val = 0 + j.val; omega))
  have hW2 : ∀ j : Fin 96, View.ld x3 rW2 (ix3 (0 : Fin 1) c j) = x3 (ix3 (2 : Fin 3) c j) := fun j =>
    ld_unit_eq x3 _ _ _ _ _ (fun a => by match a with | ⟨0, _⟩ => rfl | ⟨1, _⟩ => (show c.val = 0 + c.val; omega) | ⟨2, _⟩ => (show j.val = 0 + j.val; omega))
  have hB : View.ld x4 rB (ix2 c (0 : Fin 1)) = x4 (ix2 c (0 : Fin 1)) :=
    ld_unit_eq x4 _ _ _ _ _ (fun a => by match a with | ⟨0, _⟩ => (show c.val = 0 + c.val; omega) | ⟨1, _⟩ => rfl)
  have hI : ∀ (x : Vec Ideal S1x1024x256 .bf16) (j : Fin 96),
      View.ld x (Rect.unit (s := S1x1024x256) ![0, 64 * ow.val, 0] S1x96x256.size inbI) (ix3 (0 : Fin 1) j n)
        = x (ix3 (0 : Fin 1) (⟨64 * ow.val + j.val, by omega⟩ : Fin 1024) n) := fun x j =>
    ld_unit_eq x _ _ _ _ _ (fun a => by match a with | ⟨0, _⟩ => rfl | ⟨1, _⟩ => rfl | ⟨2, _⟩ => (show n.val = 0 + n.val; omega))
  unfold accE accB
  refine congrArg₂ (· + ·) (congrArg₂ (· + ·) (congrArg₂ (· + ·) ?_ ?_) ?_) hB
  · exact Finset.sum_congr rfl fun j _ => congrArg₂ (· * ·) (hW0 j) (hI x0 j)
  · exact Finset.sum_congr rfl fun j _ => congrArg₂ (· * ·) (hW1 j) (hI x1 j)
  · exact Finset.sum_congr rfl fun j _ => congrArg₂ (· * ·) (hW2 j) (hI x2 j)

/-- Piece `k` of the body's stores agrees with `outG` on its slot. -/
theorem piece_eq (x0 x1 x2 : Vec Ideal S1x1024x256 .bf16) (x3 : Vec Ideal S3x128x96 .bf16) (x4 : Vec Ideal S128x1 .f32)
    (k : Nat) (hk : k < 15) (off : Nat) (hoff : off = 64 * k)
    (inbI : ∀ a, (![0, off, 0] : Fin 3 → Nat) a + S1x96x256.size a ≤ S1x1024x256.size a)
    (inbO : ∀ a, (![0, k, 0, 0] : Fin 4 → Nat) a + S1x1x64x256.size a ≤ S1x15x64x256.size a)
    (x : S1x1x64x256.Idx) :
    posVal (F := Ideal) (View.ld x3 rW0) (View.ld x3 rW1) (View.ld x3 rW2) (View.ld x4 rB)
        (View.ld x0 (Rect.unit (s := S1x1024x256) ![0, off, 0] S1x96x256.size inbI))
        (View.ld x1 (Rect.unit (s := S1x1024x256) ![0, off, 0] S1x96x256.size inbI))
        (View.ld x2 (Rect.unit (s := S1x1024x256) ![0, off, 0] S1x96x256.size inbI)) x
      = outG x0 x1 x2 x3 x4 ((Rect.unit (s := S1x15x64x256) ![0, k, 0, 0] S1x1x64x256.size inbO).emb x) := by
  obtain ⟨u, v, co, n, rfl⟩ : ∃ (u v : Fin 1) (co : Fin 64) (n : Fin 256), x = ix4 u v co n := ⟨x 0, x 1, x 2, x 3, eq_ix4 x⟩
  obtain rfl : u = 0 := Subsingleton.elim _ _
  obtain rfl : v = 0 := Subsingleton.elim _ _
  rw [posVal_apply, accE_ld x0 x1 x2 x3 x4 ⟨k, hk⟩ off hoff inbI, accE_ld x0 x1 x2 x3 x4 ⟨k, hk⟩ off hoff inbI]
  have e1 : ((Rect.unit (s := S1x15x64x256) ![0, k, 0, 0] S1x1x64x256.size inbO).emb (ix4 (0 : Fin 1) (0 : Fin 1) co n)) 1 = (⟨k, hk⟩ : Fin 15) :=
    Fin.ext (by show k + 1 * 0 = k; omega)
  have e2 : ((Rect.unit (s := S1x15x64x256) ![0, k, 0, 0] S1x1x64x256.size inbO).emb (ix4 (0 : Fin 1) (0 : Fin 1) co n)) 2 = co :=
    Fin.ext (by show 0 + 1 * co.val = co.val; omega)
  have e3 : ((Rect.unit (s := S1x15x64x256) ![0, k, 0, 0] S1x1x64x256.size inbO).emb (ix4 (0 : Fin 1) (0 : Fin 1) co n)) 3 = n :=
    Fin.ext (by show 0 + 1 * n.val = n.val; omega)
  unfold outG
  rw [e1, e2, e3]
  rfl

/-- THE OUTPUT BUFFER after the body, at `[0, ow, co, n]`. -/
theorem outBuf_apply (x0 x1 x2 : Vec Ideal S1x1024x256 .bf16) (x3 : Vec Ideal S3x128x96 .bf16) (x4 : Vec Ideal S128x1 .f32)
    (y : S1x15x64x256.Idx) : outBuf (F := Ideal) x0 x1 x2 x3 x4 y = outG x0 x1 x2 x3 x4 y := by
  unfold outBuf
  refine View.canon_apply_of_pieces (Val := Elt Ideal) (e := .bf16) (outG x0 x1 x2 x3 x4) _ ?_ y (cover_out _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl
  · exact piece_eq x0 x1 x2 x3 x4 14 (by omega) 896 rfl inb_S1x1024x256_S1x96x256_0_896_0 inb_S1x15x64x256_S1x1x64x256_0_14_0_0 x
  · exact piece_eq x0 x1 x2 x3 x4 13 (by omega) 832 rfl inb_S1x1024x256_S1x96x256_0_832_0 inb_S1x15x64x256_S1x1x64x256_0_13_0_0 x
  · exact piece_eq x0 x1 x2 x3 x4 12 (by omega) 768 rfl inb_S1x1024x256_S1x96x256_0_768_0 inb_S1x15x64x256_S1x1x64x256_0_12_0_0 x
  · exact piece_eq x0 x1 x2 x3 x4 11 (by omega) 704 rfl inb_S1x1024x256_S1x96x256_0_704_0 inb_S1x15x64x256_S1x1x64x256_0_11_0_0 x
  · exact piece_eq x0 x1 x2 x3 x4 10 (by omega) 640 rfl inb_S1x1024x256_S1x96x256_0_640_0 inb_S1x15x64x256_S1x1x64x256_0_10_0_0 x
  · exact piece_eq x0 x1 x2 x3 x4 9 (by omega) 576 rfl inb_S1x1024x256_S1x96x256_0_576_0 inb_S1x15x64x256_S1x1x64x256_0_9_0_0 x
  · exact piece_eq x0 x1 x2 x3 x4 8 (by omega) 512 rfl inb_S1x1024x256_S1x96x256_0_512_0 inb_S1x15x64x256_S1x1x64x256_0_8_0_0 x
  · exact piece_eq x0 x1 x2 x3 x4 7 (by omega) 448 rfl inb_S1x1024x256_S1x96x256_0_448_0 inb_S1x15x64x256_S1x1x64x256_0_7_0_0 x
  · exact piece_eq x0 x1 x2 x3 x4 6 (by omega) 384 rfl inb_S1x1024x256_S1x96x256_0_384_0 inb_S1x15x64x256_S1x1x64x256_0_6_0_0 x
  · exact piece_eq x0 x1 x2 x3 x4 5 (by omega) 320 rfl inb_S1x1024x256_S1x96x256_0_320_0 inb_S1x15x64x256_S1x1x64x256_0_5_0_0 x
  · exact piece_eq x0 x1 x2 x3 x4 4 (by omega) 256 rfl inb_S1x1024x256_S1x96x256_0_256_0 inb_S1x15x64x256_S1x1x64x256_0_4_0_0 x
  · exact piece_eq x0 x1 x2 x3 x4 3 (by omega) 192 rfl inb_S1x1024x256_S1x96x256_0_192_0 inb_S1x15x64x256_S1x1x64x256_0_3_0_0 x
  · exact piece_eq x0 x1 x2 x3 x4 2 (by omega) 128 rfl inb_S1x1024x256_S1x96x256_0_128_0 inb_S1x15x64x256_S1x1x64x256_0_2_0_0 x
  · exact piece_eq x0 x1 x2 x3 x4 1 (by omega) 64 rfl inb_S1x1024x256_S1x96x256_0_64_0 inb_S1x15x64x256_S1x1x64x256_0_1_0_0 x
  · exact piece_eq x0 x1 x2 x3 x4 0 (by omega) 0 rfl inb_S1x1024x256_S1x96x256_0_0_0 inb_S1x15x64x256_S1x1x64x256_0_0_0_0 x

/-! ## The accumulator is the specification's convolution -/

/-- A sum over the 96 window rows `j = 32·kw + ci` is the double sum over kernel column and input channel. -/
theorem sum96 (f : Fin 96 → EReal) :
    ∑ j : Fin 96, f j = ∑ kw : Fin 3, ∑ ci : Fin 32, f (⟨32 * kw.val + ci.val, by omega⟩ : Fin 96) := by
  rw [← Fintype.sum_prod_type (f := fun p : Fin 3 × Fin 32 => f (⟨32 * p.1.val + p.2.val, by omega⟩ : Fin 96))]
  refine (Equiv.sum_comp (finProdFinEquiv (m := 3) (n := 32)) f).symm.trans (Finset.sum_congr rfl fun p _ => ?_)
  refine congrArg f (Fin.ext ?_)
  show p.2.val + 32 * p.1.val = 32 * p.1.val + p.2.val
  omega

/-- With the buffers reading the re-laid activations at rows `2·oh + kh`, the re-laid weights at channel `c` and the
    bias at `c`, the accumulator at column `ow` is the convolution branch at `(n, co, oh, ow)`. -/
theorem accB_conv (x0 x1 x2 : Vec Ideal S1x1024x256 .bf16) (x3 : Vec Ideal S3x128x96 .bf16) (x4 : Vec Ideal S128x1 .f32)
    (X : Cert.Spec.SX.Idx → EReal) (W : Cert.Spec.SW.Idx → EReal) (B : Cert.Spec.SB.Idx → EReal)
    (oh ow : Fin 15) (c : Fin 128) (co : Fin 64) (n : Fin 256)
    (h0 : ∀ w ci : Fin 32, (x0 (ix3 (0 : Fin 1) (⟨32 * w.val + ci.val, by omega⟩ : Fin 1024) n) : EReal) = X (ix4 n ci (Cert.Spec.tap oh 0) w))
    (h1 : ∀ w ci : Fin 32, (x1 (ix3 (0 : Fin 1) (⟨32 * w.val + ci.val, by omega⟩ : Fin 1024) n) : EReal) = X (ix4 n ci (Cert.Spec.tap oh 1) w))
    (h2 : ∀ w ci : Fin 32, (x2 (ix3 (0 : Fin 1) (⟨32 * w.val + ci.val, by omega⟩ : Fin 1024) n) : EReal) = X (ix4 n ci (Cert.Spec.tap oh 2) w))
    (h3 : ∀ (kh kw : Fin 3) (ci : Fin 32), (x3 (ix3 kh c (⟨32 * kw.val + ci.val, by omega⟩ : Fin 96)) : EReal) = W (ix4 co ci kh kw))
    (h4 : (x4 (ix2 c (0 : Fin 1)) : EReal) = B (ix1 co)) :
    accB x0 x1 x2 x3 x4 ow c n = Cert.Spec.conv X W B n co oh ow := by
  have hrow : ∀ (kw : Fin 3) (ci : Fin 32),
      (⟨64 * ow.val + (32 * kw.val + ci.val), by omega⟩ : Fin 1024) = ⟨32 * (Cert.Spec.tap ow kw).val + ci.val, by have := (Cert.Spec.tap ow kw).isLt; omega⟩ :=
    fun kw ci => Fin.ext (by show 64 * ow.val + (32 * kw.val + ci.val) = 32 * (2 * ow.val + kw.val) + ci.val; omega)
  unfold accB Cert.Spec.conv
  rw [Fin.sum_univ_three (fun kh : Fin 3 => ∑ kw : Fin 3, ∑ ci : Fin 32, W (ix4 co ci kh kw) * X (ix4 n ci (Cert.Spec.tap oh kh) (Cert.Spec.tap ow kw))), h4]
  refine congrArg₂ (· + ·) (congrArg₂ (· + ·) (congrArg₂ (· + ·) ?_ ?_) ?_) rfl
  · refine (sum96 _).trans (Finset.sum_congr rfl fun kw _ => Finset.sum_congr rfl fun ci _ => ?_)
    exact congrArg₂ (· * ·) (h3 0 kw ci) ((congrArg (fun r : Fin 1024 => (x0 (ix3 (0 : Fin 1) r n) : EReal)) (hrow kw ci)).trans (h0 (Cert.Spec.tap ow kw) ci))
  · refine (sum96 _).trans (Finset.sum_congr rfl fun kw _ => Finset.sum_congr rfl fun ci _ => ?_)
    exact congrArg₂ (· * ·) (h3 1 kw ci) ((congrArg (fun r : Fin 1024 => (x1 (ix3 (0 : Fin 1) r n) : EReal)) (hrow kw ci)).trans (h1 (Cert.Spec.tap ow kw) ci))
  · refine (sum96 _).trans (Finset.sum_congr rfl fun kw _ => Finset.sum_congr rfl fun ci _ => ?_)
    exact congrArg₂ (· * ·) (h3 2 kw ci) ((congrArg (fun r : Fin 1024 => (x2 (ix3 (0 : Fin 1) r n) : EReal)) (hrow kw ci)).trans (h2 (Cert.Spec.tap ow kw) ci))

/-! ## The windows' blocks at a grid point -/

theorem t_lt (t : Fin cfg0.N) : t.val < 15 := by
  have h := t.isLt
  have e : cfg0.N = 15 := N_0
  omega

/-- The printed index maps, decided over the grid: input-row window `kh` is at row block `2t + kh`, the weights and the
    bias at block 0, the output at row block `t`. -/
theorem idx_facts0 : ∀ t : Fin cfg0.N, win0_0.index t (0 : Fin 3) = 2 * t.val ∧ win0_0.index t (1 : Fin 3) = 0 ∧ win0_0.index t (2 : Fin 3) = 0 :=
  (by decide +kernel : ∀ t : Fin grid0.N, _)
theorem idx_facts1 : ∀ t : Fin cfg0.N, win0_1.index t (0 : Fin 3) = 2 * t.val + 1 ∧ win0_1.index t (1 : Fin 3) = 0 ∧ win0_1.index t (2 : Fin 3) = 0 :=
  (by decide +kernel : ∀ t : Fin grid0.N, _)
theorem idx_facts2 : ∀ t : Fin cfg0.N, win0_2.index t (0 : Fin 3) = 2 * t.val + 2 ∧ win0_2.index t (1 : Fin 3) = 0 ∧ win0_2.index t (2 : Fin 3) = 0 :=
  (by decide +kernel : ∀ t : Fin grid0.N, _)
theorem idx_facts3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx_facts4 : ∀ t : Fin cfg0.N, win0_4.index t (0 : Fin 2) = 0 ∧ win0_4.index t (1 : Fin 2) = 0 :=
  (by decide +kernel : ∀ t : Fin grid0.N, _)
theorem idx_facts5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

theorem iblk0_apply (c : Dev nD) (t : Fin cfg0.N) (r : Fin 1024) (n : Fin 256) (k : S32x1024x256.Idx)
    (hk0 : (k 0).val = 2 * t.val) (hk1 : (k 1).val = r.val) (hk2 : (k 2).val = n.val) :
    (iblk m c 0 t : Vec Ideal S1x1024x256 .bf16) (ix3 (0 : Fin 1) r n) = (V m c main_call0_v3 : S32x1024x256.Idx → EReal) k := by
  obtain ⟨e0, e1, e2⟩ := idx_facts0 t
  unfold iblk
  rw [View.read_apply]
  show V m c main_call0_v3 _ = V m c main_call0_v3 _
  congr 1
  funext a
  apply Fin.ext
  match a with
  | ⟨0, _⟩ => show win0_0.index t (0 : Fin 3) * 1 + 1 * 0 = (k 0).val; rw [e0, hk0]; omega
  | ⟨1, _⟩ => show win0_0.index t (1 : Fin 3) * 1024 + 1 * r.val = (k 1).val; rw [e1, hk1]; omega
  | ⟨2, _⟩ => show win0_0.index t (2 : Fin 3) * 256 + 1 * n.val = (k 2).val; rw [e2, hk2]; omega

theorem iblk1_apply (c : Dev nD) (t : Fin cfg0.N) (r : Fin 1024) (n : Fin 256) (k : S32x1024x256.Idx)
    (hk0 : (k 0).val = 2 * t.val + 1) (hk1 : (k 1).val = r.val) (hk2 : (k 2).val = n.val) :
    (iblk m c 1 t : Vec Ideal S1x1024x256 .bf16) (ix3 (0 : Fin 1) r n) = (V m c main_call0_v3 : S32x1024x256.Idx → EReal) k := by
  obtain ⟨e0, e1, e2⟩ := idx_facts1 t
  unfold iblk
  rw [View.read_apply]
  show V m c main_call0_v3 _ = V m c main_call0_v3 _
  congr 1
  funext a
  apply Fin.ext
  match a with
  | ⟨0, _⟩ => show win0_1.index t (0 : Fin 3) * 1 + 1 * 0 = (k 0).val; rw [e0, hk0]; omega
  | ⟨1, _⟩ => show win0_1.index t (1 : Fin 3) * 1024 + 1 * r.val = (k 1).val; rw [e1, hk1]; omega
  | ⟨2, _⟩ => show win0_1.index t (2 : Fin 3) * 256 + 1 * n.val = (k 2).val; rw [e2, hk2]; omega

theorem iblk2_apply (c : Dev nD) (t : Fin cfg0.N) (r : Fin 1024) (n : Fin 256) (k : S32x1024x256.Idx)
    (hk0 : (k 0).val = 2 * t.val + 2) (hk1 : (k 1).val = r.val) (hk2 : (k 2).val = n.val) :
    (iblk m c 2 t : Vec Ideal S1x1024x256 .bf16) (ix3 (0 : Fin 1) r n) = (V m c main_call0_v3 : S32x1024x256.Idx → EReal) k := by
  obtain ⟨e0, e1, e2⟩ := idx_facts2 t
  unfold iblk
  rw [View.read_apply]
  show V m c main_call0_v3 _ = V m c main_call0_v3 _
  congr 1
  funext a
  apply Fin.ext
  match a with
  | ⟨0, _⟩ => show win0_2.index t (0 : Fin 3) * 1 + 1 * 0 = (k 0).val; rw [e0, hk0]; omega
  | ⟨1, _⟩ => show win0_2.index t (1 : Fin 3) * 1024 + 1 * r.val = (k 1).val; rw [e1, hk1]; omega
  | ⟨2, _⟩ => show win0_2.index t (2 : Fin 3) * 256 + 1 * n.val = (k 2).val; rw [e2, hk2]; omega

/-- The weight window's block is the whole re-laid weight array. -/
theorem iblk3_apply (c : Dev nD) (t : Fin cfg0.N) (kh : Fin 3) (cc : Fin 128) (j : Fin 96) :
    (iblk m c 3 t : Vec Ideal S3x128x96 .bf16) (ix3 kh cc j) = (V m c main_call0_v7 : S3x128x96.Idx → EReal) (ix3 kh cc j) := by
  obtain ⟨e0, e1, e2⟩ := idx_facts3 t
  unfold iblk
  rw [View.read_apply]
  show V m c main_call0_v7 _ = V m c main_call0_v7 _
  congr 1
  funext a
  apply Fin.ext
  match a with
  | ⟨0, _⟩ => show win0_3.index t (0 : Fin 3) * 3 + 1 * kh.val = kh.val; rw [e0]; omega
  | ⟨1, _⟩ => show win0_3.index t (1 : Fin 3) * 128 + 1 * cc.val = cc.val; rw [e1]; omega
  | ⟨2, _⟩ => show win0_3.index t (2 : Fin 3) * 96 + 1 * j.val = j.val; rw [e2]; omega

/-- The bias window's block is the whole bias column. -/
theorem iblk4_apply (c : Dev nD) (t : Fin cfg0.N) (cc : Fin 128) :
    (iblk m c 4 t : Vec Ideal S128x1 .f32) (ix2 cc (0 : Fin 1)) = (V m c main_call0_v9 : S128x1.Idx → EReal) (ix2 cc (0 : Fin 1)) := by
  obtain ⟨e0, e1⟩ := idx_facts4 t
  unfold iblk
  rw [View.read_apply]
  show V m c main_call0_v9 _ = V m c main_call0_v9 _
  congr 1
  funext a
  apply Fin.ext
  match a with
  | ⟨0, _⟩ => show win0_4.index t (0 : Fin 2) * 128 + 1 * cc.val = cc.val; rw [e0]; omega
  | ⟨1, _⟩ => show win0_4.index t (1 : Fin 2) * 1 + 1 * 0 = 0; rw [e1]

/-! ## From the blocks to the array, and the result -/

/-- The kernel's array `[oh, ow, co, n]`: the specification read at `[n, co, oh, ow]`. -/
def KA (c : Dev nD) : S15x15x64x256.Idx → EReal := fun i =>
  Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (ix4 (i 3) (i 2) (i 0) (i 1))

/-- The five input blocks at point `t`, at their literal types. -/
abbrev blk0 (c : Dev nD) (t : Fin cfg0.N) : Vec Ideal S1x1024x256 .bf16 := iblk m c 0 t
abbrev blk1 (c : Dev nD) (t : Fin cfg0.N) : Vec Ideal S1x1024x256 .bf16 := iblk m c 1 t
abbrev blk2 (c : Dev nD) (t : Fin cfg0.N) : Vec Ideal S1x1024x256 .bf16 := iblk m c 2 t
abbrev blk3 (c : Dev nD) (t : Fin cfg0.N) : Vec Ideal S3x128x96 .bf16 := iblk m c 3 t
abbrev blk4 (c : Dev nD) (t : Fin cfg0.N) : Vec Ideal S128x1 .f32 := iblk m c 4 t

/-- At point `t` the accumulator's row `co` is the first branch's convolution at output row `t`. -/
theorem acc_lin (c : Dev nD) (t : Fin cfg0.N) (ow : Fin 15) (co : Fin 64) (n : Fin 256) :
    accB (blk0 m c t) (blk1 m c t) (blk2 m c t) (blk3 m c t) (blk4 m c t) ow ⟨co.val, by omega⟩ n
      = Cert.Spec.conv (m ((c.tc : Thread nD τ).loc main_arg0)) (m ((c.tc : Thread nD τ).loc main_arg1)) (m ((c.tc : Thread nD τ).loc main_arg2)) n co ⟨t.val, t_lt t⟩ ow := by
  refine accB_conv (blk0 m c t) (blk1 m c t) (blk2 m c t) (blk3 m c t) (blk4 m c t) _ _ _ ⟨t.val, t_lt t⟩ ow ⟨co.val, by omega⟩ co n ?_ ?_ ?_ ?_ ?_
  · intro w ci
    exact (iblk0_apply m c t _ n (ix3 (Cert.Spec.tap ⟨t.val, t_lt t⟩ 0) _ n) (by show 2 * t.val + 0 = 2 * t.val; omega) rfl rfl).trans
      (xr_apply m c (Cert.Spec.tap ⟨t.val, t_lt t⟩ 0) w ci n)
  · intro w ci
    exact (iblk1_apply m c t _ n (ix3 (Cert.Spec.tap ⟨t.val, t_lt t⟩ 1) _ n) (by show 2 * t.val + 1 = 2 * t.val + 1; rfl) rfl rfl).trans
      (xr_apply m c (Cert.Spec.tap ⟨t.val, t_lt t⟩ 1) w ci n)
  · intro w ci
    exact (iblk2_apply m c t _ n (ix3 (Cert.Spec.tap ⟨t.val, t_lt t⟩ 2) _ n) (by show 2 * t.val + 2 = 2 * t.val + 2; rfl) rfl rfl).trans
      (xr_apply m c (Cert.Spec.tap ⟨t.val, t_lt t⟩ 2) w ci n)
  · intro kh kw ci
    refine (iblk3_apply m c t kh ⟨co.val, by omega⟩ _).trans ((wg_apply m c kh kw ⟨co.val, by omega⟩ ci).trans ?_)
    rw [dif_pos (show co.val < 64 from co.isLt)]

  · refine (iblk4_apply m c t ⟨co.val, by omega⟩).trans ((bcol_apply m c ⟨co.val, by omega⟩).trans ?_)
    rw [dif_pos (show co.val < 64 from co.isLt)]

/-- At point `t` the accumulator's row `64 + co` is the second branch's convolution at output row `t`. -/
theorem acc_gate (c : Dev nD) (t : Fin cfg0.N) (ow : Fin 15) (co : Fin 64) (n : Fin 256) :
    accB (blk0 m c t) (blk1 m c t) (blk2 m c t) (blk3 m c t) (blk4 m c t) ow ⟨64 + co.val, by omega⟩ n
      = Cert.Spec.conv (m ((c.tc : Thread nD τ).loc main_arg0)) (m ((c.tc : Thread nD τ).loc main_arg3)) (m ((c.tc : Thread nD τ).loc main_arg4)) n co ⟨t.val, t_lt t⟩ ow := by
  refine accB_conv (blk0 m c t) (blk1 m c t) (blk2 m c t) (blk3 m c t) (blk4 m c t) _ _ _ ⟨t.val, t_lt t⟩ ow ⟨64 + co.val, by omega⟩ co n ?_ ?_ ?_ ?_ ?_
  · intro w ci
    exact (iblk0_apply m c t _ n (ix3 (Cert.Spec.tap ⟨t.val, t_lt t⟩ 0) _ n) (by show 2 * t.val + 0 = 2 * t.val; omega) rfl rfl).trans
      (xr_apply m c (Cert.Spec.tap ⟨t.val, t_lt t⟩ 0) w ci n)
  · intro w ci
    exact (iblk1_apply m c t _ n (ix3 (Cert.Spec.tap ⟨t.val, t_lt t⟩ 1) _ n) (by show 2 * t.val + 1 = 2 * t.val + 1; rfl) rfl rfl).trans
      (xr_apply m c (Cert.Spec.tap ⟨t.val, t_lt t⟩ 1) w ci n)
  · intro w ci
    exact (iblk2_apply m c t _ n (ix3 (Cert.Spec.tap ⟨t.val, t_lt t⟩ 2) _ n) (by show 2 * t.val + 2 = 2 * t.val + 2; rfl) rfl rfl).trans
      (xr_apply m c (Cert.Spec.tap ⟨t.val, t_lt t⟩ 2) w ci n)
  · intro kh kw ci
    refine (iblk3_apply m c t kh ⟨64 + co.val, by omega⟩ _).trans ((wg_apply m c kh kw ⟨64 + co.val, by omega⟩ ci).trans ?_)
    rw [dif_neg (show ¬ (64 + co.val < 64) by omega)]
    exact congrArg (fun q : Fin 64 => ((m ((c.tc : Thread nD τ).loc main_arg3)) : S64x32x3x3.Idx → EReal) (ix4 q ci kh kw)) (Fin.ext (by show 64 + co.val - 64 = co.val; omega))
  · refine (iblk4_apply m c t ⟨64 + co.val, by omega⟩).trans ((bcol_apply m c ⟨64 + co.val, by omega⟩).trans ?_)
    rw [dif_neg (show ¬ (64 + co.val < 64) by omega)]
    exact congrArg (fun q : Fin 64 => ((m ((c.tc : Thread nD τ).loc main_arg4)) : S64.Idx → EReal) (ix1 q)) (Fin.ext (by show 64 + co.val - 64 = co.val; omega))

/-- Point `t`'s output block lies at row `t` of the array. -/
theorem emb5 (t : Fin cfg0.N) (y : S1x15x64x256.Idx) :
    (((cfg0.win 5).blk t).view.emb y : S15x15x64x256.Idx) = ix4 (⟨t.val, t_lt t⟩ : Fin 15) (y 1) (y 2) (y 3) := by
  obtain ⟨e0, e1, e2, e3⟩ := idx_facts5 t
  have h0 : (y 0).val < 1 := (y 0).isLt
  funext a
  apply Fin.ext
  match a with
  | ⟨0, _⟩ => show win0_5.index t (0 : Fin 4) * 1 + 1 * (y 0).val = t.val; rw [e0]; omega
  | ⟨1, _⟩ => show win0_5.index t (1 : Fin 4) * 15 + 1 * (y 1).val = (y 1).val; rw [e1]; omega
  | ⟨2, _⟩ => show win0_5.index t (2 : Fin 4) * 64 + 1 * (y 2).val = (y 2).val; rw [e2]; omega
  | ⟨3, _⟩ => show win0_5.index t (3 : Fin 4) * 256 + 1 * (y 3).val = (y 3).val; rw [e3]; omega

/-- WHAT POINT `t` WRITES BACK is its block of the kernel's array. -/
theorem flushed_eq (c : Dev nD) (t : Fin cfg0.N) :
    (dats m 0 c).flushed 5 t = ((cfg0.win 5).blk t).view.read (Elt Ideal) (KA m c) := by
  show (cfg0.win 5).cut (grid0.coords t) ((dats m 0 c).after 5 t) = _
  rw [after5]
  funext y
  rw [View.read_apply]
  show outBuf (F := Ideal) (blk0 m c t) (blk1 m c t) (blk2 m c t) (blk3 m c t) (blk4 m c t) y = KA m c (((cfg0.win 5).blk t).view.emb y)
  rw [emb5 t y]
  refine (outBuf_apply (blk0 m c t) (blk1 m c t) (blk2 m c t) (blk3 m c t) (blk4 m c t) y).trans ?_
  exact congrArg₂ Cert.Spec.glu (acc_lin m c t (y 1) (y 2) (y 3)) (acc_gate m c t (y 1) (y 2) (y 3))

/-- An index of the array is in point `t`'s block iff each coordinate is in the block's range on its axis. -/
theorem mem_blk (t : Fin cfg0.N) (i : S15x15x64x256.Idx) :
    i ∈ ((cfg0.win 5).blk t).view.set ↔ ∀ a : Fin 4, win0_5.index t a * S1x15x64x256.size a ≤ (i a).val ∧ (i a).val < win0_5.index t a * S1x15x64x256.size a + S1x15x64x256.size a := by
  show i ∈ ((View.whole main_call0_v10).slice (win0_5.rect t)).set ↔ _
  rw [View.set_slice_whole, Rect.mem_set_unit]
  exact Iff.rfl

/-- Every index of the array is in the block of the point its row names. -/
theorem cover (i : S15x15x64x256.Idx) : ∃ t : Fin cfg0.N, (cfg0.win 5).flush t = true ∧ i ∈ ((cfg0.win 5).blk t).view.set := by
  have h0 : (i 0).val < 15 := (i 0).isLt
  have h1 : (i 1).val < 15 := (i 1).isLt
  have h2 : (i 2).val < 64 := (i 2).isLt
  have h3 : (i 3).val < 256 := (i 3).isLt
  obtain ⟨t, ht⟩ : ∃ t : Fin cfg0.N, t.val = (i 0).val := ⟨⟨(i 0).val, by rw [show cfg0.N = 15 from N_0]; exact h0⟩, rfl⟩
  obtain ⟨e0, e1, e2, e3⟩ := idx_facts5 t
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; rw [e0]; omega
  | ⟨1, _⟩ => show win0_5.index t (1 : Fin 4) * 15 ≤ (i 1).val ∧ (i 1).val < win0_5.index t (1 : Fin 4) * 15 + 15; rw [e1]; omega
  | ⟨2, _⟩ => show win0_5.index t (2 : Fin 4) * 64 ≤ (i 2).val ∧ (i 2).val < win0_5.index t (2 : Fin 4) * 64 + 64; rw [e2]; omega
  | ⟨3, _⟩ => show win0_5.index t (3 : Fin 4) * 256 ≤ (i 3).val ∧ (i 3).val < win0_5.index t (3 : Fin 4) * 256 + 256; rw [e3]; omega

/-- THE ARRAY after the run is the kernel's array. -/
theorem final (c : Dev nD) : outArr m c = KA m c :=
  (dats m 0 c).arrAt_eq_of_cover 5 (KA m c) (fun t _ => flushed_eq m c t) cover

/-- The result array is the specification's function of the argument arrays. -/
theorem out_value (c : Dev nD) :
    tailOut (F := Ideal) (outArr m c)
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  funext j
  obtain ⟨n, co, oh, ow, rfl⟩ : ∃ (n : Fin 256) (co : Fin 64) (oh ow : Fin 15), j = ix4 n co oh ow := ⟨j 0, j 1, j 2, j 3, eq_ix4 j⟩
  rw [tailOut_apply, final]
  rfl

/-- The run with the result named: every weakly fair execution terminates with the result array at `Cert.Spec.G` of the
    arguments and the arguments unchanged. -/
theorem run_value : θ_run (defs (F := Ideal)) (onTc (τ := τ) (main (F := Ideal))) ⟨m, fun _ => 0, ρ⟩ (fun r => ∀ c : Dev nD,
      r.2.mem ((c.tc : Thread nD τ).loc main_v0)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨(h c).1.trans (out_value m c), (h c).2⟩) (run_main (F := Ideal) m ρ)

end Cert.KernelIdeal.Hand

end
-- ==== Proof.RefPieces.lean ====
/-
  The reference's kernel body at one grid point (one image): every one of its fifteen stores, whatever the way its
  arithmetic was cut into named payloads, is ONE function `refPos` of the three weight slabs, the three 0/1 selection
  matrices, the bias column and the rows `[64·oh, 64·oh + 96)` of the image's buffer — and that function read at an index
  over the extended reals: with `A = [96, 32]` the rows (`(kh, ci)` by columns `w`),
  `acc[c, ow] = 0 + W₀·(A·S₀) + W₁·(A·S₁) + W₂·(A·S₂) + bias[c]`, the value at `(co, ow)` is the gate of `acc[co, ow]` and
  `acc[64 + co, ow]`, each product a plain sum.
-/
import proofs.«136853_g2000106783720467_pallasbulk_1336_12_alg».proof.Proof.Gen.ReferenceIdeal.Frame
import proofs.«136853_g2000106783720467_pallasbulk_1336_12_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Hand

open Cert.ReferenceIdeal Cert.ReferenceIdeal.Gen
open Idealize.ShloMosaic Idealize.ShloMosaic.TcCoe Idealize.SL.Sem
open Idealize.ShloMosaic.ValueIdx

variable {F : FTy → Type} [FloatOps F]

/-- One output row's value from the three weight slabs `w0 w1 w2`, the three selection matrices `s0 s1 s2`, the bias
    column `b` and the image's rows `a`: `acc = 0 + W₀·(A·S₀) + W₁·(A·S₁) + W₂·(A·S₂) + bias` (each product accumulated from
    zero), `lin` its rows `[0, 64)`, `g` its rows `[64, 128)`, `e = exp(0 − |g|)`, `lin · ((if g ≥ 0 then 1 else e) / (1 + e))`. -/
def refPos (w0 w1 w2 : Vec F S1x128x96 .f32) (s0 s1 s2 : Vec F S1x32x15 .f32) (b : Vec F S128x1 .f32) (a : Vec F S1x96x32 .f32) : Vec F S1x64x15 .f32 :=
  let A : FVec F S96x32 .f32 := shapeCast S96x32 a shapeCasts_S1x96x32_S96x32
  let term (w : Vec F S1x128x96 .f32) (s : Vec F S1x32x15 .f32) : FVec F S128x15 .f32 :=
    matmul dot_S128x96_S96x15_S128x15_1_0_0_1_n_n none (shapeCast S128x96 w shapeCasts_S1x128x96_S128x96)
      (matmul dot_S96x32_S32x15_S96x15_1_0_0_1_n_n none A (shapeCast S32x15 s shapeCasts_S1x32x15_S32x15) (constant S96x15 .f32 0x00000000#32))
      (constant S128x15 .f32 0x00000000#32)
  let acc : FVec F S128x15 .f32 :=
    addf (addf (addf (addf (broadcast S128x15 (Scalar.ofBits .f32 0x00000000#32)) (term w0 s0)) (term w1 s1)) (term w2 s2))
      (broadcastTo S128x15 (shapeCast S128x1 b shapeCasts_S128x1_S128x1) broadcasts_S128x1_S128x15)
  let lin : FVec F S64x15 .f32 := extractStridedSlice S64x15 ![0, 0] acc slices_S128x15_o0_0_S64x15
  let g : FVec F S64x15 .f32 := extractStridedSlice S64x15 ![64, 0] acc slices_S128x15_o64_0_S64x15
  let e : FVec F S64x15 .f32 := exp (subf (broadcast S64x15 (Scalar.ofBits .f32 0x00000000#32)) (absf g))
  let gate : FVec F S64x15 .f32 :=
    divf (select (cmpf .oge g (broadcast S64x15 (Scalar.ofBits .f32 0x00000000#32))) (broadcast S64x15 (Scalar.ofBits .f32 0x3F800000#32)) e)
      (addf (broadcast S64x15 (Scalar.ofBits .f32 0x3F800000#32)) e)
  shapeCast S1x64x15 (mulf lin gate) shapeCasts_S64x15_S1x64x15

/-- The generated account of the output buffer after the body (`Gen.out0_4`: fifteen pieces over differently cut
    payloads) is fifteen times `refPos`: output row `oh` at columns `[15·oh, 15·oh + 15)` from rows `[64·oh, 64·oh + 96)`. -/
theorem out0_4_eq (x0 : Vec F S1x1024x32 .f32) (x1 : Vec F S3x128x96 .f32) (x2 : Vec F S3x32x15 .f32) (x3 : Vec F S128x1 .f32) :
    out0_4 x0 x1 x2 x3 = View.canon [
      ⟨r0_36, refPos (View.ld x1 r0_1) (View.ld x1 r0_2) (View.ld x1 r0_3) (View.ld x2 r0_4) (View.ld x2 r0_5) (View.ld x2 r0_6) (View.ld x3 r0_0) (View.ld x0 r0_35)⟩,
      ⟨r0_34, refPos (View.ld x1 r0_1) (View.ld x1 r0_2) (View.ld x1 r0_3) (View.ld x2 r0_4) (View.ld x2 r0_5) (View.ld x2 r0_6) (View.ld x3 r0_0) (View.ld x0 r0_33)⟩,
      ⟨r0_32, refPos (View.ld x1 r0_1) (View.ld x1 r0_2) (View.ld x1 r0_3) (View.ld x2 r0_4) (View.ld x2 r0_5) (View.ld x2 r0_6) (View.ld x3 r0_0) (View.ld x0 r0_31)⟩,
      ⟨r0_30, refPos (View.ld x1 r0_1) (View.ld x1 r0_2) (View.ld x1 r0_3) (View.ld x2 r0_4) (View.ld x2 r0_5) (View.ld x2 r0_6) (View.ld x3 r0_0) (View.ld x0 r0_29)⟩,
      ⟨r0_28, refPos (View.ld x1 r0_1) (View.ld x1 r0_2) (View.ld x1 r0_3) (View.ld x2 r0_4) (View.ld x2 r0_5) (View.ld x2 r0_6) (View.ld x3 r0_0) (View.ld x0 r0_27)⟩,
      ⟨r0_26, refPos (View.ld x1 r0_1) (View.ld x1 r0_2) (View.ld x1 r0_3) (View.ld x2 r0_4) (View.ld x2 r0_5) (View.ld x2 r0_6) (View.ld x3 r0_0) (View.ld x0 r0_25)⟩,
      ⟨r0_24, refPos (View.ld x1 r0_1) (View.ld x1 r0_2) (View.ld x1 r0_3) (View.ld x2 r0_4) (View.ld x2 r0_5) (View.ld x2 r0_6) (View.ld x3 r0_0) (View.ld x0 r0_23)⟩,
      ⟨r0_22, refPos (View.ld x1 r0_1) (View.ld x1 r0_2) (View.ld x1 r0_3) (View.ld x2 r0_4) (View.ld x2 r0_5) (View.ld x2 r0_6) (View.ld x3 r0_0) (View.ld x0 r0_21)⟩,
      ⟨r0_20, refPos (View.ld x1 r0_1) (View.ld x1 r0_2) (View.ld x1 r0_3) (View.ld x2 r0_4) (View.ld x2 r0_5) (View.ld x2 r0_6) (View.ld x3 r0_0) (View.ld x0 r0_19)⟩,
      ⟨r0_18, refPos (View.ld x1 r0_1) (View.ld x1 r0_2) (View.ld x1 r0_3) (View.ld x2 r0_4) (View.ld x2 r0_5) (View.ld x2 r0_6) (View.ld x3 r0_0) (View.ld x0 r0_17)⟩,
      ⟨r0_16, refPos (View.ld x1 r0_1) (View.ld x1 r0_2) (View.ld x1 r0_3) (View.ld x2 r0_4) (View.ld x2 r0_5) (View.ld x2 r0_6) (View.ld x3 r0_0) (View.ld x0 r0_15)⟩,
      ⟨r0_14, refPos (View.ld x1 r0_1) (View.ld x1 r0_2) (View.ld x1 r0_3) (View.ld x2 r0_4) (View.ld x2 r0_5) (View.ld x2 r0_6) (View.ld x3 r0_0) (View.ld x0 r0_13)⟩,
      ⟨r0_12, refPos (View.ld x1 r0_1) (View.ld x1 r0_2) (View.ld x1 r0_3) (View.ld x2 r0_4) (View.ld x2 r0_5) (View.ld x2 r0_6) (View.ld x3 r0_0) (View.ld x0 r0_11)⟩,
      ⟨r0_10, refPos (View.ld x1 r0_1) (View.ld x1 r0_2) (View.ld x1 r0_3) (View.ld x2 r0_4) (View.ld x2 r0_5) (View.ld x2 r0_6) (View.ld x3 r0_0) (View.ld x0 r0_9)⟩,
      ⟨r0_8, refPos (View.ld x1 r0_1) (View.ld x1 r0_2) (View.ld x1 r0_3) (View.ld x2 r0_4) (View.ld x2 r0_5) (View.ld x2 r0_6) (View.ld x3 r0_0) (View.ld x0 r0_7)⟩] := by
  unfold out0_4
  rfl

/-- The accumulator of `refPos` at row `c` and output column `ow`, over the extended reals: for each kernel column `kw` the
    weights against the selected column, plus the bias. -/
def refAcc (w0 w1 w2 : Vec Ideal S1x128x96 .f32) (s0 s1 s2 : Vec Ideal S1x32x15 .f32) (b : Vec Ideal S128x1 .f32) (a : Vec Ideal S1x96x32 .f32)
    (c : Fin 128) (ow : Fin 15) : EReal :=
  (((Ideal.ofBits .f32 0x00000000#32
      + ∑ r : Fin 96, w0 (ix3 (0 : Fin 1) c r) * ∑ w : Fin 32, a (ix3 (0 : Fin 1) r w) * s0 (ix3 (0 : Fin 1) w ow))
      + ∑ r : Fin 96, w1 (ix3 (0 : Fin 1) c r) * ∑ w : Fin 32, a (ix3 (0 : Fin 1) r w) * s1 (ix3 (0 : Fin 1) w ow))
      + ∑ r : Fin 96, w2 (ix3 (0 : Fin 1) c r) * ∑ w : Fin 32, a (ix3 (0 : Fin 1) r w) * s2 (ix3 (0 : Fin 1) w ow))
    + b (ix2 c (0 : Fin 1))

/-! ## The operations of one output row read at an index -/

/-- A [1, m, n] vector viewed [m, n] reads (0, p, q) at (p, q). -/
theorem dropUnit_apply {α : Type} {m n : Nat} (v : (⟨3, ![1, m, n]⟩ : Shape).Idx → α)
    (h : (⟨3, ![1, m, n]⟩ : Shape).ShapeCasts ⟨2, ![m, n]⟩) (p : Fin m) (q : Fin n) :
    shapeCast ⟨2, ![m, n]⟩ v h (ix2 p q) = v (ix3 (0 : Fin 1) p q) :=
  (shapeCast_dropUnit_apply ![m, n] v h (ix2 p q)).trans
    (congrArg v (funext fun e => match e with | ⟨0, _⟩ => rfl | ⟨1, _⟩ => rfl | ⟨2, _⟩ => rfl))

/-- An [m, n] vector viewed [1, m, n] reads (p, q) at (0, p, q). -/
theorem addUnit_apply {α : Type} {m n : Nat} (v : (⟨2, ![m, n]⟩ : Shape).Idx → α)
    (h : (⟨2, ![m, n]⟩ : Shape).ShapeCasts ⟨3, ![1, m, n]⟩) (p : Fin m) (q : Fin n) :
    shapeCast ⟨3, ![1, m, n]⟩ v h (ix3 (0 : Fin 1) p q) = v (ix2 p q) :=
  (shapeCast_addUnit_apply ![m, n] v h (ix3 (0 : Fin 1) p q)).trans
    (congrArg v (funext fun e => match e with | ⟨0, _⟩ => rfl | ⟨1, _⟩ => rfl))

/-! ### The inner product [96, 32] by [32, 15]: its operand indices, axis by axis -/

theorem lhs_inner_0 (j : S96x15.Idx) (k : dot_S96x32_S32x15_S96x15_1_0_0_1_n_n.contr.Idx) :
    (dot_S96x32_S32x15_S96x15_1_0_0_1_n_n.lhsIdx j k 0).val = (j 0).val := rfl
theorem lhs_inner_1 (j : S96x15.Idx) (k : dot_S96x32_S32x15_S96x15_1_0_0_1_n_n.contr.Idx) :
    (dot_S96x32_S32x15_S96x15_1_0_0_1_n_n.lhsIdx j k 1).val = (k ⟨0, by decide⟩).val :=
  dot_S96x32_S32x15_S96x15_1_0_0_1_n_n.lhsIdx_val_of_single (cl := 1) rfl j k
theorem rhs_inner_0 (j : S96x15.Idx) (k : dot_S96x32_S32x15_S96x15_1_0_0_1_n_n.contr.Idx) :
    (dot_S96x32_S32x15_S96x15_1_0_0_1_n_n.rhsIdx j k 0).val = (k ⟨0, by decide⟩).val :=
  dot_S96x32_S32x15_S96x15_1_0_0_1_n_n.rhsIdx_val_of_single (cr := 0) rfl j k
theorem rhs_inner_1 (j : S96x15.Idx) (k : dot_S96x32_S32x15_S96x15_1_0_0_1_n_n.contr.Idx) :
    (dot_S96x32_S32x15_S96x15_1_0_0_1_n_n.rhsIdx j k 1).val = (j 1).val := rfl

/-- The inner product accumulated from zero, at (r, ow): the sum over the image's 32 columns. -/
theorem inner_apply (A : FVec Ideal S96x32 .f32) (S : FVec Ideal S32x15 .f32) (r : Fin 96) (ow : Fin 15) :
    matmul dot_S96x32_S32x15_S96x15_1_0_0_1_n_n none A S (constant (F := Ideal) S96x15 .f32 0x00000000#32) (ix2 r ow)
      = ∑ x : Fin 32, A (ix2 r x) * S (ix2 x ow) := by
  refine (Ideal.matmul_constant_zero_apply dot_S96x32_S32x15_S96x15_1_0_0_1_n_n none A S (ix2 r ow)).trans ?_
  rw [← Equiv.sum_comp (contrEquiv1 dot_S96x32_S32x15_S96x15_1_0_0_1_n_n 32 rfl rfl).symm]
  refine Finset.sum_congr rfl fun x _ => ?_
  have hl : dot_S96x32_S32x15_S96x15_1_0_0_1_n_n.lhsIdx (ix2 r ow) ((contrEquiv1 dot_S96x32_S32x15_S96x15_1_0_0_1_n_n 32 rfl rfl).symm x) = ix2 r x :=
    funext fun e => Fin.ext (match e with
      | ⟨0, _⟩ => lhs_inner_0 _ _
      | ⟨1, _⟩ => (lhs_inner_1 _ _).trans (contrEquiv1_symm_val dot_S96x32_S32x15_S96x15_1_0_0_1_n_n 32 rfl rfl x))
  have hr : dot_S96x32_S32x15_S96x15_1_0_0_1_n_n.rhsIdx (ix2 r ow) ((contrEquiv1 dot_S96x32_S32x15_S96x15_1_0_0_1_n_n 32 rfl rfl).symm x) = ix2 x ow :=
    funext fun e => Fin.ext (match e with
      | ⟨0, _⟩ => (rhs_inner_0 _ _).trans (contrEquiv1_symm_val dot_S96x32_S32x15_S96x15_1_0_0_1_n_n 32 rfl rfl x)
      | ⟨1, _⟩ => rhs_inner_1 _ _)
  rw [hl, hr]

/-! ### The outer product [128, 96] by [96, 15]: its operand indices, axis by axis -/

theorem lhs_outer_0 (j : S128x15.Idx) (k : dot_S128x96_S96x15_S128x15_1_0_0_1_n_n.contr.Idx) :
    (dot_S128x96_S96x15_S128x15_1_0_0_1_n_n.lhsIdx j k 0).val = (j 0).val := rfl
theorem lhs_outer_1 (j : S128x15.Idx) (k : dot_S128x96_S96x15_S128x15_1_0_0_1_n_n.contr.Idx) :
    (dot_S128x96_S96x15_S128x15_1_0_0_1_n_n.lhsIdx j k 1).val = (k ⟨0, by decide⟩).val :=
  dot_S128x96_S96x15_S128x15_1_0_0_1_n_n.lhsIdx_val_of_single (cl := 1) rfl j k
theorem rhs_outer_0 (j : S128x15.Idx) (k : dot_S128x96_S96x15_S128x15_1_0_0_1_n_n.contr.Idx) :
    (dot_S128x96_S96x15_S128x15_1_0_0_1_n_n.rhsIdx j k 0).val = (k ⟨0, by decide⟩).val :=
  dot_S128x96_S96x15_S128x15_1_0_0_1_n_n.rhsIdx_val_of_single (cr := 0) rfl j k
theorem rhs_outer_1 (j : S128x15.Idx) (k : dot_S128x96_S96x15_S128x15_1_0_0_1_n_n.contr.Idx) :
    (dot_S128x96_S96x15_S128x15_1_0_0_1_n_n.rhsIdx j k 1).val = (j 1).val := rfl

/-- The outer product accumulated from zero, at (c, ow): the sum over the 96 rows (kh, ci). -/
theorem outer_apply (W : FVec Ideal S128x96 .f32) (M : FVec Ideal S96x15 .f32) (c : Fin 128) (ow : Fin 15) :
    matmul dot_S128x96_S96x15_S128x15_1_0_0_1_n_n none W M (constant (F := Ideal) S128x15 .f32 0x00000000#32) (ix2 c ow)
      = ∑ r : Fin 96, W (ix2 c r) * M (ix2 r ow) := by
  refine (Ideal.matmul_constant_zero_apply dot_S128x96_S96x15_S128x15_1_0_0_1_n_n none W M (ix2 c ow)).trans ?_
  rw [← Equiv.sum_comp (contrEquiv1 dot_S128x96_S96x15_S128x15_1_0_0_1_n_n 96 rfl rfl).symm]
  refine Finset.sum_congr rfl fun r _ => ?_
  have hl : dot_S128x96_S96x15_S128x15_1_0_0_1_n_n.lhsIdx (ix2 c ow) ((contrEquiv1 dot_S128x96_S96x15_S128x15_1_0_0_1_n_n 96 rfl rfl).symm r) = ix2 c r :=
    funext fun e => Fin.ext (match e with
      | ⟨0, _⟩ => lhs_outer_0 _ _
      | ⟨1, _⟩ => (lhs_outer_1 _ _).trans (contrEquiv1_symm_val dot_S128x96_S96x15_S128x15_1_0_0_1_n_n 96 rfl rfl r))
  have hr : dot_S128x96_S96x15_S128x15_1_0_0_1_n_n.rhsIdx (ix2 c ow) ((contrEquiv1 dot_S128x96_S96x15_S128x15_1_0_0_1_n_n 96 rfl rfl).symm r) = ix2 r ow :=
    funext fun e => Fin.ext (match e with
      | ⟨0, _⟩ => (rhs_outer_0 _ _).trans (contrEquiv1_symm_val dot_S128x96_S96x15_S128x15_1_0_0_1_n_n 96 rfl rfl r)
      | ⟨1, _⟩ => rhs_outer_1 _ _)
  rw [hl, hr]

/-- One kernel column's term at (c, ow): the weight slab's row c against the image's rows times the selection
    matrix's column ow. -/
theorem term_apply (w : Vec Ideal S1x128x96 .f32) (s : Vec Ideal S1x32x15 .f32) (a : Vec Ideal S1x96x32 .f32) (c : Fin 128) (ow : Fin 15) :
    matmul (φ₁ := .f32) (φ₂ := .f32) dot_S128x96_S96x15_S128x15_1_0_0_1_n_n none (shapeCast S128x96 w shapeCasts_S1x128x96_S128x96)
        (matmul (φ₁ := .f32) (φ₂ := .f32) dot_S96x32_S32x15_S96x15_1_0_0_1_n_n none (shapeCast S96x32 a shapeCasts_S1x96x32_S96x32)
          (shapeCast S32x15 s shapeCasts_S1x32x15_S32x15) (constant (F := Ideal) S96x15 .f32 0x00000000#32))
        (constant (F := Ideal) S128x15 .f32 0x00000000#32) (ix2 c ow)
      = ∑ r : Fin 96, w (ix3 (0 : Fin 1) c r) * ∑ x : Fin 32, a (ix3 (0 : Fin 1) r x) * s (ix3 (0 : Fin 1) x ow) := by
  refine (outer_apply _ _ c ow).trans (Finset.sum_congr rfl fun r _ => ?_)
  refine congrArg₂ (· * ·) (dropUnit_apply w _ c r) ((inner_apply _ _ r ow).trans (Finset.sum_congr rfl fun x _ => ?_))
  exact congrArg₂ (· * ·) (dropUnit_apply a _ r x) (dropUnit_apply s _ x ow)

/-- The lower half of the accumulator's rows. -/
theorem sliceLo_apply (v : FVec Ideal S128x15 .f32) (co : Fin 64) (ow : Fin 15) :
    extractStridedSlice S64x15 ![0, 0] v slices_S128x15_o0_0_S64x15 (ix2 co ow) = v (ix2 (⟨co.val, by omega⟩ : Fin 128) ow) :=
  extractStridedSlice_apply ![0, 0] v slices_S128x15_o0_0_S64x15 (ix2 co ow) (ix2 (⟨co.val, by omega⟩ : Fin 128) ow)
    (fun e => match e with
      | ⟨0, _⟩ => by show co.val = 0 + co.val; omega
      | ⟨1, _⟩ => by show ow.val = 0 + ow.val; omega)

/-- The upper half of the accumulator's rows. -/
theorem sliceHi_apply (v : FVec Ideal S128x15 .f32) (co : Fin 64) (ow : Fin 15) :
    extractStridedSlice S64x15 ![64, 0] v slices_S128x15_o64_0_S64x15 (ix2 co ow) = v (ix2 (⟨64 + co.val, by omega⟩ : Fin 128) ow) :=
  extractStridedSlice_apply ![64, 0] v slices_S128x15_o64_0_S64x15 (ix2 co ow) (ix2 (⟨64 + co.val, by omega⟩ : Fin 128) ow)
    (fun e => match e with
      | ⟨0, _⟩ => by show 64 + co.val = 64 + co.val; rfl
      | ⟨1, _⟩ => by show ow.val = 0 + ow.val; omega)

/-- The bias column spread over the 15 output columns. -/
theorem bias_apply (b : Vec Ideal S128x1 .f32) (c : Fin 128) (ow : Fin 15) :
    broadcastTo S128x15 (shapeCast S128x1 b shapeCasts_S128x1_S128x1) broadcasts_S128x1_S128x15 (ix2 c ow) = b (ix2 c (0 : Fin 1)) := by
  rw [shapeCast_self]
  exact broadcastTo_apply b broadcasts_S128x1_S128x15 (ix2 c ow) (ix2 c (0 : Fin 1))
    (fun e => match e with | ⟨0, _⟩ => rfl | ⟨1, _⟩ => rfl)

/-- The accumulator of one output row as a vector: zero plus the three kernel columns' terms plus the bias column. -/
def refAccVec (w0 w1 w2 : Vec F S1x128x96 .f32) (s0 s1 s2 : Vec F S1x32x15 .f32) (b : Vec F S128x1 .f32) (a : Vec F S1x96x32 .f32) : FVec F S128x15 .f32 :=
  let A : FVec F S96x32 .f32 := shapeCast S96x32 a shapeCasts_S1x96x32_S96x32
  let term (w : Vec F S1x128x96 .f32) (s : Vec F S1x32x15 .f32) : FVec F S128x15 .f32 :=
    matmul dot_S128x96_S96x15_S128x15_1_0_0_1_n_n none (shapeCast S128x96 w shapeCasts_S1x128x96_S128x96)
      (matmul dot_S96x32_S32x15_S96x15_1_0_0_1_n_n none A (shapeCast S32x15 s shapeCasts_S1x32x15_S32x15) (constant S96x15 .f32 0x00000000#32))
      (constant S128x15 .f32 0x00000000#32)
  addf (addf (addf (addf (broadcast S128x15 (Scalar.ofBits .f32 0x00000000#32)) (term w0 s0)) (term w1 s1)) (term w2 s2))
    (broadcastTo S128x15 (shapeCast S128x1 b shapeCasts_S128x1_S128x1) broadcasts_S128x1_S128x15)

/-- The accumulator vector at (c, ow) is the sum refAcc spells. -/
theorem refAccVec_apply (w0 w1 w2 : Vec Ideal S1x128x96 .f32) (s0 s1 s2 : Vec Ideal S1x32x15 .f32) (b : Vec Ideal S128x1 .f32) (a : Vec Ideal S1x96x32 .f32)
    (c : Fin 128) (ow : Fin 15) :
    refAccVec (F := Ideal) w0 w1 w2 s0 s1 s2 b a (ix2 c ow) = refAcc w0 w1 w2 s0 s1 s2 b a c ow := by
  unfold refAccVec refAcc
  simp only [addf_apply, broadcast_apply]
  rw [term_apply, term_apply, term_apply, bias_apply]
  rfl

/-- `refPos` at an index, over the extended reals: the gate of the accumulator's rows `co` and `64 + co`. -/
theorem refPos_apply (w0 w1 w2 : Vec Ideal S1x128x96 .f32) (s0 s1 s2 : Vec Ideal S1x32x15 .f32) (b : Vec Ideal S128x1 .f32) (a : Vec Ideal S1x96x32 .f32)
    (co : Fin 64) (ow : Fin 15) :
    refPos (F := Ideal) w0 w1 w2 s0 s1 s2 b a (ix3 (0 : Fin 1) co ow)
      = Cert.Spec.glu (refAcc w0 w1 w2 s0 s1 s2 b a ⟨co.val, by omega⟩ ow) (refAcc w0 w1 w2 s0 s1 s2 b a ⟨64 + co.val, by omega⟩ ow) := by
  unfold refPos
  refine (addUnit_apply _ _ co ow).trans ?_
  show Cert.Spec.glu
      (extractStridedSlice S64x15 ![0, 0] (refAccVec (F := Ideal) w0 w1 w2 s0 s1 s2 b a) slices_S128x15_o0_0_S64x15 (ix2 co ow))
      (extractStridedSlice S64x15 ![64, 0] (refAccVec (F := Ideal) w0 w1 w2 s0 s1 s2 b a) slices_S128x15_o64_0_S64x15 (ix2 co ow)) = _
  rw [sliceLo_apply, sliceHi_apply, refAccVec_apply, refAccVec_apply]

end Cert.ReferenceIdeal.Hand

end
-- ==== Proof.RefHost.lean ====
/-
  The arrays the kernel region of `Cert.ReferenceIdeal` finds, read at an index in terms of the argument arrays (over the
  extended reals): the host operations before the region re-lay the activations `x[n, ci, h, w]` to `[n, 32·h + ci, w]`,
  stack the two weight sets along the output channel and re-lay `wcat[c, ci, kh, kw]` to `[kw, c, 32·kh + ci]`, stack the
  two biases into a column `[c, 0]`, and build the 0/1 selection matrices `sel[kw, w, ow] = (w = 2·ow + kw)` from three
  iotas, a product by 2, a sum, a comparison and a conversion.
-/
import proofs.«136853_g2000106783720467_pallasbulk_1336_12_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.StableHlo

variable (m : (ℓ : Loc nD τ sig) → Buf (Elt Ideal) ℓ)

/-- The re-laid activations as a term: the reshape of the transpose of the argument. -/
theorem xrows_term (c : Dev nD) :
    (V m c main_call0_v1 : S256x1024x32.Idx → EReal) =
      shapeCast S256x1024x32
        (transpose S256x32x32x32 [0, 2, 1, 3] (m ((c.tc : Thread nD τ).loc main_arg0) : S256x32x32x32.Idx → EReal)
          transposes_S256x32x32x32_S256x32x32x32_0_2_1_3)
        shapeCasts_S256x32x32x32_S256x1024x32 := by
  dsimp only [V, V0]
  simp only [hostOps0, List.flatten_cons, List.flatten_nil, List.append_nil, List.cons_append, List.nil_append]
  after_results
  rfl

/-- The re-laid weights as a term: the reshape of the transpose of the two weight sets stacked. -/
theorem wgemm_term (c : Dev nD) :
    (V m c main_call0_v4 : S3x128x96.Idx → EReal) =
      shapeCast S3x128x96
        (transpose S3x128x3x32 [3, 0, 2, 1]
          (concatenate S128x32x3x3 0
            [⟨S64x32x3x3, (m ((c.tc : Thread nD τ).loc main_arg1) : S64x32x3x3.Idx → EReal)⟩,
             ⟨S64x32x3x3, (m ((c.tc : Thread nD τ).loc main_arg3) : S64x32x3x3.Idx → EReal)⟩]
            concatenates_S64x32x3x3_S64x32x3x3_S128x32x3x3_d0)
          transposes_S128x32x3x3_S3x128x3x32_3_0_2_1)
        shapeCasts_S3x128x3x32_S3x128x96 := by
  dsimp only [V, V0]
  simp only [hostOps0, List.flatten_cons, List.flatten_nil, List.append_nil, List.cons_append, List.nil_append]
  after_results
  rfl

/-- The bias column as a term: the reshape of the two biases stacked. -/
theorem bcol_term (c : Dev nD) :
    (V m c main_call0_v6 : S128x1.Idx → EReal) =
      shapeCast S128x1
        (concatenate S128 0
            [⟨S64, (m ((c.tc : Thread nD τ).loc main_arg2) : S64.Idx → EReal)⟩,
             ⟨S64, (m ((c.tc : Thread nD τ).loc main_arg4) : S64.Idx → EReal)⟩]
            concatenates_S64_S64_S128_d0)
        shapeCasts_S128_S128x1 := by
  dsimp only [V, V0]
  simp only [hostOps0, List.flatten_cons, List.flatten_nil, List.append_nil, List.cons_append, List.nil_append]
  after_results
  rfl

/-- The column coordinate `w` as a 32-bit word, spread over the selection matrices' shape. -/
abbrev selW : IVec S3x32x15 32 :=
  broadcastInDim S3x32x15 ![0, 1, 2] bcast_S1x32x1_S3x32x15_0_1_2
    (broadcastInDim S1x32x1 ![1] bcast_S32_S1x32x1_1 (iotaInDim S32 32 0))

/-- The 32-bit word `ow · 2 + kw`, spread over the selection matrices' shape. -/
abbrev selT : IVec S3x32x15 32 :=
  broadcastInDim S3x32x15 ![0, 1, 2] bcast_S3x1x15_S3x32x15_0_1_2
    (addi
      (broadcastInDim S3x1x15 ![0, 1, 2] bcast_S1x1x15_S3x1x15_0_1_2
        (muli (broadcastInDim S1x1x15 ![2] bcast_S15_S1x1x15_2 (iotaInDim S15 32 0))
          (broadcastInDim S1x1x15 ![] bcast_S_S1x1x15 (constantI S_ 32 2#32))))
      (broadcastInDim S3x1x15 ![0, 1, 2] bcast_S3x1x1_S3x1x15_0_1_2
        (broadcastInDim S3x1x1 ![0] bcast_S3_S3x1x1_0 (iotaInDim S3 32 0))))

/-- The selection matrices as a term: the one-bit comparison of the two words, read as an unsigned integer. -/
theorem sel_term (c : Dev nD) :
    (V m c main_call0_v21 : S3x32x15.Idx → EReal) = uitofp (F := Ideal) .f32 (cmpi .eq selW selT) := by
  dsimp only [V, V0]
  simp only [hostOps0, List.flatten_cons, List.flatten_nil, List.append_nil, List.cons_append, List.nil_append]
  after_results
  rfl

/-- The re-laid activations: image `n`, row `32·h + ci`, column `w` holds `x[n, ci, h, w]`. -/
theorem xrows_apply (c : Dev nD) (n : Fin 256) (h ci w : Fin 32) :
    (V m c main_call0_v1 : S256x1024x32.Idx → EReal) (ix3 n (⟨32 * h.val + ci.val, by omega⟩ : Fin 1024) w)
      = (m ((c.tc : Thread nD τ).loc main_arg0) : S256x32x32x32.Idx → EReal) (ix4 n ci h w) := by
  rw [xrows_term]
  -- the reshape keeps the row-major position: ((n·32 + h)·32 + ci)·32 + w = (n·1024 + (32·h + ci))·32 + w
  refine (shapeCast_apply _ _ (ix3 n (⟨32 * h.val + ci.val, by omega⟩ : Fin 1024) w) (ix4 n h ci w) ?_).trans ?_
  · rw [Shape.rowMajor_val_four, Shape.rowMajor_val_three]
    show ((n.val * 32 + h.val) * 32 + ci.val) * 32 + w.val = (n.val * 1024 + (32 * h.val + ci.val)) * 32 + w.val
    omega
  -- the transpose exchanges the two middle axes
  · refine transpose_apply [0, 2, 1, 3] _ _ (ix4 n h ci w) (ix4 n ci h w) ?_
    intro b
    match b with
    | ⟨0, _⟩ => rfl
    | ⟨1, _⟩ => rfl
    | ⟨2, _⟩ => rfl
    | ⟨3, _⟩ => rfl

/-- The re-laid weights: slab `kw`, row `cc`, column `32·kh + ci` holds the stacked weights at `[cc, ci, kh, kw]`: the first
    set for `cc < 64`, the second at `cc − 64` otherwise. -/
theorem wgemm_apply (c : Dev nD) (kw kh : Fin 3) (cc : Fin 128) (ci : Fin 32) :
    (V m c main_call0_v4 : S3x128x96.Idx → EReal) (ix3 kw cc (⟨32 * kh.val + ci.val, by omega⟩ : Fin 96))
      = if hc : cc.val < 64 then (m ((c.tc : Thread nD τ).loc main_arg1) : S64x32x3x3.Idx → EReal) (ix4 (⟨cc.val, hc⟩ : Fin 64) ci kh kw)
        else (m ((c.tc : Thread nD τ).loc main_arg3) : S64x32x3x3.Idx → EReal) (ix4 (⟨cc.val - 64, by omega⟩ : Fin 64) ci kh kw) := by
  rw [wgemm_term]
  -- the reshape keeps the row-major position: ((kw·128 + cc)·3 + kh)·32 + ci = (kw·128 + cc)·96 + (32·kh + ci)
  refine (shapeCast_apply _ _ (ix3 kw cc (⟨32 * kh.val + ci.val, by omega⟩ : Fin 96)) (ix4 kw cc kh ci) ?_).trans ?_
  · rw [Shape.rowMajor_val_four, Shape.rowMajor_val_three]
    show ((kw.val * 128 + cc.val) * 3 + kh.val) * 32 + ci.val = (kw.val * 128 + cc.val) * 96 + (32 * kh.val + ci.val)
    omega
  -- the transpose reads the stacked weights at [cc, ci, kh, kw]
  · refine (transpose_apply [3, 0, 2, 1] _ _ (ix4 kw cc kh ci) (ix4 cc ci kh kw) ?_).trans ?_
    · intro b
      match b with
      | ⟨0, _⟩ => rfl
      | ⟨1, _⟩ => rfl
      | ⟨2, _⟩ => rfl
      | ⟨3, _⟩ => rfl
    -- the stack along the output channel: the first set below 64, the second from 64 on
    · by_cases hc : cc.val < 64
      · rw [dif_pos hc]
        refine concatenate_pair_apply_left (s₁ := S64x32x3x3) (s₂ := S64x32x3x3) 0 _ _ _ (ix4 cc ci kh kw) rfl (ix4 (⟨cc.val, hc⟩ : Fin 64) ci kh kw) ?_
        intro b
        match b with
        | ⟨0, _⟩ => rfl
        | ⟨1, _⟩ => rfl
        | ⟨2, _⟩ => rfl
        | ⟨3, _⟩ => rfl
      · rw [dif_neg hc]
        refine concatenate_pair_apply_right (s₁ := S64x32x3x3) (s₂ := S64x32x3x3) 0 _ _ _ (ix4 cc ci kh kw) rfl rfl (ix4 (⟨cc.val - 64, by omega⟩ : Fin 64) ci kh kw) ?_ ?_
        · intro b hb
          match b, hb with
          | ⟨0, _⟩, hb => exact absurd rfl hb
          | ⟨1, _⟩, _ => rfl
          | ⟨2, _⟩, _ => rfl
          | ⟨3, _⟩, _ => rfl
        · show cc.val - 64 + 64 = cc.val
          omega

/-- The bias column: row `cc` holds the first bias for `cc < 64`, the second at `cc − 64` otherwise. -/
theorem bcol_apply (c : Dev nD) (cc : Fin 128) :
    (V m c main_call0_v6 : S128x1.Idx → EReal) (ix2 cc (0 : Fin 1))
      = if hc : cc.val < 64 then (m ((c.tc : Thread nD τ).loc main_arg2) : S64.Idx → EReal) (ix1 (⟨cc.val, hc⟩ : Fin 64))
        else (m ((c.tc : Thread nD τ).loc main_arg4) : S64.Idx → EReal) (ix1 (⟨cc.val - 64, by omega⟩ : Fin 64)) := by
  rw [bcol_term]
  refine (shapeCast_apply _ _ (ix2 cc (0 : Fin 1)) (ix1 cc) ?_).trans ?_
  · rw [Shape.rowMajor_val_one, Shape.rowMajor_val_two]
    show cc.val = cc.val * 1 + 0
    omega
  · by_cases hc : cc.val < 64
    · rw [dif_pos hc]
      refine concatenate_pair_apply_left (s₁ := S64) (s₂ := S64) 0 _ _ _ (ix1 cc) rfl (ix1 (⟨cc.val, hc⟩ : Fin 64)) ?_
      intro b
      match b with
      | ⟨0, _⟩ => rfl
    · rw [dif_neg hc]
      refine concatenate_pair_apply_right (s₁ := S64) (s₂ := S64) 0 _ _ _ (ix1 cc) rfl rfl (ix1 (⟨cc.val - 64, by omega⟩ : Fin 64)) ?_ ?_
      · intro b hb
        match b, hb with
        | ⟨0, _⟩, hb => exact absurd rfl hb
      · show cc.val - 64 + 64 = cc.val
        omega

/-- At `[kw, w, ow]` the first word is `w`: the two broadcasts keep the middle coordinate. -/
theorem selW_apply (kw : Fin 3) (w : Fin 32) (ow : Fin 15) : selW (ix3 kw w ow) = BitVec.ofNat 32 w.val := rfl

/-- At `[kw, w, ow]` the second word is `ow · 2 + kw`: the broadcasts keep the first and the last coordinate. -/
theorem selT_apply (kw : Fin 3) (w : Fin 32) (ow : Fin 15) :
    selT (ix3 kw w ow) = BitVec.ofNat 32 ow.val * 2#32 + BitVec.ofNat 32 kw.val := rfl

/-- The selection matrices: `sel[kw, w, ow]` is one where `w = 2·ow + kw` and zero elsewhere. -/
theorem sel_apply (c : Dev nD) (kw : Fin 3) (w : Fin 32) (ow : Fin 15) :
    (V m c main_call0_v21 : S3x32x15.Idx → EReal) (ix3 kw w ow) = if w.val = 2 * ow.val + kw.val then (1 : EReal) else 0 := by
  rw [sel_term]
  show (((IntOp.cmpi .eq (selW (ix3 kw w ow)) (selT (ix3 kw w ow))).toNat : ℝ) : EReal) = _
  rw [selW_apply, selT_apply]
  -- the values stay below 64, so the 32-bit words are equal exactly when the numbers are
  have hiff : (BitVec.ofNat 32 w.val = BitVec.ofNat 32 ow.val * 2#32 + BitVec.ofNat 32 kw.val) ↔ w.val = 2 * ow.val + kw.val := by
    rw [← BitVec.toNat_inj, BitVec.toNat_add, BitVec.toNat_mul, BitVec.toNat_ofNat, BitVec.toNat_ofNat, BitVec.toNat_ofNat]
    have := w.isLt; have := ow.isLt; have := kw.isLt
    show w.val % 2 ^ 32 = (ow.val % 2 ^ 32 * 2 % 2 ^ 32 + kw.val % 2 ^ 32) % 2 ^ 32 ↔ _
    omega
  by_cases hw : w.val = 2 * ow.val + kw.val
  · rw [if_pos hw, StableHlo.Predicate.cmpi_eq_iff.mpr (hiff.mpr hw)]
    norm_num
  · rw [if_neg hw, eq_zero_of_ne_one (fun h1 => hw (hiff.mp (StableHlo.Predicate.cmpi_eq_iff.mp h1)))]
    norm_num

end Cert.ReferenceIdeal.Hand

end
-- ==== Proof.RefValue.lean ====
/-
  The value of `Cert.ReferenceIdeal`'s result over the extended reals: the result array is the gated convolution
  `Cert.Spec.G` of the five argument arrays.

  The reference runs one image per grid point over `xrows[n, 32·h + ci, w] = x[n, ci, h, w]`. For output row `oh` it takes
  rows `[64·oh, 64·oh + 96)` (the `(kh, ci)` with `h = 2·oh + kh`), selects column `2·ow + kw` by a product with the 0/1
  matrix `sel[kw, w, ow] = (w = 2·ow + kw)`, and adds up `wgemm[kw, c, 32·kh + ci] · (that column)` over `kw` from zero,
  `wgemm[kw, c, 32·kh + ci] = wcat[c, ci, kh, kw]`; the bias, the two halves and the gate are as in the specification.
  A product with a 0/1 matrix picks one term of its sum (`a · 0 = 0`, `a · 1 = a` on every extended real), and the sums over
  `kw` and `(kh, ci)` are the specification's over `kh`, `kw`, `ci` in another order. The fifteen stores per point tile
  the block `[1, 64, 225]` and the host reshapes `[n, co, 15·oh + ow]` to `[n, co, oh, ow]`.
-/
import proofs.«136853_g2000106783720467_pallasbulk_1336_12_alg».proof.Proof.RefPieces
import proofs.«136853_g2000106783720467_pallasbulk_1336_12_alg».proof.Proof.RefHost
import proofs.«136853_g2000106783720467_pallasbulk_1336_12_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.ValueIdx

open scoped BigOperators

/-! ## The sums -/

/-- A product with a 0/1 column picks one term of its sum: `a · 0 = 0` and `a · 1 = a` on every extended real. -/
theorem sum_mul_sel (f s : Fin 32 → EReal) (k : Fin 32) (hs : ∀ w : Fin 32, s w = if w.val = k.val then (1 : EReal) else 0) :
    ∑ w : Fin 32, f w * s w = f k := by
  rw [Finset.sum_eq_single k]
  · rw [hs k, if_pos rfl, mul_one]
  · intro w _ hw
    rw [hs w, if_neg (fun e => hw (Fin.ext e)), mul_zero]
  · intro h; exact absurd (Finset.mem_univ k) h

/-- A sum over the 96 rows `32·kh + ci` is the double sum over `kh` and `ci`. -/
theorem sum_rows (f : Fin 96 → EReal) :
    ∑ r : Fin 96, f r = ∑ kh : Fin 3, ∑ ci : Fin 32, f ⟨32 * kh.val + ci.val, by omega⟩ := by
  have e := Fintype.sum_equiv (finProdFinEquiv : Fin 3 × Fin 32 ≃ Fin 96)
    (fun p : Fin 3 × Fin 32 => f ⟨32 * p.1.val + p.2.val, by omega⟩) f
    (fun p => congrArg f (Fin.ext (by show 32 * p.1.val + p.2.val = p.2.val + 32 * p.1.val; omega)))
  rw [← e, Fintype.sum_prod_type]

/-- The accumulator's three products, each a sum over the rows of a sum over the columns against a 0/1 column, added from
    zero in the order of the kernel columns, are the convolution's sum over `kh`, `kw`, `ci`: each inner sum picks column
    `2·ow + kw`, the rows split as `(kh, ci)`, and the three outer sums are the `kw` sum taken outside. -/
theorem acc_eq (w0 w1 w2 : Fin 96 → EReal) (s0 s1 s2 : Fin 32 → EReal) (a : Fin 96 → Fin 32 → EReal) (b : EReal) (ow : Fin 15)
    (W : Fin 3 → Fin 3 → Fin 32 → EReal) (A : Fin 3 → Fin 32 → Fin 32 → EReal)
    (h0 : ∀ w : Fin 32, s0 w = if w.val = 2 * ow.val + (0 : Fin 3).val then (1 : EReal) else 0)
    (h1 : ∀ w : Fin 32, s1 w = if w.val = 2 * ow.val + (1 : Fin 3).val then (1 : EReal) else 0)
    (h2 : ∀ w : Fin 32, s2 w = if w.val = 2 * ow.val + (2 : Fin 3).val then (1 : EReal) else 0)
    (hw0 : ∀ (kh : Fin 3) (ci : Fin 32), w0 ⟨32 * kh.val + ci.val, by omega⟩ = W kh 0 ci)
    (hw1 : ∀ (kh : Fin 3) (ci : Fin 32), w1 ⟨32 * kh.val + ci.val, by omega⟩ = W kh 1 ci)
    (hw2 : ∀ (kh : Fin 3) (ci : Fin 32), w2 ⟨32 * kh.val + ci.val, by omega⟩ = W kh 2 ci)
    (ha : ∀ (kh : Fin 3) (ci w : Fin 32), a ⟨32 * kh.val + ci.val, by omega⟩ w = A kh ci w) :
    (((Ideal.ofBits .f32 0x00000000#32 + ∑ r : Fin 96, w0 r * ∑ w : Fin 32, a r w * s0 w)
        + ∑ r : Fin 96, w1 r * ∑ w : Fin 32, a r w * s1 w)
        + ∑ r : Fin 96, w2 r * ∑ w : Fin 32, a r w * s2 w) + b
      = (∑ kh : Fin 3, ∑ kw : Fin 3, ∑ ci : Fin 32, W kh kw ci * A kh ci (Cert.Spec.tap ow kw)) + b := by
  have t : ∀ (wk : Fin 96 → EReal) (sk : Fin 32 → EReal) (kw : Fin 3),
      (∀ w : Fin 32, sk w = if w.val = 2 * ow.val + kw.val then (1 : EReal) else 0) →
      (∀ (kh : Fin 3) (ci : Fin 32), wk ⟨32 * kh.val + ci.val, by omega⟩ = W kh kw ci) →
      ∑ r : Fin 96, wk r * ∑ w : Fin 32, a r w * sk w = ∑ kh : Fin 3, ∑ ci : Fin 32, W kh kw ci * A kh ci (Cert.Spec.tap ow kw) := by
    intro wk sk kw hs hw
    rw [sum_rows]
    refine Finset.sum_congr rfl fun kh _ => Finset.sum_congr rfl fun ci _ => ?_
    rw [sum_mul_sel _ sk (Cert.Spec.tap ow kw) hs, hw, ha]
  rw [t w0 s0 0 h0 hw0, t w1 s1 1 h1 hw1, t w2 s2 2 h2 hw2, Ideal.ofBits_zero_f32, zero_add]
  congr 1
  rw [← Finset.sum_add_distrib, ← Finset.sum_add_distrib]
  refine Finset.sum_congr rfl fun kh _ => ?_
  rw [Fin.sum_univ_three]

/-! ## The loads -/

/-- A load through a unit-stride rectangle reads the contents at the offset coordinates. -/
theorem ld_unit_apply {Val : EltTy → Type} {S : Shape} {e : EltTy} (X : S.Idx → Val e) (off sz : Fin S.rank → Nat)
    (inb : ∀ a, off a + sz a ≤ S.size a) (y : (Rect.unit off sz inb).shape.Idx) (k : S.Idx)
    (hk : ∀ a, (k a).val = off a + (y a).val) : View.ld X (Rect.unit off sz inb) y = X k := by
  show X _ = X k
  refine congrArg X (funext fun a => Fin.ext ?_)
  rw [hk a]
  show off a + 1 * (y a).val = _
  omega

/-- Weight slab `k` of the three: rows and columns as they are. -/
theorem ld_slab (x1 : Vec Ideal S3x128x96 .f32) (k : Nat) (hk : k < 3)
    (inb : ∀ a, (![k, 0, 0] : Fin 3 → Nat) a + S1x128x96.size a ≤ S3x128x96.size a) (cc : Fin 128) (r : Fin 96) :
    View.ld x1 (Rect.unit (s := S3x128x96) ![k, 0, 0] S1x128x96.size inb) (ix3 (0 : Fin 1) cc r) = x1 (ix3 (⟨k, hk⟩ : Fin 3) cc r) :=
  ld_unit_apply x1 _ _ inb _ _ fun a => by
    match a with
    | ⟨0, _⟩ => show k = k + 0; rfl
    | ⟨1, _⟩ => show cc.val = 0 + cc.val; omega
    | ⟨2, _⟩ => show r.val = 0 + r.val; omega

/-- Selection matrix `k` of the three. -/
theorem ld_sel (x2 : Vec Ideal S3x32x15 .f32) (k : Nat) (hk : k < 3)
    (inb : ∀ a, (![k, 0, 0] : Fin 3 → Nat) a + S1x32x15.size a ≤ S3x32x15.size a) (w : Fin 32) (ow : Fin 15) :
    View.ld x2 (Rect.unit (s := S3x32x15) ![k, 0, 0] S1x32x15.size inb) (ix3 (0 : Fin 1) w ow) = x2 (ix3 (⟨k, hk⟩ : Fin 3) w ow) :=
  ld_unit_apply x2 _ _ inb _ _ fun a => by
    match a with
    | ⟨0, _⟩ => show k = k + 0; rfl
    | ⟨1, _⟩ => show w.val = 0 + w.val; omega
    | ⟨2, _⟩ => show ow.val = 0 + ow.val; omega

/-- The bias column, whole. -/
theorem ld_bias (x3 : Vec Ideal S128x1 .f32) (cc : Fin 128) : View.ld x3 r0_0 (ix2 cc (0 : Fin 1)) = x3 (ix2 cc (0 : Fin 1)) :=
  ld_unit_apply x3 _ _ _ _ _ fun a => by
    match a with
    | ⟨0, _⟩ => show cc.val = 0 + cc.val; omega
    | ⟨1, _⟩ => show 0 = 0 + 0; rfl

/-- Ninety-six rows of the image's buffer from row `io` on. -/
theorem ld_rows (x0 : Vec Ideal S1x1024x32 .f32) (io : Nat)
    (inb : ∀ a, (![0, io, 0] : Fin 3 → Nat) a + S1x96x32.size a ≤ S1x1024x32.size a) (r : Fin 96) (w : Fin 32) (k : Fin 1024)
    (hk : k.val = io + r.val) :
    View.ld x0 (Rect.unit (s := S1x1024x32) ![0, io, 0] S1x96x32.size inb) (ix3 (0 : Fin 1) r w) = x0 (ix3 (0 : Fin 1) k w) :=
  ld_unit_apply x0 _ _ inb _ _ fun a => by
    match a with
    | ⟨0, _⟩ => show 0 = 0 + 0; rfl
    | ⟨1, _⟩ => show k.val = io + r.val; exact hk
    | ⟨2, _⟩ => show w.val = 0 + w.val; omega

/-! ## One output row at a grid point -/

section Point

variable (xa : Cert.Spec.SX.Idx → EReal) (n : Fin 256)
  (x0 : Vec Ideal S1x1024x32 .f32) (x1 : Vec Ideal S3x128x96 .f32) (x2 : Vec Ideal S3x32x15 .f32) (x3 : Vec Ideal S128x1 .f32)

/-- The accumulator's row `cc` over the point's blocks is one convolution branch at channel `co`, when row `cc` of the weight
    slabs and of the bias column holds that branch's weights and bias: the image's block holds `x[n, ci, h, w]` at row
    `32·h + ci`, the rows from `64·oh` on are those with `h = 2·oh + kh`, and the selection blocks are the 0/1 matrices. -/
theorem acc_apply (wc : Cert.Spec.SW.Idx → EReal) (bc : Cert.Spec.SB.Idx → EReal) (cc : Fin 128) (co : Fin 64)
    (hx0 : ∀ (h ci w : Fin 32), x0 (ix3 (0 : Fin 1) (⟨32 * h.val + ci.val, by omega⟩ : Fin 1024) w) = xa (ix4 n ci h w))
    (hx1 : ∀ (kw kh : Fin 3) (ci : Fin 32), x1 (ix3 kw cc (⟨32 * kh.val + ci.val, by omega⟩ : Fin 96)) = wc (ix4 co ci kh kw))
    (hx2 : ∀ (kw : Fin 3) (w : Fin 32) (ow : Fin 15), x2 (ix3 kw w ow) = if w.val = 2 * ow.val + kw.val then (1 : EReal) else 0)
    (hx3 : x3 (ix2 cc (0 : Fin 1)) = bc (ix1 co))
    (oh : Fin 15) (io : Nat) (hio : io = 64 * oh.val)
    (inbI : ∀ a, (![0, io, 0] : Fin 3 → Nat) a + S1x96x32.size a ≤ S1x1024x32.size a) (ow : Fin 15) :
    refAcc (View.ld x1 r0_1) (View.ld x1 r0_2) (View.ld x1 r0_3) (View.ld x2 r0_4) (View.ld x2 r0_5) (View.ld x2 r0_6) (View.ld x3 r0_0)
        (View.ld x0 (Rect.unit (s := S1x1024x32) ![0, io, 0] S1x96x32.size inbI)) cc ow
      = Cert.Spec.conv xa wc bc n co oh ow := by
  unfold refAcc Cert.Spec.conv
  rw [ld_bias, hx3]
  exact acc_eq _ _ _ _ _ _ (fun r w => View.ld x0 (Rect.unit (s := S1x1024x32) ![0, io, 0] S1x96x32.size inbI) (ix3 (0 : Fin 1) r w)) _ ow
    (fun kh kw ci => wc (ix4 co ci kh kw)) (fun kh ci w => xa (ix4 n ci (Cert.Spec.tap oh kh) w))
    (fun w => (ld_sel x2 0 (by omega) _ w ow).trans (hx2 _ w ow))
    (fun w => (ld_sel x2 1 (by omega) _ w ow).trans (hx2 _ w ow))
    (fun w => (ld_sel x2 2 (by omega) _ w ow).trans (hx2 _ w ow))
    (fun kh ci => (ld_slab x1 0 (by omega) _ cc _).trans (hx1 _ kh ci))
    (fun kh ci => (ld_slab x1 1 (by omega) _ cc _).trans (hx1 _ kh ci))
    (fun kh ci => (ld_slab x1 2 (by omega) _ cc _).trans (hx1 _ kh ci))
    (fun kh ci w => (ld_rows x0 io inbI _ w ⟨32 * (Cert.Spec.tap oh kh).val + ci.val, by have := (Cert.Spec.tap oh kh).isLt; omega⟩
        (by show 32 * (2 * oh.val + kh.val) + ci.val = io + (32 * kh.val + ci.val); omega)).trans (hx0 (Cert.Spec.tap oh kh) ci w))

end Point

section Block

variable (xa : Cert.Spec.SX.Idx → EReal) (wa wb : Cert.Spec.SW.Idx → EReal) (ba bb : Cert.Spec.SB.Idx → EReal) (n : Fin 256)
  (x0 : Vec Ideal S1x1024x32 .f32) (x1 : Vec Ideal S3x128x96 .f32) (x2 : Vec Ideal S3x32x15 .f32) (x3 : Vec Ideal S128x1 .f32)

/-- The output row of a flat position `15·oh + ow`. -/
def rowOf (k : Fin 225) : Fin 15 := ⟨k.val / 15, by omega⟩
/-- The output column of a flat position `15·oh + ow`. -/
def colOf (k : Fin 225) : Fin 15 := ⟨k.val % 15, by omega⟩

/-- The result with its two output axes flattened: `[n, co, 15·oh + ow]` holds the specification at `[n, co, oh, ow]`. -/
def flatG (i : S256x64x225.Idx) : EReal :=
  Cert.Spec.G xa wa ba wb bb (ix4 (i 0 : Fin 256) (i 1 : Fin 64) (rowOf (i 2)) (colOf (i 2)))

/-- One output row `oh` of a grid point, at channel `co` and column `ow`: the gate of the two convolution branches, the first
    read off rows `[0, 64)` of the stacked weights and bias, the second off rows `[64, 128)`. -/
theorem piece_apply
    (hx0 : ∀ (h ci w : Fin 32), x0 (ix3 (0 : Fin 1) (⟨32 * h.val + ci.val, by omega⟩ : Fin 1024) w) = xa (ix4 n ci h w))
    (hx1 : ∀ (kw kh : Fin 3) (cc : Fin 128) (ci : Fin 32), x1 (ix3 kw cc (⟨32 * kh.val + ci.val, by omega⟩ : Fin 96))
      = if hc : cc.val < 64 then wa (ix4 (⟨cc.val, hc⟩ : Fin 64) ci kh kw) else wb (ix4 (⟨cc.val - 64, by omega⟩ : Fin 64) ci kh kw))
    (hx2 : ∀ (kw : Fin 3) (w : Fin 32) (ow : Fin 15), x2 (ix3 kw w ow) = if w.val = 2 * ow.val + kw.val then (1 : EReal) else 0)
    (hx3 : ∀ cc : Fin 128, x3 (ix2 cc (0 : Fin 1))
      = if hc : cc.val < 64 then ba (ix1 (⟨cc.val, hc⟩ : Fin 64)) else bb (ix1 (⟨cc.val - 64, by omega⟩ : Fin 64)))
    (oh : Fin 15) (io : Nat) (hio : io = 64 * oh.val)
    (inbI : ∀ a, (![0, io, 0] : Fin 3 → Nat) a + S1x96x32.size a ≤ S1x1024x32.size a) (co : Fin 64) (ow : Fin 15) :
    refPos (View.ld x1 r0_1) (View.ld x1 r0_2) (View.ld x1 r0_3) (View.ld x2 r0_4) (View.ld x2 r0_5) (View.ld x2 r0_6) (View.ld x3 r0_0)
        (View.ld x0 (Rect.unit (s := S1x1024x32) ![0, io, 0] S1x96x32.size inbI)) (ix3 (0 : Fin 1) co ow)
      = Cert.Spec.glu (Cert.Spec.conv xa wa ba n co oh ow) (Cert.Spec.conv xa wb bb n co oh ow) := by
  rw [refPos_apply]
  refine congrArg₂ Cert.Spec.glu ?_ ?_
  · refine acc_apply xa n x0 x1 x2 x3 wa ba ⟨co.val, by omega⟩ co hx0 (fun kw kh ci => ?_) hx2 ?_ oh io hio inbI ow
    · rw [hx1, dif_pos (show (⟨co.val, by omega⟩ : Fin 128).val < 64 from co.isLt)]
    · rw [hx3, dif_pos (show (⟨co.val, by omega⟩ : Fin 128).val < 64 from co.isLt)]
  · refine acc_apply xa n x0 x1 x2 x3 wb bb ⟨64 + co.val, by omega⟩ co hx0 (fun kw kh ci => ?_) hx2 ?_ oh io hio inbI ow
    · rw [hx1, dif_neg (show ¬ (⟨64 + co.val, by omega⟩ : Fin 128).val < 64 from by show ¬ 64 + co.val < 64; omega)]
      exact congrArg wb (congrArg (fun q : Fin 64 => ix4 q ci kh kw) (Fin.ext (by show 64 + co.val - 64 = co.val; omega)))
    · rw [hx3, dif_neg (show ¬ (⟨64 + co.val, by omega⟩ : Fin 128).val < 64 from by show ¬ 64 + co.val < 64; omega)]
      exact congrArg bb (congrArg (fun q : Fin 64 => ix1 q) (Fin.ext (by show 64 + co.val - 64 = co.val; omega)))

/-- The same as a piece of the output buffer: the store of output row `oh` through columns `[15·oh, 15·oh + 15)` agrees with
    the flattened result at the image `n`. -/
theorem piece_ok
    (hx0 : ∀ (h ci w : Fin 32), x0 (ix3 (0 : Fin 1) (⟨32 * h.val + ci.val, by omega⟩ : Fin 1024) w) = xa (ix4 n ci h w))
    (hx1 : ∀ (kw kh : Fin 3) (cc : Fin 128) (ci : Fin 32), x1 (ix3 kw cc (⟨32 * kh.val + ci.val, by omega⟩ : Fin 96))
      = if hc : cc.val < 64 then wa (ix4 (⟨cc.val, hc⟩ : Fin 64) ci kh kw) else wb (ix4 (⟨cc.val - 64, by omega⟩ : Fin 64) ci kh kw))
    (hx2 : ∀ (kw : Fin 3) (w : Fin 32) (ow : Fin 15), x2 (ix3 kw w ow) = if w.val = 2 * ow.val + kw.val then (1 : EReal) else 0)
    (hx3 : ∀ cc : Fin 128, x3 (ix2 cc (0 : Fin 1))
      = if hc : cc.val < 64 then ba (ix1 (⟨cc.val, hc⟩ : Fin 64)) else bb (ix1 (⟨cc.val - 64, by omega⟩ : Fin 64)))
    (oh : Fin 15) (io oo : Nat) (hio : io = 64 * oh.val) (hoo : oo = 15 * oh.val)
    (inbI : ∀ a, (![0, io, 0] : Fin 3 → Nat) a + S1x96x32.size a ≤ S1x1024x32.size a)
    (inbO : ∀ a, (![0, 0, oo] : Fin 3 → Nat) a + S1x64x15.size a ≤ S1x64x225.size a)
    (y : (Rect.unit (s := S1x64x225) ![0, 0, oo] S1x64x15.size inbO).shape.Idx) :
    refPos (View.ld x1 r0_1) (View.ld x1 r0_2) (View.ld x1 r0_3) (View.ld x2 r0_4) (View.ld x2 r0_5) (View.ld x2 r0_6) (View.ld x3 r0_0)
        (View.ld x0 (Rect.unit (s := S1x1024x32) ![0, io, 0] S1x96x32.size inbI)) y
      = (fun q : S1x64x225.Idx => flatG xa wa wb ba bb (ix3 n (q 1 : Fin 64) (q 2 : Fin 225)))
          ((Rect.unit (s := S1x64x225) ![0, 0, oo] S1x64x15.size inbO).emb y) := by
  obtain ⟨z, co, ow, rfl⟩ : ∃ (z : Fin 1) (co : Fin 64) (ow : Fin 15), y = ix3 z co ow := ⟨y 0, y 1, y 2, eq_ix3 y⟩
  obtain rfl : z = 0 := Subsingleton.elim _ _
  rw [piece_apply xa wa wb ba bb n x0 x1 x2 x3 hx0 hx1 hx2 hx3 oh io hio inbI co ow]
  have e1 : ((Rect.unit (s := S1x64x225) ![0, 0, oo] S1x64x15.size inbO).emb (ix3 (0 : Fin 1) co ow) 1 : Fin 64) = co :=
    Fin.ext (by show 0 + 1 * co.val = co.val; omega)
  have e2 : rowOf ((Rect.unit (s := S1x64x225) ![0, 0, oo] S1x64x15.size inbO).emb (ix3 (0 : Fin 1) co ow) 2 : Fin 225) = oh :=
    Fin.ext (by show (oo + 1 * ow.val) / 15 = oh.val; omega)
  have e3 : colOf ((Rect.unit (s := S1x64x225) ![0, 0, oo] S1x64x15.size inbO).emb (ix3 (0 : Fin 1) co ow) 2 : Fin 225) = ow :=
    Fin.ext (by show (oo + 1 * ow.val) % 15 = ow.val; omega)
  show _ = Cert.Spec.G xa wa ba wb bb (ix4 n
    ((Rect.unit (s := S1x64x225) ![0, 0, oo] S1x64x15.size inbO).emb (ix3 (0 : Fin 1) co ow) 1 : Fin 64)
    (rowOf ((Rect.unit (s := S1x64x225) ![0, 0, oo] S1x64x15.size inbO).emb (ix3 (0 : Fin 1) co ow) 2 : Fin 225))
    (colOf ((Rect.unit (s := S1x64x225) ![0, 0, oo] S1x64x15.size inbO).emb (ix3 (0 : Fin 1) co ow) 2 : Fin 225)))
  rw [e1, e2, e3, Cert.Spec.G_apply]

/-- What the body leaves in the output buffer at a grid point, from blocks that hold the re-laid operands: image `n` of the
    flattened result. The fifteen stores tile the buffer and each agrees with it. -/
theorem out_block
    (hx0 : ∀ (h ci w : Fin 32), x0 (ix3 (0 : Fin 1) (⟨32 * h.val + ci.val, by omega⟩ : Fin 1024) w) = xa (ix4 n ci h w))
    (hx1 : ∀ (kw kh : Fin 3) (cc : Fin 128) (ci : Fin 32), x1 (ix3 kw cc (⟨32 * kh.val + ci.val, by omega⟩ : Fin 96))
      = if hc : cc.val < 64 then wa (ix4 (⟨cc.val, hc⟩ : Fin 64) ci kh kw) else wb (ix4 (⟨cc.val - 64, by omega⟩ : Fin 64) ci kh kw))
    (hx2 : ∀ (kw : Fin 3) (w : Fin 32) (ow : Fin 15), x2 (ix3 kw w ow) = if w.val = 2 * ow.val + kw.val then (1 : EReal) else 0)
    (hx3 : ∀ cc : Fin 128, x3 (ix2 cc (0 : Fin 1))
      = if hc : cc.val < 64 then ba (ix1 (⟨cc.val, hc⟩ : Fin 64)) else bb (ix1 (⟨cc.val - 64, by omega⟩ : Fin 64)))
    (q : S1x64x225.Idx) :
    out0_4 x0 x1 x2 x3 q = flatG xa wa wb ba bb (ix3 n (q 1 : Fin 64) (q 2 : Fin 225)) := by
  rw [out0_4_eq]
  refine View.canon_apply_of_pieces (Val := Elt Ideal) (S := S1x64x225) (e := .f32) (fun q : S1x64x225.Idx => flatG xa wa wb ba bb (ix3 n (q 1 : Fin 64) (q 2 : Fin 225))) _ ?_ q
    (cover0_4 _ _ _ _ _ _ _ _ _ _ _ _ _ _ _ q)
  intro p hp y
  simp only [List.mem_cons, List.mem_nil_iff, or_false] at hp
  rcases hp with rfl | rfl | rfl | rfl | rfl | rfl | rfl | rfl | rfl | rfl | rfl | rfl | rfl | rfl | rfl
  · exact piece_ok xa wa wb ba bb n x0 x1 x2 x3 hx0 hx1 hx2 hx3 ⟨14, by omega⟩ 896 210 rfl rfl inb_S1x1024x32_S1x96x32_0_896_0 inb_S1x64x225_S1x64x15_0_0_210 y
  · exact piece_ok xa wa wb ba bb n x0 x1 x2 x3 hx0 hx1 hx2 hx3 ⟨13, by omega⟩ 832 195 rfl rfl inb_S1x1024x32_S1x96x32_0_832_0 inb_S1x64x225_S1x64x15_0_0_195 y
  · exact piece_ok xa wa wb ba bb n x0 x1 x2 x3 hx0 hx1 hx2 hx3 ⟨12, by omega⟩ 768 180 rfl rfl inb_S1x1024x32_S1x96x32_0_768_0 inb_S1x64x225_S1x64x15_0_0_180 y
  · exact piece_ok xa wa wb ba bb n x0 x1 x2 x3 hx0 hx1 hx2 hx3 ⟨11, by omega⟩ 704 165 rfl rfl inb_S1x1024x32_S1x96x32_0_704_0 inb_S1x64x225_S1x64x15_0_0_165 y
  · exact piece_ok xa wa wb ba bb n x0 x1 x2 x3 hx0 hx1 hx2 hx3 ⟨10, by omega⟩ 640 150 rfl rfl inb_S1x1024x32_S1x96x32_0_640_0 inb_S1x64x225_S1x64x15_0_0_150 y
  · exact piece_ok xa wa wb ba bb n x0 x1 x2 x3 hx0 hx1 hx2 hx3 ⟨9, by omega⟩ 576 135 rfl rfl inb_S1x1024x32_S1x96x32_0_576_0 inb_S1x64x225_S1x64x15_0_0_135 y
  · exact piece_ok xa wa wb ba bb n x0 x1 x2 x3 hx0 hx1 hx2 hx3 ⟨8, by omega⟩ 512 120 rfl rfl inb_S1x1024x32_S1x96x32_0_512_0 inb_S1x64x225_S1x64x15_0_0_120 y
  · exact piece_ok xa wa wb ba bb n x0 x1 x2 x3 hx0 hx1 hx2 hx3 ⟨7, by omega⟩ 448 105 rfl rfl inb_S1x1024x32_S1x96x32_0_448_0 inb_S1x64x225_S1x64x15_0_0_105 y
  · exact piece_ok xa wa wb ba bb n x0 x1 x2 x3 hx0 hx1 hx2 hx3 ⟨6, by omega⟩ 384 90 rfl rfl inb_S1x1024x32_S1x96x32_0_384_0 inb_S1x64x225_S1x64x15_0_0_90 y
  · exact piece_ok xa wa wb ba bb n x0 x1 x2 x3 hx0 hx1 hx2 hx3 ⟨5, by omega⟩ 320 75 rfl rfl inb_S1x1024x32_S1x96x32_0_320_0 inb_S1x64x225_S1x64x15_0_0_75 y
  · exact piece_ok xa wa wb ba bb n x0 x1 x2 x3 hx0 hx1 hx2 hx3 ⟨4, by omega⟩ 256 60 rfl rfl inb_S1x1024x32_S1x96x32_0_256_0 inb_S1x64x225_S1x64x15_0_0_60 y
  · exact piece_ok xa wa wb ba bb n x0 x1 x2 x3 hx0 hx1 hx2 hx3 ⟨3, by omega⟩ 192 45 rfl rfl inb_S1x1024x32_S1x96x32_0_192_0 inb_S1x64x225_S1x64x15_0_0_45 y
  · exact piece_ok xa wa wb ba bb n x0 x1 x2 x3 hx0 hx1 hx2 hx3 ⟨2, by omega⟩ 128 30 rfl rfl inb_S1x1024x32_S1x96x32_0_128_0 inb_S1x64x225_S1x64x15_0_0_30 y
  · exact piece_ok xa wa wb ba bb n x0 x1 x2 x3 hx0 hx1 hx2 hx3 ⟨1, by omega⟩ 64 15 rfl rfl inb_S1x1024x32_S1x96x32_0_64_0 inb_S1x64x225_S1x64x15_0_0_15 y
  · exact piece_ok xa wa wb ba bb n x0 x1 x2 x3 hx0 hx1 hx2 hx3 ⟨0, by omega⟩ 0 0 rfl rfl inb_S1x1024x32_S1x96x32_0_0_0 inb_S1x64x225_S1x64x15_0_0_0 y

end Block

variable (m : (ℓ : Loc nD τ sig) → Buf (Elt Ideal) ℓ) (ρ : Dev nD → PrngReg)

/-! ## From the grid points to the array -/

/-- The printed index maps over the grid: point `t` takes image `t` of the activations and of the result, and the whole of
    the weights, the selection matrices and the bias column. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The image a grid point works on. -/
def imgOf (t : Fin cfg0.N) : Fin 256 := ⟨t.val, lt_of_lt_of_eq t.isLt N_0⟩

/-- The image's block is image `t` of the re-laid activations. -/
theorem iblk0_apply (c : Dev nD) (t : Fin cfg0.N) (r : Fin 1024) (w : Fin 32) :
    (iblk m c 0 t : Vec Ideal S1x1024x32 .f32) (ix3 (0 : Fin 1) r w)
      = (V m c main_call0_v1 : S256x1024x32.Idx → EReal) (ix3 (imgOf t) r w) := by
  obtain ⟨e0, e1, e2, -⟩ := idx_facts t
  unfold iblk
  rw [View.read_apply]
  show V m c main_call0_v1 _ = V m c main_call0_v1 _
  refine congrArg (V m c main_call0_v1) (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 32 + 1 * w.val = w.val; omega

/-- The weights' block is the whole re-laid weight array. -/
theorem iblk1_apply (c : Dev nD) (t : Fin cfg0.N) (j : S3x128x96.Idx) :
    (iblk m c 1 t : Vec Ideal S3x128x96 .f32) j = (V m c main_call0_v4 : S3x128x96.Idx → EReal) j := by
  obtain ⟨-, -, -, e0, e1, e2, -⟩ := idx_facts t
  unfold iblk
  rw [View.read_apply]
  show V m c main_call0_v4 _ = V m c main_call0_v4 _
  refine congrArg (V m c main_call0_v4) (funext fun a => Fin.ext ?_)
  match a with
  | ⟨0, _⟩ => show win0_1.index t (0 : Fin 3) * 3 + 1 * (j 0).val = (j 0).val; omega
  | ⟨1, _⟩ => show win0_1.index t (1 : Fin 3) * 128 + 1 * (j 1).val = (j 1).val; omega
  | ⟨2, _⟩ => show win0_1.index t (2 : Fin 3) * 96 + 1 * (j 2).val = (j 2).val; omega

/-- The selection matrices' block is the whole array of them. -/
theorem iblk2_apply (c : Dev nD) (t : Fin cfg0.N) (j : S3x32x15.Idx) :
    (iblk m c 2 t : Vec Ideal S3x32x15 .f32) j = (V m c main_call0_v21 : S3x32x15.Idx → EReal) j := by
  obtain ⟨-, -, -, -, -, -, e0, e1, e2, -⟩ := idx_facts t
  unfold iblk
  rw [View.read_apply]
  show V m c main_call0_v21 _ = V m c main_call0_v21 _
  refine congrArg (V m c main_call0_v21) (funext fun a => Fin.ext ?_)
  match a with
  | ⟨0, _⟩ => show win0_2.index t (0 : Fin 3) * 3 + 1 * (j 0).val = (j 0).val; omega
  | ⟨1, _⟩ => show win0_2.index t (1 : Fin 3) * 32 + 1 * (j 1).val = (j 1).val; omega
  | ⟨2, _⟩ => show win0_2.index t (2 : Fin 3) * 15 + 1 * (j 2).val = (j 2).val; omega

/-- The bias block is the whole bias column. -/
theorem iblk3_apply (c : Dev nD) (t : Fin cfg0.N) (j : S128x1.Idx) :
    (iblk m c 3 t : Vec Ideal S128x1 .f32) j = (V m c main_call0_v6 : S128x1.Idx → EReal) j := by
  obtain ⟨-, -, -, -, -, -, -, -, -, e0, e1, -⟩ := idx_facts t
  unfold iblk
  rw [View.read_apply]
  show V m c main_call0_v6 _ = V m c main_call0_v6 _
  refine congrArg (V m c main_call0_v6) (funext fun a => Fin.ext ?_)
  match a with
  | ⟨0, _⟩ => show win0_3.index t (0 : Fin 2) * 128 + 1 * (j 0).val = (j 0).val; omega
  | ⟨1, _⟩ => show win0_3.index t (1 : Fin 2) * 1 + 1 * (j 1).val = (j 1).val; omega

/-- The flattened result of the five argument arrays as launched. -/
abbrev flatOf (c : Dev nD) : S256x64x225.Idx → EReal :=
  flatG (m ((c.tc : Thread nD τ).loc main_arg0)) (m ((c.tc : Thread nD τ).loc main_arg1)) (m ((c.tc : Thread nD τ).loc main_arg3))
    (m ((c.tc : Thread nD τ).loc main_arg2)) (m ((c.tc : Thread nD τ).loc main_arg4))

/-- What point `t` writes back is image `t` of the flattened result. -/
theorem flushed_eq (c : Dev nD) (t : Fin cfg0.N) :
    (dats m 0 c).flushed 4 t = ((cfg0.win 4).blk t).view.read (Elt Ideal) (flatOf m c) := by
  show (cfg0.win 4).cut (grid0.coords t) ((dats m 0 c).after 4 t) = _
  rw [after0_4]
  obtain ⟨-, -, -, -, -, -, -, -, -, -, -, e0, e1, e2⟩ := idx_facts t
  funext j
  show out0_4 (iblk m c 0 t) (iblk m c 1 t) (iblk m c 2 t) (iblk m c 3 t) j = flatOf m c (((cfg0.win 4).blk t).view.emb j)
  refine (out_block (m ((c.tc : Thread nD τ).loc main_arg0)) (m ((c.tc : Thread nD τ).loc main_arg1)) (m ((c.tc : Thread nD τ).loc main_arg3))
    (m ((c.tc : Thread nD τ).loc main_arg2)) (m ((c.tc : Thread nD τ).loc main_arg4)) (imgOf t)
    (iblk m c 0 t) (iblk m c 1 t) (iblk m c 2 t) (iblk m c 3 t)
    (fun h ci w => (iblk0_apply m c t _ w).trans (xrows_apply m c (imgOf t) h ci w))
    (fun kw kh cc ci => (iblk1_apply m c t _).trans (wgemm_apply m c kw kh cc ci))
    (fun kw w ow => (iblk2_apply m c t _).trans (sel_apply m c kw w ow))
    (fun cc => (iblk3_apply m c t _).trans (bcol_apply m c cc)) j).trans ?_
  refine congrArg (flatOf m c) (funext fun a => Fin.ext ?_)
  match a with
  | ⟨0, _⟩ => show t.val = win0_4.index t (0 : Fin 3) * 1 + 1 * (j 0).val; have hj : (j 0).val < 1 := (j 0).isLt; omega
  | ⟨1, _⟩ => show (j 1).val = win0_4.index t (1 : Fin 3) * 64 + 1 * (j 1).val; omega
  | ⟨2, _⟩ => show (j 2).val = win0_4.index t (2 : Fin 3) * 225 + 1 * (j 2).val; omega

/-- An index of the flattened result is in point `t`'s block iff each coordinate is in the block's range on its axis. -/
theorem mem_blk (t : Fin cfg0.N) (i : S256x64x225.Idx) :
    i ∈ ((cfg0.win 4).blk t).view.set ↔ ∀ a : Fin 3, win0_4.index t a * S1x64x225.size a ≤ (i a).val
      ∧ (i a).val < win0_4.index t a * S1x64x225.size a + S1x64x225.size a := by
  show i ∈ ((View.whole main_call0_v22).slice (win0_4.rect t)).set ↔ _
  rw [View.set_slice_whole, Rect.mem_set_unit]
  exact Iff.rfl

/-- The array the region leaves: every index lies in the block of the point of its image, so the array is the flattened
    result. -/
theorem final (c : Dev nD) : (dats m 0 c).arrAt 4 cfg0.N = flatOf m c :=
  (dats m 0 c).arrAt_eq_of_cover 4 (flatOf m c) (fun t _ => flushed_eq m c t) fun i => by
    have hi0 : ((i : S256x64x225.Idx) 0).val < 256 := ((i : S256x64x225.Idx) 0).isLt
    have hi1 : ((i : S256x64x225.Idx) 1).val < 64 := ((i : S256x64x225.Idx) 1).isLt
    have hi2 : ((i : S256x64x225.Idx) 2).val < 225 := ((i : S256x64x225.Idx) 2).isLt
    refine ⟨⟨((i : S256x64x225.Idx) 0).val, lt_of_lt_of_eq hi0 N_0.symm⟩, flush0_4 _, ?_⟩
    obtain ⟨-, -, -, -, -, -, -, -, -, -, -, e0, e1, e2⟩ := idx_facts ⟨((i : S256x64x225.Idx) 0).val, lt_of_lt_of_eq hi0 N_0.symm⟩
    have e0' : win0_4.index ⟨((i : S256x64x225.Idx) 0).val, lt_of_lt_of_eq hi0 N_0.symm⟩ (0 : Fin 3) = ((i : S256x64x225.Idx) 0).val := e0
    rw [mem_blk]
    intro a
    match a with
    | ⟨0, _⟩ =>
      show win0_4.index _ (0 : Fin 3) * 1 ≤ ((i : S256x64x225.Idx) 0).val ∧ ((i : S256x64x225.Idx) 0).val < win0_4.index _ (0 : Fin 3) * 1 + 1
      rw [e0']; omega
    | ⟨1, _⟩ =>
      show win0_4.index _ (1 : Fin 3) * 64 ≤ ((i : S256x64x225.Idx) 1).val ∧ ((i : S256x64x225.Idx) 1).val < win0_4.index _ (1 : Fin 3) * 64 + 64
      rw [e1]; omega
    | ⟨2, _⟩ =>
      show win0_4.index _ (2 : Fin 3) * 225 ≤ ((i : S256x64x225.Idx) 2).val ∧ ((i : S256x64x225.Idx) 2).val < win0_4.index _ (2 : Fin 3) * 225 + 225
      rw [e2]; omega

/-- The host's reshape of the flattened result `[n, co, 15·oh + ow]` to `[n, co, oh, ow]` is the specification. -/
theorem W_main_v0 (c : Dev nD) :
    Pipeline.afterTail₀ cfgs (dats m) 0 (V0 m) [hostOps1] c main_v0
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  show StableHlo.after hostOps1 _ (Proc.devRef .tc main_v0) = _
  after_results
  funext j
  obtain ⟨n, co, oh, ow, rfl⟩ : ∃ (n : Fin 256) (co : Fin 64) (oh ow : Fin 15), j = ix4 n co oh ow := ⟨j 0, j 1, j 2, j 3, eq_ix4 j⟩
  show shapeCast S256x64x15x15 (Pipeline.withArrays spec0 c (V0 m c) (fun w => (dats m 0 c).arrAt w cfg0.N) (Proc.devRef .tc main_call0_v22))
    shapeCasts_S256x64x225_S256x64x15x15 (ix4 n co oh ow) = _
  rw [show Pipeline.withArrays spec0 c (V0 m c) (fun w => (dats m 0 c).arrAt w cfg0.N) (Proc.devRef .tc main_call0_v22) = flatOf m c from
    (Pipeline.withArrays_arr spec0 launch0.win.arr_inj c _ _ 4).trans (final m c)]
  rw [shapeCast_apply (flatOf m c) shapeCasts_S256x64x225_S256x64x15x15 (ix4 n co oh ow)
    (ix3 n co (⟨15 * oh.val + ow.val, by omega⟩ : Fin 225))
    (by rw [Shape.rowMajor_val_three, Shape.rowMajor_val_four]
        show (n.val * 64 + co.val) * 225 + (15 * oh.val + ow.val) = ((n.val * 64 + co.val) * 15 + oh.val) * 15 + ow.val
        omega)]
  show Cert.Spec.G _ _ _ _ _ (ix4 n co (rowOf (⟨15 * oh.val + ow.val, by omega⟩ : Fin 225)) (colOf (⟨15 * oh.val + ow.val, by omega⟩ : Fin 225))) = _
  rw [show rowOf (⟨15 * oh.val + ow.val, by omega⟩ : Fin 225) = oh from Fin.ext (by show (15 * oh.val + ow.val) / 15 = oh.val; omega),
    show colOf (⟨15 * oh.val + ow.val, by omega⟩ : Fin 225) = ow from Fin.ext (by show (15 * oh.val + ow.val) % 15 = ow.val; omega)]

/-- The run with the result named: every weakly fair execution terminates with the result array at `Cert.Spec.G` of the
    arguments and the arguments unchanged. -/
theorem run_value : θ_run (defs (F := Ideal)) (onTc (τ := τ) (main (F := Ideal))) ⟨m, fun _ => 0, ρ⟩ (fun r => ∀ c : Dev nD,
      r.2.mem ((c.tc : Thread nD τ).loc main_v0)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (W_main_v0 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Hand

end
-- ==== Proof.lean ====
/-
  The certificate: a Pallas kernel for a gated 3×3 stride-2 convolution against its reference, over the extended reals.

  Both programs compute `Cert.Spec.G`: `lin · gate(g)` with `lin`, `g` the two branches of the convolution
  `∑ kh kw ci, w[co, ci, kh, kw] · x[n, ci, 2·oh + kh, 2·ow + kw] + b[co]`. The kernel puts the images in the lane axis and
  adds the products up kernel row by kernel row, each a `[128, 96] × [96, 256]` product over `(kw, ci)`; the reference
  works image by image, picks the columns by a product with a 0/1 matrix and adds up kernel column by kernel column over
  `(kh, ci)`. On the extended reals a product with a 0/1 matrix picks one term, sums may be regrouped and reordered
  (addition there is commutative and associative), and a change of float format is the identity, so the two results
  agree element by element with no condition on the inputs.

  The frames: the kernel's program by its run (`Cert.Kernel.Hand.run_main`, `Cert.KernelIdeal.Hand.run_value`: three of
  its windows read one array, each with a third of its share), the reference's by its generated frame. The idealization
  rewrote no operation, so `preserves` holds trivially.
-/
import proofs.«136853_g2000106783720467_pallasbulk_1336_12_alg».proof.Defs
import proofs.«136853_g2000106783720467_pallasbulk_1336_12_alg».proof.Proof.Gen.Kernel
import proofs.«136853_g2000106783720467_pallasbulk_1336_12_alg».proof.Proof.Gen.Kernel.Skeleton
import proofs.«136853_g2000106783720467_pallasbulk_1336_12_alg».proof.Proof.Gen.Kernel.Launch
import proofs.«136853_g2000106783720467_pallasbulk_1336_12_alg».proof.Proof.Gen.Kernel.Points
import proofs.«136853_g2000106783720467_pallasbulk_1336_12_alg».proof.Proof.Gen.KernelIdeal
import proofs.«136853_g2000106783720467_pallasbulk_1336_12_alg».proof.Proof.Gen.KernelIdeal.Skeleton
import proofs.«136853_g2000106783720467_pallasbulk_1336_12_alg».proof.Proof.Gen.KernelIdeal.Launch
import proofs.«136853_g2000106783720467_pallasbulk_1336_12_alg».proof.Proof.Gen.KernelIdeal.Points
import proofs.«136853_g2000106783720467_pallasbulk_1336_12_alg».proof.Proof.Gen.ReferenceIdeal
import proofs.«136853_g2000106783720467_pallasbulk_1336_12_alg».proof.Proof.Gen.ReferenceIdeal.Skeleton
import proofs.«136853_g2000106783720467_pallasbulk_1336_12_alg».proof.Proof.Gen.ReferenceIdeal.Launch
import proofs.«136853_g2000106783720467_pallasbulk_1336_12_alg».proof.Proof.Gen.ReferenceIdeal.Points
import proofs.«136853_g2000106783720467_pallasbulk_1336_12_alg».proof.Proof.Gen.ReferenceIdeal.Frame
import proofs.«136853_g2000106783720467_pallasbulk_1336_12_alg».proof.Proof.Gen.Pre_finite_inputs
import proofs.«136853_g2000106783720467_pallasbulk_1336_12_alg».proof.Proof.KbRun
import proofs.«136853_g2000106783720467_pallasbulk_1336_12_alg».proof.Proof.KiValue
import proofs.«136853_g2000106783720467_pallasbulk_1336_12_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ =>
  (θ_run (Cert.Kernel.defs (F := Bits)) _ _).mono (fun _ h c => (h c).2) (Cert.Kernel.Hand.run_main (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Hand.run_value m ρ)

/-- And the reference. -/
theorem frame_ri : Cert.frame_ReferenceIdeal := fun m ρ _ => Cert.ReferenceIdeal.Gen.frame m ρ

/-- Both idealized programs end with the result at the specification's function of the arguments; the arguments agree. -/
theorem algebraic : Cert.algebraic_KernelIdeal_ReferenceIdeal := by
  intro m ρ m' ρ' _ hagree
  refine ⟨_, Cert.KernelIdeal.Hand.run_value m ρ, ?_⟩
  refine (θ_run (Cert.ReferenceIdeal.defs (F := Ideal)) _ _).mono (fun _ h c => ⟨(h c).1.trans ?_, (h c).2⟩)
    (Cert.ReferenceIdeal.Hand.run_value m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
